-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x17x512x512 : Shape := ⟨4, ![16, 17, 512, 512]⟩
abbrev S16x30x17 : Shape := ⟨3, ![16, 30, 17]⟩
abbrev S_ : Shape := ⟨0, ![]⟩

class Facts : Prop where
  bcast_S_S16x17x512x512 : S_.BroadcastsInDim S16x17x512x512 (![] : Fin 0 → Fin S16x17x512x512.rank)
  reducesTo_S16x17x512x512_S_d0_1_2_3 : S16x17x512x512.ReducesTo [0, 1, 2, 3] S_
  h_S_ : 0 < S_.numel
  bcast_S_S16x30x17 : S_.BroadcastsInDim S16x30x17 (![] : Fin 0 → Fin S16x30x17.rank)
  reducesTo_S16x30x17_S_d0_1_2 : S16x30x17.ReducesTo [0, 1, 2] S_

variable [Facts]

def fn {F : FTy → Type} [FloatOps F] (main_arg0 : FVec F S16x17x512x512 .f32) (main_arg1 : IVec S16x30x17 32) (main_arg2 : IVec S16x30x17 32) : IVec S_ 1 :=
  let main_v0 : FVec F S16x17x512x512 .f32 := Host.absf main_arg0
  let main_cst : FVec F S_ .f32 := constant S_ .f32 0x7F800000#32
  let main_v1 : FVec F S16x17x512x512 .f32 := broadcastInDim S16x17x512x512 ![] bcast_S_S16x17x512x512 main_cst
  let main_v2 : IVec S16x17x512x512 1 := cmpf .olt main_v0 main_v1
  let main_c : IVec S_ 1 := constantI S_ 1 1#1
  let main_v3 : IVec S_ 1 := (fun x v => Host.reduce IntOp.andi x v reducesTo_S16x17x512x512_S_d0_1_2_3 h_S_) main_v2 main_c
  let main_c_0 : IVec S_ 32 := constantI S_ 32 0#32
  let main_v4 : IVec S16x30x17 32 := broadcastInDim S16x30x17 ![] bcast_S_S16x30x17 main_c_0
  let main_v5 : IVec S16x30x17 1 := cmpi .sge main_arg1 main_v4
  let main_c_1 : IVec S_ 32 := constantI S_ 32 262144#32
  let main_v6 : IVec S16x30x17 32 := broadcastInDim S16x30x17 ![] bcast_S_S16x30x17 main_c_1
  let main_v7 : IVec S16x30x17 1 := cmpi .slt main_arg1 main_v6
  let main_v8 : IVec S16x30x17 1 := andi main_v5 main_v7
  let main_c_2 : IVec S_ 1 := constantI S_ 1 1#1
  let main_v9 : IVec S_ 1 := (fun x v => Host.reduce IntOp.andi x v reducesTo_S16x30x17_S_d0_1_2 h_S_) main_v8 main_c_2
  let main_v10 : IVec S_ 1 := andi main_v3 main_v9
  main_v10
-- ==== Kernel.lean ====
abbrev S16x17x512x512 : Shape := ⟨4, ![16, 17, 512, 512]⟩
abbrev S16x30x17 : Shape := ⟨3, ![16, 30, 17]⟩
abbrev S16x17x262144 : Shape := ⟨3, ![16, 17, 262144]⟩
abbrev S1x17x2048 : Shape := ⟨3, ![1, 17, 2048]⟩
abbrev S1x30x17 : Shape := ⟨3, ![1, 30, 17]⟩
abbrev S30x17 : Shape := ⟨2, ![30, 17]⟩
abbrev S17x2048 : Shape := ⟨2, ![17, 2048]⟩
abbrev S1x1x2048 : Shape := ⟨3, ![1, 1, 2048]⟩
abbrev S30x17x1 : Shape := ⟨3, ![30, 17, 1]⟩
abbrev S30x17x2048 : Shape := ⟨3, ![30, 17, 2048]⟩
abbrev S_ : Shape := ⟨0, ![]⟩
abbrev S16x30 : Shape := ⟨2, ![16, 30]⟩
abbrev S16x30x1 : Shape := ⟨3, ![16, 30, 1]⟩
abbrev S16 : Shape := ⟨1, ![16]⟩
abbrev S16x1x30 : Shape := ⟨3, ![16, 1, 30]⟩
abbrev S16x30x30 : Shape := ⟨3, ![16, 30, 30]⟩

abbrev nBuf : Space → Nat
  | .hbm => 81
  | .vmem => 7
  | .smem => 0
  | _ => 0

abbrev bufTy : (tb : Table) → Fin (tcTables nBuf tb) → BufTy
  | .hbm, ⟨0, _⟩ => ⟨S16x17x512x512, .f32⟩
  | .hbm, ⟨1, _⟩ => ⟨S16x30x17, .i32⟩
  | .hbm, ⟨2, _⟩ => ⟨S16x30x17, .i32⟩
  | .hbm, ⟨3, _⟩ => ⟨S16x17x262144, .f32⟩
  | .hbm, ⟨4, _⟩ => ⟨S16x30x17, .f32⟩
  | .hbm, ⟨5, _⟩ => ⟨S16x30x17, .f32⟩
  | .hbm, ⟨6, _⟩ => ⟨S_, .f32⟩
  | .hbm, ⟨7, _⟩ => ⟨S16x30, .f32⟩
  | .hbm, ⟨8, _⟩ => ⟨S_, .f32⟩
  | .hbm, ⟨9, _⟩ => ⟨S16x30, .f32⟩
  | .hbm, ⟨10, _⟩ => ⟨S16x30, .i1⟩
  | .hbm, ⟨11, _⟩ => ⟨S_, .f32⟩
  | .hbm, ⟨12, _⟩ => ⟨S16x30, .f32⟩
  | .hbm, ⟨13, _⟩ => ⟨S16x30, .f32⟩
  | .hbm, ⟨14, _⟩ => ⟨S16x30x17, .f32⟩
  | .hbm, ⟨15, _⟩ => ⟨S_, .f32⟩
  | .hbm, ⟨16, _⟩ => ⟨S16x30, .f32⟩
  | .hbm, ⟨17, _⟩ => ⟨S16x30, .f32⟩
  | .hbm, ⟨18, _⟩ => ⟨S16x30x1, .f32⟩
  | .hbm, ⟨19, _⟩ => ⟨S16x30x17, .f32⟩
  | .hbm, ⟨20, _⟩ => ⟨S16x30x17, .f32⟩
  | .hbm, ⟨21, _⟩ => ⟨S16x30x17, .f32⟩
  | .hbm, ⟨22, _⟩ => ⟨S16x30x17, .f32⟩
  | .hbm, ⟨23, _⟩ => ⟨S_, .f32⟩
  | .hbm, ⟨24, _⟩ => ⟨S16x30, .f32⟩
  | .hbm, ⟨25, _⟩ => ⟨S16x30, .f32⟩
  | .hbm, ⟨26, _⟩ => ⟨S16x30, .f32⟩
  | .hbm, ⟨27, _⟩ => ⟨S_, .f32⟩
  | .hbm, ⟨28, _⟩ => ⟨S16, .f32⟩
  | .hbm, ⟨29, _⟩ => ⟨S_, .f32⟩
  | .hbm, ⟨30, _⟩ => ⟨S_, .f32⟩
  | .hbm, ⟨31, _⟩ => ⟨S16x30, .f32⟩
  | .hbm, ⟨32, _⟩ => ⟨S16x30, .f32⟩
  | .hbm, ⟨33, _⟩ => ⟨S_, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S16, .f32⟩
  | .hbm, ⟨39, _⟩ => ⟨S16x1x30, .f32⟩
  | .hbm, ⟨40, _⟩ => ⟨S16x30x1, .f32⟩
  | .hbm, ⟨41, _⟩ => ⟨S16x30x30, .f32⟩
  | .hbm, ⟨42, _⟩ => ⟨S16x30x30, .f32⟩
  | .hbm, ⟨43, _⟩ => ⟨S16x30x30, .f32⟩
  | .hbm, ⟨44, _⟩ => ⟨S16x30x1, .i1⟩
  | .hbm, ⟨45, _⟩ => ⟨S16x1x30, .i1⟩
  | .hbm, ⟨46, _⟩ => ⟨S16x30x30, .i1⟩
  | .hbm, ⟨47, _⟩ => ⟨S16x30x30, .i1⟩
  | .hbm, ⟨48, _⟩ => ⟨S16x30x30, .i1⟩
  | .hbm, ⟨49, _⟩ => ⟨S16x30x30, .f32⟩
  | .hbm, ⟨50, _⟩ => ⟨S16x30x30, .f32⟩
  | .hbm, ⟨51, _⟩ => ⟨S16x30x30, .f32⟩
  | .hbm, ⟨52, _⟩ => ⟨S16x30x30, .f32⟩
  | .hbm, ⟨53, _⟩ => ⟨S16x30x30, .f32⟩
  | .hbm, ⟨54, _⟩ => ⟨S_, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .i1⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S16, .f32⟩
  | .hbm, ⟨67, _⟩ => ⟨S_, .f32⟩
  | .hbm, ⟨68, _⟩ => ⟨S_, .f32⟩
  | .hbm, ⟨69, _⟩ => ⟨S16, .f32⟩
  | .hbm, ⟨70, _⟩ => ⟨S16, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .local _ .vmem, ⟨0, _⟩ => ⟨S1x17x2048, .f32⟩
  | .local _ .vmem, ⟨1, _⟩ => ⟨S1x17x2048, .f32⟩
  | .local _ .vmem, ⟨2, _⟩ => ⟨S1x30x17, .i32⟩
  | .local _ .vmem, ⟨3, _⟩ => ⟨S1x30x17, .i32⟩
  | .local _ .vmem, ⟨4, _⟩ => ⟨S1x30x17, .f32⟩
  | .local _ .vmem, ⟨5, _⟩ => ⟨S1x30x17, .f32⟩
  | .local _ .vmem, ⟨6, _⟩ => ⟨S30x17, .f32⟩
  | _, _ => ⟨S16x17x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_call0_v0 : Ref sig .tc := ⟨.hbm, 30, rfl⟩
abbrev main_call0_v1 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_call1_v0 : Ref sig .tc := ⟨.hbm, 68, rfl⟩
abbrev main_call1_v1 : Ref sig .tc := ⟨.hbm, 69, rfl⟩
abbrev main_v49 : Ref sig .tc := ⟨.hbm, 70, rfl⟩
abbrev main_cst_13 : Ref sig .tc := ⟨.hbm, 71, rfl⟩
abbrev main_v50 : Ref sig .tc := ⟨.hbm, 72, rfl⟩
abbrev main_cst_14 : Ref sig .tc := ⟨.hbm, 73, rfl⟩
abbrev main_v51 : Ref sig .tc := ⟨.hbm, 74, rfl⟩
abbrev main_cst_15 : Ref sig .tc := ⟨.hbm, 75, rfl⟩
abbrev main_v52 : Ref sig .tc := ⟨.hbm, 76, rfl⟩
abbrev main_cst_16 : Ref sig .tc := ⟨.hbm, 77, rfl⟩
abbrev main_v53 : Ref sig .tc := ⟨.hbm, 78, rfl⟩
abbrev main_cst_17 : Ref sig .tc := ⟨.hbm, 79, rfl⟩
abbrev main_v54 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 128], ![false, false]⟩

def k0_cond2 (i : grid0.Coords) : BitVec 1 :=
  let arg1 : BitVec 32 := BitVec.ofNat 32 (i 1).val
  let c127_i32 : BitVec 32 := 127#32
  let v26 : BitVec 1 := Scalar.cmpi .eq arg1 c127_i32
  let v27 : BitVec 32 := Scalar.extui v26
  let c0_i32_11 : BitVec 32 := 0#32
  let v28 : BitVec 1 := Scalar.cmpi .ne v27 c0_i32_11
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x17x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x30x17 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x30x17 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16x17x512x512_S16x17x262144 : S16x17x512x512.ShapeCasts S16x17x262144
  inb_S30x17_S30x17_0_0 : ∀ a, (![0, 0] : Fin 2 → Nat) a + S30x17.size a ≤ S30x17.size a
  h_S30x17 : 0 < S30x17.numel
  shapeCasts_S30x17_S30x17 : S30x17.ShapeCasts S30x17
  inb_S1x17x2048_S1x17x2048_0_0_0 : ∀ a, (![0, 0, 0] : Fin 3 → Nat) a + S1x17x2048.size a ≤ S1x17x2048.size a
  h_S1x17x2048 : 0 < S1x17x2048.numel
  shapeCasts_S1x17x2048_S17x2048 : S1x17x2048.ShapeCasts S17x2048
  inb_S1x30x17_S1x30x17_0_0_0 : ∀ a, (![0, 0, 0] : Fin 3 → Nat) a + S1x30x17.size a ≤ S1x30x17.size a
  h_S1x30x17 : 0 < S1x30x17.numel
  shapeCasts_S1x30x17_S30x17 : S1x30x17.ShapeCasts S30x17
  iota_S1x1x2048_d2_w32 : S1x1x2048.Iotas .tc 32 [2]
  shapeCasts_S30x17_S30x17x1 : S30x17.ShapeCasts S30x17x1
  broadcasts_S30x17x1_S30x17x2048 : S30x17x1.Broadcasts S30x17x2048
  broadcasts_S1x1x2048_S30x17x2048 : S1x1x2048.Broadcasts S30x17x2048
  shapeCasts_S17x2048_S1x17x2048 : S17x2048.ShapeCasts S1x17x2048
  shapeCasts_S1x17x2048_S1x17x2048 : S1x17x2048.ShapeCasts S1x17x2048
  broadcasts_S1x17x2048_S30x17x2048 : S1x17x2048.Broadcasts S30x17x2048
  reduces_S30x17x2048_S30x17 : S30x17x2048.Reduces [2] S30x17
  shapeCasts_S30x17_S1x30x17 : S30x17.ShapeCasts S1x30x17
  reducesTo_S16x30x17_S16x30_d2 : S16x30x17.ReducesTo [2] S16x30
  h_S_ : 0 < S_.numel
  bcast_S_S16x30 : S_.BroadcastsInDim S16x30 (![] : Fin 0 → Fin S16x30.rank)
  bcast_S16x30_S16x30x1_0_1 : S16x30.BroadcastsInDim S16x30x1 (![0, 1] : Fin 2 → Fin S16x30x1.rank)
  bcast_S16x30x1_S16x30x17_0_1_2 : S16x30x1.BroadcastsInDim S16x30x17 (![0, 1, 2] : Fin 3 → Fin S16x30x17.rank)
  reducesTo_S16x30_S16_d1 : S16x30.ReducesTo [1] S16
  bcast_S_S16 : S_.BroadcastsInDim S16 (![] : Fin 0 → Fin S16.rank)
  bcast_S16x30_S16x1x30_0_2 : S16x30.BroadcastsInDim S16x1x30 (![0, 2] : Fin 2 → Fin S16x1x30.rank)
  bcast_S16x1x30_S16x30x30_0_1_2 : S16x1x30.BroadcastsInDim S16x30x30 (![0, 1, 2] : Fin 3 → Fin S16x30x30.rank)
  bcast_S16x30x1_S16x30x30_0_1_2 : S16x30x1.BroadcastsInDim S16x30x30 (![0, 1, 2] : Fin 3 → Fin S16x30x30.rank)
  reducesTo_S16x30x30_S16_d1_2 : S16x30x30.ReducesTo [1, 2] S16
  reducesTo_S16_S_d0 : S16.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x17x2048.size a ≤ S16x17x262144.size a
  hwx0_0 : ∀ i : grid0.Coords, EltTy.bits .f32 = 32 ∨ (Rect.block (s := S16x17x262144) S1x17x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x30x17.size a ≤ S16x30x17.size a
  hwx0_1 : ∀ i : grid0.Coords, EltTy.bits .i32 = 32 ∨ (Rect.block (s := S16x30x17) S1x30x17.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x30x17.size a ≤ S16x30x17.size a
  hwx0_2 : ∀ i : grid0.Coords, EltTy.bits .f32 = 32 ∨ (Rect.block (s := S16x30x17) S1x30x17.size (cc0_transform_2 i) (hinb0_2 i)).WholeWords (EltTy.packing .f32)

variable [Facts₀]

abbrev win0_0 : Pipeline.Window sig grid0 :=
  Pipeline.Window.ofSpec (Memref.whole main_v0) S1x17x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x30x17.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x30x17.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x17x512x512 : Shape := ⟨4, ![16, 17, 512, 512]⟩
abbrev S16x30x17 : Shape := ⟨3, ![16, 30, 17]⟩
abbrev S16x1x17x262144 : Shape := ⟨4, ![16, 1, 17, 262144]⟩
abbrev S17 : Shape := ⟨1, ![17]⟩
abbrev S1x17 : Shape := ⟨2, ![1, 17]⟩
abbrev S_ : Shape := ⟨0, ![]⟩
abbrev S30x17 : Shape := ⟨2, ![30, 17]⟩
abbrev S30x17x1 : Shape := ⟨3, ![30, 17, 1]⟩
abbrev S16x30x17x1 : Shape := ⟨4, ![16, 30, 17, 1]⟩
abbrev S16x30x17x2 : Shape := ⟨4, ![16, 30, 17, 2]⟩
abbrev S16x1x30x17 : Shape := ⟨4, ![16, 1, 30, 17]⟩
abbrev S16x30 : Shape := ⟨2, ![16, 30]⟩
abbrev S16x30x1 : Shape := ⟨3, ![16, 30, 1]⟩
abbrev S16x30x1x1 : Shape := ⟨4, ![16, 30, 1, 1]⟩
abbrev S16 : Shape := ⟨1, ![16]⟩
abbrev S30 : Shape := ⟨1, ![30]⟩
abbrev S16x1x30x1 : Shape := ⟨4, ![16, 1, 30, 1]⟩
abbrev S16x30x30x1 : Shape := ⟨4, ![16, 30, 30, 1]⟩
abbrev S16x1x30 : Shape := ⟨3, ![16, 1, 30]⟩
abbrev S16x30x30 : Shape := ⟨3, ![16, 30, 30]⟩

abbrev nBuf : Space → Nat
  | .hbm => 112
  | .vmem => 0
  | .smem => 0
  | _ => 0

abbrev bufTy : (tb : Table) → Fin (tcTables nBuf tb) → BufTy
  | .hbm, ⟨0, _⟩ => ⟨S16x17x512x512, .f32⟩
  | .hbm, ⟨1, _⟩ => ⟨S16x30x17, .i32⟩
  | .hbm, ⟨2, _⟩ => ⟨S16x30x17, .i32⟩
  | .hbm, ⟨3, _⟩ => ⟨S16x1x17x262144, .f32⟩
  | .hbm, ⟨4, _⟩ => ⟨S17, .i32⟩
  | .hbm, ⟨5, _⟩ => ⟨S1x17, .i32⟩
  | .hbm, ⟨6, _⟩ => ⟨S_, .i32⟩
  | .hbm, ⟨7, _⟩ => ⟨S1x17, .i32⟩
  | .hbm, ⟨8, _⟩ => ⟨S1x17, .i1⟩
  | .hbm, ⟨9, _⟩ => ⟨S_, .i32⟩
  | .hbm, ⟨10, _⟩ => ⟨S1x17, .i32⟩
  | .hbm, ⟨11, _⟩ => ⟨S1x17, .i32⟩
  | .hbm, ⟨12, _⟩ => ⟨S1x17, .i32⟩
  | .hbm, ⟨13, _⟩ => ⟨S_, .i32⟩
  | .hbm, ⟨14, _⟩ => ⟨S16x30x17, .i32⟩
  | .hbm, ⟨15, _⟩ => ⟨S16x30x17, .i1⟩
  | .hbm, ⟨16, _⟩ => ⟨S_, .i32⟩
  | .hbm, ⟨17, _⟩ => ⟨S16x30x17, .i32⟩
  | .hbm, ⟨18, _⟩ => ⟨S16x30x17, .i32⟩
  | .hbm, ⟨19, _⟩ => ⟨S16x30x17, .i32⟩
  | .hbm, ⟨20, _⟩ => ⟨S30x17, .i32⟩
  | .hbm, ⟨21, _⟩ => ⟨S30x17x1, .i32⟩
  | .hbm, ⟨22, _⟩ => ⟨S16x30x17x1, .i32⟩
  | .hbm, ⟨23, _⟩ => ⟨S16x30x17x1, .i32⟩
  | .hbm, ⟨24, _⟩ => ⟨S16x30x17x2, .i32⟩
  | .hbm, ⟨25, _⟩ => ⟨S16x1x30x17, .f32⟩
  | .hbm, ⟨26, _⟩ => ⟨S16x30x17x1, .f32⟩
  | .hbm, ⟨27, _⟩ => ⟨S16x30x17, .f32⟩
  | .hbm, ⟨28, _⟩ => ⟨S_, .f32⟩
  | .hbm, ⟨29, _⟩ => ⟨S16x30, .f32⟩
  | .hbm, ⟨30, _⟩ => ⟨S_, .f32⟩
  | .hbm, ⟨31, _⟩ => ⟨S16x30, .f32⟩
  | .hbm, ⟨32, _⟩ => ⟨S16x30, .i1⟩
  | .hbm, ⟨33, _⟩ => ⟨S_, .f32⟩
  | .hbm, ⟨34, _⟩ => ⟨S16x30, .f32⟩
  | .hbm, ⟨35, _⟩ => ⟨S16x30, .f32⟩
  | .hbm, ⟨36, _⟩ => ⟨S16x30x17x1, .f32⟩
  | .hbm, ⟨37, _⟩ => ⟨S16x30x17x1, .f32⟩
  | .hbm, ⟨38, _⟩ => ⟨S_, .f32⟩
  | .hbm, ⟨39, _⟩ => ⟨S16x30x1, .f32⟩
  | .hbm, ⟨40, _⟩ => ⟨S16x30x1, .f32⟩
  | .hbm, ⟨41, _⟩ => ⟨S16x30x1, .f32⟩
  | .hbm, ⟨42, _⟩ => ⟨S16x30x1x1, .f32⟩
  | .hbm, ⟨43, _⟩ => ⟨S16x30x17x1, .f32⟩
  | .hbm, ⟨44, _⟩ => ⟨S16x30x17x1, .f32⟩
  | .hbm, ⟨45, _⟩ => ⟨S16x30x17x1, .f32⟩
  | .hbm, ⟨46, _⟩ => ⟨S_, .f32⟩
  | .hbm, ⟨47, _⟩ => ⟨S16x30x17, .f32⟩
  | .hbm, ⟨48, _⟩ => ⟨S16x30x17, .f32⟩
  | .hbm, ⟨49, _⟩ => ⟨S_, .f32⟩
  | .hbm, ⟨50, _⟩ => ⟨S16x30, .f32⟩
  | .hbm, ⟨51, _⟩ => ⟨S_, .f32⟩
  | .hbm, ⟨52, _⟩ => ⟨S16x30, .f32⟩
  | .hbm, ⟨53, _⟩ => ⟨S16x30, .f32⟩
  | .hbm, ⟨54, _⟩ => ⟨S16x30, .f32⟩
  | .hbm, ⟨55, _⟩ => ⟨S16x30, .f32⟩
  | .hbm, ⟨56, _⟩ => ⟨S_, .f32⟩
  | .hbm, ⟨57, _⟩ => ⟨S16, .f32⟩
  | .hbm, ⟨58, _⟩ => ⟨S_, .f32⟩
  | .hbm, ⟨59, _⟩ => ⟨S_, .f32⟩
  | .hbm, ⟨60, _⟩ => ⟨S30, .f32⟩
  | .hbm, ⟨61, _⟩ => ⟨S16x30, .f32⟩
  | .hbm, ⟨62, _⟩ => ⟨S16x30, .f32⟩
  | .hbm, ⟨63, _⟩ => ⟨S_, .f32⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S16, .f32⟩
  | .hbm, ⟨69, _⟩ => ⟨S16x1x30x1, .f32⟩
  | .hbm, ⟨70, _⟩ => ⟨S16x30x1x1, .f32⟩
  | .hbm, ⟨71, _⟩ => ⟨S16x30x30x1, .f32⟩
  | .hbm, ⟨72, _⟩ => ⟨S16x30x30x1, .f32⟩
  | .hbm, ⟨73, _⟩ => ⟨S16x30x30x1, .f32⟩
  | .hbm, ⟨74, _⟩ => ⟨S16x30x1, .i1⟩
  | .hbm, ⟨75, _⟩ => ⟨S16x1x30, .i1⟩
  | .hbm, ⟨76, _⟩ => ⟨S16x30x30, .i1⟩
  | .hbm, ⟨77, _⟩ => ⟨S16x30x30, .i1⟩
  | .hbm, ⟨78, _⟩ => ⟨S16x30x30, .i1⟩
  | .hbm, ⟨79, _⟩ => ⟨S16x30x30, .f32⟩
  | .hbm, ⟨80, _⟩ => ⟨S16x30x30x1, .f32⟩
  | .hbm, ⟨81, _⟩ => ⟨S16x30x30x1, .f32⟩
  | .hbm, ⟨82, _⟩ => ⟨S16x30x30x1, .f32⟩
  | .hbm, ⟨83, _⟩ => ⟨S16x30x30x1, .f32⟩
  | .hbm, ⟨84, _⟩ => ⟨S16x30x30x1, .f32⟩
  | .hbm, ⟨85, _⟩ => ⟨S_, .f32⟩
  | .hbm, ⟨86, _⟩ => ⟨S16, .f32⟩
  | .hbm, ⟨87, _⟩ => ⟨S_, .f32⟩
  | .hbm, ⟨88, _⟩ => ⟨S16, .f32⟩
  | .hbm, ⟨89, _⟩ => ⟨S16, .i1⟩
  | .hbm, ⟨90, _⟩ => ⟨S_, .f32⟩
  | .hbm, ⟨91, _⟩ => ⟨S16, .f32⟩
  | .hbm, ⟨92, _⟩ => ⟨S16, .f32⟩
  | .hbm, ⟨93, _⟩ => ⟨S16, .f32⟩
  | .hbm, ⟨94, _⟩ => ⟨S_, .f32⟩
  | .hbm, ⟨95, _⟩ => ⟨S16, .f32⟩
  | .hbm, ⟨96, _⟩ => ⟨S16, .f32⟩
  | .hbm, ⟨97, _⟩ => ⟨S16, .f32⟩
  | .hbm, ⟨98, _⟩ => ⟨S_, .f32⟩
  | .hbm, ⟨99, _⟩ => ⟨S_, .f32⟩
  | .hbm, ⟨100, _⟩ => ⟨S16, .f32⟩
  | .hbm, ⟨101, _⟩ => ⟨S16, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | _, _ => ⟨S16x17x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_cst_10 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_cst_12 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_13 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_cst_15 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_16 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_17 : Ref sig .tc := ⟨.hbm, 98, rfl⟩
abbrev main_call1_v0 : Ref sig .tc := ⟨.hbm, 99, rfl⟩
abbrev main_call1_v1 : Ref sig .tc := ⟨.hbm, 100, rfl⟩
abbrev main_v73 : Ref sig .tc := ⟨.hbm, 101, rfl⟩
abbrev main_cst_18 : Ref sig .tc := ⟨.hbm, 102, rfl⟩
abbrev main_v74 : Ref sig .tc := ⟨.hbm, 103, rfl⟩
abbrev main_cst_19 : Ref sig .tc := ⟨.hbm, 104, rfl⟩
abbrev main_v75 : Ref sig .tc := ⟨.hbm, 105, rfl⟩
abbrev main_cst_20 : Ref sig .tc := ⟨.hbm, 106, rfl⟩
abbrev main_v76 : Ref sig .tc := ⟨.hbm, 107, rfl⟩
abbrev main_cst_21 : Ref sig .tc := ⟨.hbm, 108, rfl⟩
abbrev main_v77 : Ref sig .tc := ⟨.hbm, 109, rfl⟩
abbrev main_cst_22 : Ref sig .tc := ⟨.hbm, 110, rfl⟩
abbrev main_v78 : Ref sig .tc := ⟨.hbm, 111, rfl⟩

abbrev nD : Nat := 1
abbrev τ : Topo := Topo.v7x

variable {F : FTy → Type} [FloatOps F]

class Facts₀ : Prop where
  shapeCasts_S16x17x512x512_S16x1x17x262144 : S16x17x512x512.ShapeCasts S16x1x17x262144
  bcast_S17_S1x17_1 : S17.BroadcastsInDim S1x17 (![1] : Fin 1 → Fin S1x17.rank)
  bcast_S_S1x17 : S_.BroadcastsInDim S1x17 (![] : Fin 0 → Fin S1x17.rank)
  bcast_S_S16x30x17 : S_.BroadcastsInDim S16x30x17 (![] : Fin 0 → Fin S16x30x17.rank)
  bcast_S1x17_S30x17_0_1 : S1x17.BroadcastsInDim S30x17 (![0, 1] : Fin 2 → Fin S30x17.rank)
  bcast_S30x17_S30x17x1_0_1 : S30x17.BroadcastsInDim S30x17x1 (![0, 1] : Fin 2 → Fin S30x17x1.rank)
  bcast_S16x30x17_S16x30x17x1_0_1_2 : S16x30x17.BroadcastsInDim S16x30x17x1 (![0, 1, 2] : Fin 3 → Fin S16x30x17x1.rank)
  bcast_S30x17x1_S16x30x17x1_1_2_3 : S30x17x1.BroadcastsInDim S16x30x17x1 (![1, 2, 3] : Fin 3 → Fin S16x30x17x1.rank)
  concatenates_S16x30x17x1_S16x30x17x1_S16x30x17x2_d3 : Shape.Concatenates [S16x30x17x1, S16x30x17x1] S16x30x17x2 3
  transposes_S16x1x30x17_S16x30x17x1_0_2_3_1 : S16x1x30x17.Transposes [0, 2, 3, 1] S16x30x17x1
  reducesTo_S16x30x17_S16x30_d2 : S16x30x17.ReducesTo [2] S16x30
  h_S_ : 0 < S_.numel
  bcast_S_S16x30 : S_.BroadcastsInDim S16x30 (![] : Fin 0 → Fin S16x30.rank)
  reducesTo_S16x30x17x1_S16x30x1_d2 : S16x30x17x1.ReducesTo [2] S16x30x1
  bcast_S16x30_S16x30x1_0_1 : S16x30.BroadcastsInDim S16x30x1 (![0, 1] : Fin 2 → Fin S16x30x1.rank)
  bcast_S16x30x1_S16x30x1x1_0_1_3 : S16x30x1.BroadcastsInDim S16x30x1x1 (![0, 1, 3] : Fin 3 → Fin S16x30x1x1.rank)
  bcast_S16x30x1x1_S16x30x17x1_0_1_2_3 : S16x30x1x1.BroadcastsInDim S16x30x17x1 (![0, 1, 2, 3] : Fin 4 → Fin S16x30x17x1.rank)
  reducesTo_S16x30x17x1_S16x30x17_d3 : S16x30x17x1.ReducesTo [3] S16x30x17
  reducesTo_S16x30_S16_d1 : S16x30.ReducesTo [1] S16
  bcast_S_S30 : S_.BroadcastsInDim S30 (![] : Fin 0 → Fin S30.rank)
  bcast_S30_S16x30_1 : S30.BroadcastsInDim S16x30 (![1] : Fin 1 → Fin S16x30.rank)
  bcast_S_S16 : S_.BroadcastsInDim S16 (![] : Fin 0 → Fin S16.rank)
  bcast_S16x30x1_S16x1x30x1_0_2_3 : S16x30x1.BroadcastsInDim S16x1x30x1 (![0, 2, 3] : Fin 3 → Fin S16x1x30x1.rank)
  bcast_S16x1x30x1_S16x30x30x1_0_1_2_3 : S16x1x30x1.BroadcastsInDim S16x30x30x1 (![0, 1, 2, 3] : Fin 4 → Fin S16x30x30x1.rank)
  bcast_S16x30x1x1_S16x30x30x1_0_1_2_3 : S16x30x1x1.BroadcastsInDim S16x30x30x1 (![0, 1, 2, 3] : Fin 4 → Fin S16x30x30x1.rank)
  bcast_S16x30_S16x1x30_0_2 : S16x30.BroadcastsInDim S16x1x30 (![0, 2] : Fin 2 → Fin S16x1x30.rank)
  bcast_S16x30x1_S16x30x30_0_1_2 : S16x30x1.BroadcastsInDim S16x30x30 (![0, 1, 2] : Fin 3 → Fin S16x30x30.rank)
  bcast_S16x1x30_S16x30x30_0_1_2 : S16x1x30.BroadcastsInDim S16x30x30 (![0, 1, 2] : Fin 3 → Fin S16x30x30.rank)
  bcast_S16x30x30_S16x30x30x1_0_1_2 : S16x30x30.BroadcastsInDim S16x30x30x1 (![0, 1, 2] : Fin 3 → Fin S16x30x30x1.rank)
  reducesTo_S16x30x30x1_S16_d1_2_3 : S16x30x30x1.ReducesTo [1, 2, 3] S16
  reducesTo_S16_S_d0 : S16.ReducesTo [0] S_
  gather_S16x1x17x262144_S16x30x17x2_S16x1x30x17_1_23_0_0_23_3_1111_wf : GatherDims.WF S16x1x17x262144 S16x30x17x2 S16x1x30x17 [1] [2, 3] [0] [2, 3] [0] 3 ![1, 1, 1, 1]

variable [Facts₀]

def gather_S16x1x17x262144_S16x30x17x2_S16x1x30x17_1_23_0_0_23_3_1111 : GatherDims S16x1x17x262144 S16x30x17x2 S16x1x30x17 where
  offsetDims := [1]
  collapsedSliceDims := [2, 3]
  operandBatchingDims := [0]
  startIndicesBatchingDims := [0]
  startIndexMap := [2, 3]
  indexVectorDim := 3
  sliceSizes := ![1, 1, 1, 1]
  wf := gather_S16x1x17x262144_S16x30x17x2_S16x1x30x17_1_23_0_0_23_3_1111_wf

class Facts : Prop extends Facts₀ where

variable [Facts]
-- ==== Proof.KRuns.lean ====
import proofs.«420666_j78812649882012_1_alg».proof.Proof.Gen.Kernel.Launch
import proofs.«420666_j78812649882012_1_alg».proof.Proof.Gen.Kernel.Skeleton
import proofs.«420666_j78812649882012_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! # What the runs of the kernel body share

@main is one reshape, the region, and then seventy-six host operations in five stretches. This module states @main
around the region, what the host operations after it may touch and what they leave alone, the contents of @main's
arguments before and after, the blocks of the input windows, the two branch conditions of the body decided over the
grid, where the output window is idle, and the staging and scratch memrefs the body is run on. -/

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The five stretches of host operations after the region, in order. -/
abbrev tailOps : List (List (HloOp τ sig (Elt F))) := [hostOps1, hostOps1_1, hostOps1_2, hostOps1_3, hostOps1_4]

/-- Core `c`'s TensorCore buffers when the region is entered, as a valuation: the launch contents after the one
    reshape before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation allocates: each one's set of fresh buffers is empty by its definition. -/
theorem hostOps0_fresh : (hostOps0 : List (HloOp τ sig (Elt F))).Forall fun op => op.fresh = ∅ := rfl
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩
theorem hostOps1_1_fresh : (hostOps1_1 : List (HloOp τ sig (Elt F))).Forall fun op => op.fresh = ∅ :=
  ⟨rfl, rfl, rfl⟩
theorem hostOps1_2_fresh : (hostOps1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps1_3_fresh : (hostOps1_3 : List (HloOp τ sig (Elt F))).Forall fun op => op.fresh = ∅ :=
  ⟨rfl, rfl, rfl⟩
theorem hostOps1_4_fresh : (hostOps1_4 : List (HloOp τ sig (Elt F))).Forall fun op => op.fresh = ∅ :=
  ⟨rfl, rfl, rfl, rfl, rfl, rfl, rfl, rfl, rfl, rfl⟩

/-- @main is the reshape, then the region, then the five stretches: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-! ## What the host operations after the region write -/

/-- The buffers the operations after the region must leave alone: @main's three arguments and the two arrays the
    pipeline stages that are no argument (its reshaped input and its output). -/
abbrev kept : List (Ref sig .tc) := [main_arg0, main_arg1, main_arg2, main_v0, main_v1]

/-- An operation writes exactly one buffer, and that buffer is none of `kept`. -/
def WritesOther (op : HloOp τ sig (Elt F)) : Prop :=
  ∃ y : Ref sig .tc, op.writes = {Proc.devRef .tc y} ∧ y ∉ kept

local macro "wo" : term => `(⟨_, rfl, by decide⟩)

theorem hostOps1_other : (hostOps1 : List (HloOp τ sig (Elt F))).Forall WritesOther :=
  ⟨wo, wo, wo, wo, wo, wo, wo, wo, wo, wo, wo, wo, wo, wo, wo, wo, wo, wo, wo, wo, wo, wo, wo, wo, wo⟩
theorem hostOps1_1_other : (hostOps1_1 : List (HloOp τ sig (Elt F))).Forall WritesOther :=
  ⟨wo, wo, wo⟩
theorem hostOps1_2_other : (hostOps1_2 : List (HloOp τ sig (Elt F))).Forall WritesOther :=
  ⟨wo, wo, wo, wo, wo, wo, wo, wo, wo, wo, wo, wo, wo, wo, wo, wo, wo, wo, wo, wo, wo, wo, wo, wo, wo, wo, wo, wo, wo, wo, wo, wo, wo, wo, wo⟩
theorem hostOps1_3_other : (hostOps1_3 : List (HloOp τ sig (Elt F))).Forall WritesOther :=
  ⟨wo, wo, wo⟩
theorem hostOps1_4_other : (hostOps1_4 : List (HloOp τ sig (Elt F))).Forall WritesOther :=
  ⟨wo, wo, wo, wo, wo, wo, wo, wo, wo, wo⟩

/-- A property of every operation of each of the five stretches is a property of every operation after the region. -/
theorem tail_forall {p : HloOp τ sig (Elt F) → Prop} (h1 : (hostOps1 : List (HloOp τ sig (Elt F))).Forall p)
    (h2 : (hostOps1_1 : List (HloOp τ sig (Elt F))).Forall p) (h3 : (hostOps1_2 : List (HloOp τ sig (Elt F))).Forall p)
    (h4 : (hostOps1_3 : List (HloOp τ sig (Elt F))).Forall p) (h5 : (hostOps1_4 : List (HloOp τ sig (Elt F))).Forall p) :
    ∀ ops ∈ (tailOps : List (List (HloOp τ sig (Elt F)))), ∀ op ∈ ops, p op := by
  intro ops hops op hop
  simp only [tailOps, List.mem_cons, List.mem_nil_iff, or_false] at hops
  rcases hops with rfl | rfl | rfl | rfl | rfl
  · exact List.forall_iff_forall_mem.mp h1 op hop
  · exact List.forall_iff_forall_mem.mp h2 op hop
  · exact List.forall_iff_forall_mem.mp h3 op hop
  · exact List.forall_iff_forall_mem.mp h4 op hop
  · exact List.forall_iff_forall_mem.mp h5 op hop

/-- No operation after the region writes a buffer of `kept`. -/
theorem tail_keeps (b : Ref sig .tc) (hb : b ∈ kept) :
    ∀ op ∈ (tailOps : List (List (HloOp τ sig (Elt F)))).flatten, Proc.devRef (τ := τ) .tc b ∉ op.writes := by
  intro op hop hw
  obtain ⟨ops, hops, hop'⟩ := List.mem_flatten.mp hop
  obtain ⟨y, hy, hk⟩ := tail_forall hostOps1_other hostOps1_1_other hostOps1_2_other hostOps1_3_other hostOps1_4_other ops hops op hop'
  rw [hy, Finset.mem_singleton] at hw
  exact hk (Proc.devRef_injective _ hw ▸ hb)

/-- The operations after the region touch unscoped TensorCore buffers only; with nothing prefetched, every such
    buffer is an array of the pipeline or bypasses it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (tail_forall (p := fun op => op.bufs ⊆ StableHlo.tcRefs τ sig)
    hostOps1_sub hostOps1_1_sub hostOps1_2_sub hostOps1_3_sub hostOps1_4_sub ops hops op hop)
/-- They allocate nothing. -/
theorem sfx_fresh : ∀ ops ∈ (tailOps : List (List (HloOp τ sig (Elt F)))), ∀ op ∈ ops, op.fresh = ∅ :=
  tail_forall hostOps1_fresh hostOps1_1_fresh hostOps1_2_fresh hostOps1_3_fresh hostOps1_4_fresh
/-- And they write no array of the pipeline: each array is one of `kept`. -/
theorem sfx_keeps : ∀ ops ∈ (tailOps : List (List (HloOp τ sig (Elt F)))), ∀ op ∈ ops,
    ∀ w, Proc.devRef .tc (Pipeline.arrRef spec0 w) ∉ op.writes := by
  intro ops hops op hop w
  exact tail_keeps (Pipeline.arrRef spec0 w) ((by decide : ∀ w, Pipeline.arrRef spec0 w ∈ kept) w) op
    (List.mem_flatten.mpr ⟨ops, hops, hop⟩)

/-! ## @main's arguments before and after the region -/

/-- The reshape before the region writes its own result only: an argument is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))

/-- An argument that is no array of the pipeline ends as launched: the region leaves it as found, no operation after
    the region writes it. -/
theorem W_main_arg0 (dats : (p : Fin 1) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (tail_keeps main_arg0 (by decide)),
    Pipeline.withArrays_of_ne _ c (V0 m c) _ main_arg0 (by exact (by decide : ∀ w, Pipeline.arrRef spec0 w ≠ main_arg0))]
  exact V_main_arg0 m c
theorem W_main_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (tail_keeps main_arg2 (by decide)),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for any proof data over the region-entry array
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 is fetched only where its block index moves (the first point of each row of the grid); where it is
    not fetched the index has not moved and the buffer still holds the block. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post: `main_arg1` is input window 1's array, so it ends as the region found it,
    which is as launched; `main_arg0` and `main_arg2` are no window's array, so they end as the operations after the
    region leave them, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).1 1).trans (((dats 0 c).arrAt_in 1 rfl _).trans ((hA c 1).trans (V_main_arg1 m c))),
     ((h c).2 main_arg2 (Pipeline.mem_restRefs_of main_arg2 (by decide) (by decide))).trans (W_main_arg2 m dats c)⟩) h

/-! ## The body's branch conditions -/

/-- The first branch of the body is taken where the second grid coordinate is zero. -/
abbrev cond0_0 (i : grid0.Coords) : Prop := (Scalar.cmpi .ne (Scalar.extui (Scalar.cmpi .eq (BitVec.ofNat 32 (i 1).val) 0#32)) 0#32) = 1#1
/-- That is at the points ≡ 0 (mod 128): decided over the 2048 points. -/
theorem hcond0_0 : ∀ t : Fin cfg0.N, cond0_0 (grid0.coords t) ↔ t.val % 128 = 0 :=
  (by decide +kernel : ∀ t : Fin grid0.N, cond0_0 (grid0.coords t) ↔ t.val % 128 = 0)

/-- The second branch of the body is taken where the second grid coordinate is 127. -/
abbrev cond0_1 (i : grid0.Coords) : Prop := k0_cond2 i = 1#1
/-- That is at the points ≡ 127 (mod 128): decided over the 2048 points. -/
theorem hcond0_1 : ∀ t : Fin cfg0.N, cond0_1 (grid0.coords t) ↔ t.val % 128 = 127 :=
  (by decide +kernel : ∀ t : Fin grid0.N, cond0_1 (grid0.coords t) ↔ t.val % 128 = 127)

/-! ## Where the windows are idle -/

/-- The input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl

/-- The output window is idle exactly where the second branch is not taken. -/
theorem idle0_2_iff (i : grid0.Coords) : cfg0.idle 2 i = true ↔ ¬cond0_1 i := by
  show (!(k0_cond2 i == 1#1)) = true ↔ ¬(k0_cond2 i = 1#1)
  rw [Bool.not_eq_true', beq_eq_false_iff_ne]

/-- Where the second branch is not taken the output is idle and is not written back (it is written back at the
    points ≡ 127 (mod 128) only, which are the points of the second branch). -/
theorem idleAt0_2_A : ∀ t : Fin cfg0.N, cond0_0 (grid0.coords t) → ¬cond0_1 (grid0.coords t) → cfg0.idle 2 (grid0.coords t) = true :=
  fun t _ h1 => (idle0_2_iff _).mpr h1
theorem noFlush0_2_A : ∀ t : Fin cfg0.N, cond0_0 (grid0.coords t) → ¬cond0_1 (grid0.coords t) → (cfg0.win 2).flush t = false :=
  fun t _ h1 => Bool.eq_false_iff.mpr fun hf => h1 ((hcond0_1 t).mpr ((flush0_2 t).mp hf))
theorem idleAt0_2_B : ∀ t : Fin cfg0.N, ¬cond0_0 (grid0.coords t) → ¬cond0_1 (grid0.coords t) → cfg0.idle 2 (grid0.coords t) = true :=
  fun t _ h1 => (idle0_2_iff _).mpr h1
theorem noFlush0_2_B : ∀ t : Fin cfg0.N, ¬cond0_0 (grid0.coords t) → ¬cond0_1 (grid0.coords t) → (cfg0.win 2).flush t = false :=
  fun t _ h1 => Bool.eq_false_iff.mpr fun hf => h1 ((hcond0_1 t).mpr ((flush0_2 t).mp hf))
/-- Where the second branch is taken the output is live: the body stores into it. -/
theorem liveAt0_2_C : ∀ t : Fin cfg0.N, ¬cond0_0 (grid0.coords t) → cond0_1 (grid0.coords t) → cfg0.idle 2 (grid0.coords t) = false :=
  fun t _ h1 => Bool.eq_false_iff.mpr fun hi => (idle0_2_iff _).mp hi h1

/-! ## The memrefs the body is run on -/

/-- One staging buffer of the output window, through which its contents are stated. -/
abbrev VO0_2 : View sig .tc .vmem S1x30x17 .f32 := (Memref.whole cc0_stg2_0 : Memref sig .tc .vmem S1x30x17 .f32).view
/-- Each window's current staging memref at point `t`, as the pipeline passes it to the body, and its wholeness. -/
abbrev ms0_0 (t : Fin cfg0.N) : Memref sig .tc .vmem S1x17x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x30x17 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x30x17 .f32 := win0_2.stage (cfg0.slots t 2)
abbrev hs0_2 (t : Fin cfg0.N) : (ms0_2 t).IsWhole := hstage0_2 ((cfg0.slots t 2).cast nbuf0_2)
/-- The scratch accumulator: a whole scoped buffer of the kernel's own, passed beside the windows. -/
abbrev scM0_0 : Memref sig .tc .vmem S30x17 .f32 := Memref.whole cc0_scratch0
/-- The scratch as a view: what it holds between points is stated through it. -/
abbrev VS0_0 : View sig .tc .vmem S30x17 .f32 := scM0_0.view

/-- The region's invariant with the scratch as a memref owned at some contents: what the body is handed and gives
    back besides the windows. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.KRunA.lean ====
import proofs.«420666_j78812649882012_1_alg».proof.Proof.KRuns

/-! # The body at the first point of a row of the grid

Where the second grid coordinate is zero and not 127 the body first reads the scratch (whatever it holds), overwrites
it with zeros, reads the two input blocks and the scratch again, and stores the zeros plus this block's partial sums
into the scratch. It never touches the output's staging buffer. -/

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body leaves in the output's staging buffer (none) and in the scratch (its two stores, the later
    first), with the run that shows it: from the two input buffers at their contents, the output buffer at any
    contents `xi2` and the scratch at unknown contents, the body reaches any continuation that takes the inputs and the
    output buffer back unchanged and the scratch with those pieces written. The first branch is decided by `hc0`, the
    second refuted by `hc1`. -/
noncomputable def kernelRun0_A (c : Dev nD) (i : grid0.Coords) (arg2 : Memref sig .tc .vmem S1x17x2048 .f32) (harg2 : arg2.IsWhole) (arg3 : Memref sig .tc .vmem S1x30x17 .i32) (harg3 : arg3.IsWhole)
    (arg4 : Memref sig .tc .vmem S1x30x17 .f32) (harg4 : arg4.IsWhole) (arg5 : Memref sig .tc .vmem S30x17 .f32) (harg5 : arg5.IsWhole) (hc0 : cond0_0 i) (hc1 : ¬cond0_1 i)
    (x0 : Vec F S1x17x2048 .f32) (x1 : Vec F S1x30x17 .i32) :
    Σ' (L2 : List (View.Piece (Elt F) S1x30x17 .f32)), { LS0 : List (View.Piece (Elt F) S30x17 .f32) //
      ∀ (xi2 : Vec F S1x30x17 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨[], ?_, fun xi2 E K => ?run⟩
  case run =>
    rw [cc0__gather_kernel_eq_skeleton]; unfold cc0__gather_kernel_skel
    unfold owns
    -- the three windows' buffers hold exactly their stated contents; of the scratch only the points-to is kept
    iintro ⟨⟨%f0, %hf0, H0⟩, ⟨%f1, %hf1, H1⟩, ⟨%f2, %hf2, H2⟩, ⟨%ds0, %fs0, -, HS0⟩, Hk⟩
    obtain rfl := harg2.eq_unread hf0
    obtain rfl := harg3.eq_unread hf1
    obtain rfl := harg4.eq_unread hf2
    sl_exec (disch := first | exact hc0 | exact hc1)
    sl_step
    iapply Hk
    isplitl [H0]
    · iexists _; isplitr
      · ipureintro; exact harg2.read_unread _
      · iexact H0
    isplitl [H1]
    · iexists _; isplitr
      · ipureintro; exact harg3.read_unread _
      · iexact H1
    isplitl [H2]
    · iexists _; isplitr
      · ipureintro; exact harg4.read_unread _
      · iexact H2
    iexists _; iexact HS0

end Cert.Kernel.Fr

end
-- ==== Proof.KRunB.lean ====
import proofs.«420666_j78812649882012_1_alg».proof.Proof.KRunA

/-! # The body inside a row of the grid

Where the second grid coordinate is neither zero nor 127 the body takes neither branch: it reads the two input blocks
and the scratch, and stores the scratch plus this block's partial sums back into the scratch. -/

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body leaves in the output's staging buffer (none) and in the scratch (its one store), with the run
    that shows it: as at the first point of a row, but the scratch comes in at the contents `xs0` the point before
    left, since this time its old contents are read into what is stored. Both branches are refuted (`hc0`, `hc1`). -/
noncomputable def kernelRun0_B (c : Dev nD) (i : grid0.Coords) (arg2 : Memref sig .tc .vmem S1x17x2048 .f32) (harg2 : arg2.IsWhole) (arg3 : Memref sig .tc .vmem S1x30x17 .i32) (harg3 : arg3.IsWhole)
    (arg4 : Memref sig .tc .vmem S1x30x17 .f32) (harg4 : arg4.IsWhole) (arg5 : Memref sig .tc .vmem S30x17 .f32) (harg5 : arg5.IsWhole) (hc0 : ¬cond0_0 i) (hc1 : ¬cond0_1 i)
    (x0 : Vec F S1x17x2048 .f32) (x1 : Vec F S1x30x17 .i32) (xs0 : Vec F S30x17 .f32) :
    Σ' (L2 : List (View.Piece (Elt F) S1x30x17 .f32)), { LS0 : List (View.Piece (Elt F) S30x17 .f32) //
      ∀ (xi2 : Vec F S1x30x17 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨[], ?_, fun xi2 E K => ?run⟩
  case run =>
    rw [cc0__gather_kernel_eq_skeleton]; unfold cc0__gather_kernel_skel
    unfold owns
    -- all four buffers hold exactly their stated contents
    iintro ⟨⟨%f0, %hf0, H0⟩, ⟨%f1, %hf1, H1⟩, ⟨%f2, %hf2, H2⟩, ⟨%fs0, %hfs0, HS0⟩, Hk⟩
    obtain rfl := harg2.eq_unread hf0
    obtain rfl := harg3.eq_unread hf1
    obtain rfl := harg4.eq_unread hf2
    obtain rfl := harg5.eq_unread hfs0
    sl_exec (disch := first | exact hc0 | exact hc1)
    sl_step
    iapply Hk
    isplitl [H0]
    · iexists _; isplitr
      · ipureintro; exact harg2.read_unread _
      · iexact H0
    isplitl [H1]
    · iexists _; isplitr
      · ipureintro; exact harg3.read_unread _
      · iexact H1
    isplitl [H2]
    · iexists _; isplitr
      · ipureintro; exact harg4.read_unread _
      · iexact H2
    iexists _; iexact HS0

end Cert.Kernel.Fr

end
-- ==== Proof.KRunC.lean ====
import proofs.«420666_j78812649882012_1_alg».proof.Proof.KRunB

/-! # The body at the last point of a row of the grid

Where the second grid coordinate is 127 and not zero the body accumulates into the scratch as inside the row, then
reads the scratch back, reads the output's staging buffer (whatever it holds), and stores the scratch, reshaped, over
the whole of the output's staging buffer. -/

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body leaves in the output's staging buffer (its one store) and in the scratch (its one store),
    with the run that shows it: the output's buffer comes in at unknown contents, which the read before the store
    tolerates, and goes out with its piece written. The first branch is refuted by `hc0`, the second decided by
    `hc1`. -/
noncomputable def kernelRun0_C (c : Dev nD) (i : grid0.Coords) (arg2 : Memref sig .tc .vmem S1x17x2048 .f32) (harg2 : arg2.IsWhole) (arg3 : Memref sig .tc .vmem S1x30x17 .i32) (harg3 : arg3.IsWhole)
    (arg4 : Memref sig .tc .vmem S1x30x17 .f32) (harg4 : arg4.IsWhole) (arg5 : Memref sig .tc .vmem S30x17 .f32) (harg5 : arg5.IsWhole) (hc0 : ¬cond0_0 i) (hc1 : cond0_1 i)
    (x0 : Vec F S1x17x2048 .f32) (x1 : Vec F S1x30x17 .i32) (xs0 : Vec F S30x17 .f32) :
    Σ' (L2 : List (View.Piece (Elt F) S1x30x17 .f32)), { LS0 : List (View.Piece (Elt F) S30x17 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨?_, ?_, fun E K => ?run⟩
  case run =>
    rw [cc0__gather_kernel_eq_skeleton]; unfold cc0__gather_kernel_skel
    unfold owns
    -- of the output's buffer only the points-to is kept; the other three hold exactly their stated contents
    iintro ⟨⟨%f0, %hf0, H0⟩, ⟨%f1, %hf1, H1⟩, ⟨%d2, %f2, -, H2⟩, ⟨%fs0, %hfs0, HS0⟩, Hk⟩
    obtain rfl := harg2.eq_unread hf0
    obtain rfl := harg3.eq_unread hf1
    obtain rfl := harg5.eq_unread hfs0
    sl_exec (disch := first | exact hc0 | exact hc1)
    sl_step
    iapply Hk
    isplitl [H0]
    · iexists _; isplitr
      · ipureintro; exact harg2.read_unread _
      · iexact H0
    isplitl [H1]
    · iexists _; isplitr
      · ipureintro; exact harg3.read_unread _
      · iexact H1
    isplitl [H2]
    · iexists _; iexact H2
    iexists _; iexact HS0

end Cert.Kernel.Fr

end
-- ==== Proof.KFrame.lean ====
import proofs.«420666_j78812649882012_1_alg».proof.Proof.KRunC

/-! # The frame of the gather kernel's region

The kernel walks a grid of 16 × 128 points `t ↦ (t / 128, t % 128)`. Along a row `b = t / 128` it keeps a
30 × 17 accumulator in a scratch buffer: set to zero and then added to at the row's first point (`t % 128 = 0`),
added to at each later point, and at the row's last point (`t % 128 = 127`) copied into the output's block `b`,
which is written back there and nowhere else. This module states what the output's staging buffer and the scratch
hold after each point, packs that into the pipeline's proof data, discharges the body obligation point by point from
the three whole-body runs (one per case of the two conditionals), and concludes the run of `@main` and the frame:
the three argument arrays are as they were. -/

-- membership of an index in a rectangle of these extents recurses once per coordinate of the long axis
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Per case: what the stores cover and what they leave -/

/-- At a row's first point nothing is stored into the output's staging buffer. The empty list of pieces read back
    over arbitrary contents is a value nobody reads: the buffer is neither written back at such a point nor read at
    the next. -/
def out0_A_2 (c : Dev nD) (i : grid0.Coords) (arg2 : Memref sig .tc .vmem S1x17x2048 .f32) (harg2 : arg2.IsWhole) (arg3 : Memref sig .tc .vmem S1x30x17 .i32) (harg3 : arg3.IsWhole) (arg4 : Memref sig .tc .vmem S1x30x17 .f32) (harg4 : arg4.IsWhole) (arg5 : Memref sig .tc .vmem S30x17 .f32) (harg5 : arg5.IsWhole) (hc0 : cond0_0 i) (hc1 : ¬cond0_1 i)
    (x0 : Vec F S1x17x2048 .f32) (x1 : Vec F S1x30x17 .i32) : Vec F S1x30x17 .f32 :=
  VO0_2.read (Elt F) (VO0_2.writes (Elt F) VO0_2.junk (kernelRun0_A c i arg2 harg2 arg3 harg3 arg4 harg4 arg5 harg5 hc0 hc1 x0 x1).1)

/-- At a row's first point the scratch is stored whole (twice: the zeros, then the first partial sum), so every
    index of it lies in some stored piece. -/
theorem scover0_A_0 (c : Dev nD) (i : grid0.Coords) (arg2 : Memref sig .tc .vmem S1x17x2048 .f32) (harg2 : arg2.IsWhole) (arg3 : Memref sig .tc .vmem S1x30x17 .i32) (harg3 : arg3.IsWhole) (arg4 : Memref sig .tc .vmem S1x30x17 .f32) (harg4 : arg4.IsWhole) (arg5 : Memref sig .tc .vmem S30x17 .f32) (harg5 : arg5.IsWhole) (hc0 : cond0_0 i) (hc1 : ¬cond0_1 i)
    (x0 : Vec F S1x17x2048 .f32) (x1 : Vec F S1x30x17 .i32) (y : S30x17.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S30x17.size (by sl_kernel_rfl) y

/-- The scratch after a row's first point: the stored pieces read back (over anything, since they cover). -/
def sout0_A_0 (c : Dev nD) (i : grid0.Coords) (arg2 : Memref sig .tc .vmem S1x17x2048 .f32) (harg2 : arg2.IsWhole) (arg3 : Memref sig .tc .vmem S1x30x17 .i32) (harg3 : arg3.IsWhole) (arg4 : Memref sig .tc .vmem S1x30x17 .f32) (harg4 : arg4.IsWhole) (arg5 : Memref sig .tc .vmem S30x17 .f32) (harg5 : arg5.IsWhole) (hc0 : cond0_0 i) (hc1 : ¬cond0_1 i)
    (x0 : Vec F S1x17x2048 .f32) (x1 : Vec F S1x30x17 .i32) : Vec F S30x17 .f32 :=
  VS0_0.read (Elt F) (VS0_0.writes (Elt F) VS0_0.junk (kernelRun0_A c i arg2 harg2 arg3 harg3 arg4 harg4 arg5 harg5 hc0 hc1 x0 x1).2.1)

/-- At an inner point of a row nothing is stored into the output's staging buffer either: the same unread value. -/
def out0_B_2 (c : Dev nD) (i : grid0.Coords) (arg2 : Memref sig .tc .vmem S1x17x2048 .f32) (harg2 : arg2.IsWhole) (arg3 : Memref sig .tc .vmem S1x30x17 .i32) (harg3 : arg3.IsWhole) (arg4 : Memref sig .tc .vmem S1x30x17 .f32) (harg4 : arg4.IsWhole) (arg5 : Memref sig .tc .vmem S30x17 .f32) (harg5 : arg5.IsWhole) (hc0 : ¬cond0_0 i) (hc1 : ¬cond0_1 i)
    (x0 : Vec F S1x17x2048 .f32) (x1 : Vec F S1x30x17 .i32) (xs0 : Vec F S30x17 .f32) : Vec F S1x30x17 .f32 :=
  VO0_2.read (Elt F) (VO0_2.writes (Elt F) VO0_2.junk (kernelRun0_B c i arg2 harg2 arg3 harg3 arg4 harg4 arg5 harg5 hc0 hc1 x0 x1 xs0).1)

/-- At an inner point the scratch is stored whole once (the running sum). -/
theorem scover0_B_0 (c : Dev nD) (i : grid0.Coords) (arg2 : Memref sig .tc .vmem S1x17x2048 .f32) (harg2 : arg2.IsWhole) (arg3 : Memref sig .tc .vmem S1x30x17 .i32) (harg3 : arg3.IsWhole) (arg4 : Memref sig .tc .vmem S1x30x17 .f32) (harg4 : arg4.IsWhole) (arg5 : Memref sig .tc .vmem S30x17 .f32) (harg5 : arg5.IsWhole) (hc0 : ¬cond0_0 i) (hc1 : ¬cond0_1 i)
    (x0 : Vec F S1x17x2048 .f32) (x1 : Vec F S1x30x17 .i32) (xs0 : Vec F S30x17 .f32) (y : S30x17.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S30x17.size (by sl_kernel_rfl) y

/-- The scratch after an inner point, given what it held before (`xs0`). -/
def sout0_B_0 (c : Dev nD) (i : grid0.Coords) (arg2 : Memref sig .tc .vmem S1x17x2048 .f32) (harg2 : arg2.IsWhole) (arg3 : Memref sig .tc .vmem S1x30x17 .i32) (harg3 : arg3.IsWhole) (arg4 : Memref sig .tc .vmem S1x30x17 .f32) (harg4 : arg4.IsWhole) (arg5 : Memref sig .tc .vmem S30x17 .f32) (harg5 : arg5.IsWhole) (hc0 : ¬cond0_0 i) (hc1 : ¬cond0_1 i)
    (x0 : Vec F S1x17x2048 .f32) (x1 : Vec F S1x30x17 .i32) (xs0 : Vec F S30x17 .f32) : Vec F S30x17 .f32 :=
  VS0_0.read (Elt F) (VS0_0.writes (Elt F) VS0_0.junk (kernelRun0_B c i arg2 harg2 arg3 harg3 arg4 harg4 arg5 harg5 hc0 hc1 x0 x1 xs0).2.1)

/-- At a row's last point the output's staging buffer is stored whole (the finished sum). -/
theorem cover0_C_2 (c : Dev nD) (i : grid0.Coords) (arg2 : Memref sig .tc .vmem S1x17x2048 .f32) (harg2 : arg2.IsWhole) (arg3 : Memref sig .tc .vmem S1x30x17 .i32) (harg3 : arg3.IsWhole) (arg4 : Memref sig .tc .vmem S1x30x17 .f32) (harg4 : arg4.IsWhole) (arg5 : Memref sig .tc .vmem S30x17 .f32) (harg5 : arg5.IsWhole) (hc0 : ¬cond0_0 i) (hc1 : cond0_1 i)
    (x0 : Vec F S1x17x2048 .f32) (x1 : Vec F S1x30x17 .i32) (xs0 : Vec F S30x17 .f32) (y : S1x30x17.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x30x17.size (by sl_kernel_rfl) y

/-- The output's staging buffer after a row's last point. -/
def out0_C_2 (c : Dev nD) (i : grid0.Coords) (arg2 : Memref sig .tc .vmem S1x17x2048 .f32) (harg2 : arg2.IsWhole) (arg3 : Memref sig .tc .vmem S1x30x17 .i32) (harg3 : arg3.IsWhole) (arg4 : Memref sig .tc .vmem S1x30x17 .f32) (harg4 : arg4.IsWhole) (arg5 : Memref sig .tc .vmem S30x17 .f32) (harg5 : arg5.IsWhole) (hc0 : ¬cond0_0 i) (hc1 : cond0_1 i)
    (x0 : Vec F S1x17x2048 .f32) (x1 : Vec F S1x30x17 .i32) (xs0 : Vec F S30x17 .f32) : Vec F S1x30x17 .f32 :=
  VO0_2.read (Elt F) (VO0_2.writes (Elt F) VO0_2.junk (kernelRun0_C c i arg2 harg2 arg3 harg3 arg4 harg4 arg5 harg5 hc0 hc1 x0 x1 xs0).1)

/-- At a row's last point the scratch is stored whole once as well. -/
theorem scover0_C_0 (c : Dev nD) (i : grid0.Coords) (arg2 : Memref sig .tc .vmem S1x17x2048 .f32) (harg2 : arg2.IsWhole) (arg3 : Memref sig .tc .vmem S1x30x17 .i32) (harg3 : arg3.IsWhole) (arg4 : Memref sig .tc .vmem S1x30x17 .f32) (harg4 : arg4.IsWhole) (arg5 : Memref sig .tc .vmem S30x17 .f32) (harg5 : arg5.IsWhole) (hc0 : ¬cond0_0 i) (hc1 : cond0_1 i)
    (x0 : Vec F S1x17x2048 .f32) (x1 : Vec F S1x30x17 .i32) (xs0 : Vec F S30x17 .f32) (y : S30x17.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S30x17.size (by sl_kernel_rfl) y

/-- The scratch after a row's last point. -/
def sout0_C_0 (c : Dev nD) (i : grid0.Coords) (arg2 : Memref sig .tc .vmem S1x17x2048 .f32) (harg2 : arg2.IsWhole) (arg3 : Memref sig .tc .vmem S1x30x17 .i32) (harg3 : arg3.IsWhole) (arg4 : Memref sig .tc .vmem S1x30x17 .f32) (harg4 : arg4.IsWhole) (arg5 : Memref sig .tc .vmem S30x17 .f32) (harg5 : arg5.IsWhole) (hc0 : ¬cond0_0 i) (hc1 : cond0_1 i)
    (x0 : Vec F S1x17x2048 .f32) (x1 : Vec F S1x30x17 .i32) (xs0 : Vec F S30x17 .f32) : Vec F S30x17 .f32 :=
  VS0_0.read (Elt F) (VS0_0.writes (Elt F) VS0_0.junk (kernelRun0_C c i arg2 harg2 arg3 harg3 arg4 harg4 arg5 harg5 hc0 hc1 x0 x1 xs0).2.1)

/-! ## Point by point -/

/-- One step of the walk: from what the scratch held before the body at point `t` (`prev`) to the pair
    (output's staging buffer, scratch) after it. Which of the three cases applies is read off `t % 128`; a residue
    cannot be both 0 and 127. At a row's first point `prev` is not consulted. -/
def stepAt0 (c : Dev nD) (t : Fin cfg0.N) (prev : Vec F S30x17 .f32) : Vec F S1x30x17 .f32 × Vec F S30x17 .f32 :=
  if h0 : t.val % 128 = 0 then
    if h1 : t.val % 128 = 127 then False.elim (by omega)
    else (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t))
  else
    if h1 : t.val % 128 = 127 then (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) prev, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) prev)
    else (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) prev, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) prev)

/-- The walk itself: the pair after the body at position `n`, each step fed the scratch of the step before. The
    very first step is a row's first point, so what it is fed is immaterial. -/
def outsAt0 (c : Dev nD) : (n : ℕ) → n < cfg0.N → Vec F S1x30x17 .f32 × Vec F S30x17 .f32
  | 0, hn => stepAt0 m c ⟨0, hn⟩ (VS0_0.read (Elt F) VS0_0.junk)
  | n + 1, hn => stepAt0 m c ⟨n + 1, hn⟩ (outsAt0 c n (Nat.lt_of_succ_lt hn)).2

/-- At a row's first point. -/
theorem outsAt0_A (c : Dev nD) (t : Fin cfg0.N) (h0 : t.val % 128 = 0) (h1 : ¬t.val % 128 = 127) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => show stepAt0 m c ⟨0, hn⟩ _ = _; unfold stepAt0; rw [dif_pos h0, dif_neg h1]
  | succ n => show stepAt0 m c ⟨n + 1, hn⟩ _ = _; unfold stepAt0; rw [dif_pos h0, dif_neg h1]

/-- At an inner point: over the scratch of the point before. -/
theorem outsAt0_B (c : Dev nD) (t : Fin cfg0.N) (h0 : ¬t.val % 128 = 0) (h1 : ¬t.val % 128 = 127) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact absurd (Nat.zero_mod _) h0
  | succ n => show stepAt0 m c ⟨n + 1, hn⟩ _ = _; unfold stepAt0; rw [dif_neg h0, dif_neg h1]; all_goals rfl

/-- At a row's last point: over the scratch of the point before. -/
theorem outsAt0_C (c : Dev nD) (t : Fin cfg0.N) (h0 : ¬t.val % 128 = 0) (h1 : t.val % 128 = 127) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact absurd (Nat.zero_mod _) h0
  | succ n => show stepAt0 m c ⟨n + 1, hn⟩ _ = _; unfold stepAt0; rw [dif_neg h0, dif_pos h1]; all_goals rfl

/-! ## The invariant between points -/

/-- What the region holds besides the windows, before position `n`: at the start, the scratch at anything and the
    generator register at some state; after a point, the scratch at exactly what that point left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- On core `c`: the three arrays as the region finds them; after the body at `t` the two inputs' buffers at
    their blocks and the output's at the walk's first component; the invariant above; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

/-- An input's current buffer holds its block at every point: window 0 is fetched at each, window 1 at a row's
    first point and its block does not change along the row. -/
theorem before0_0 (c : Dev nD) (t : Fin cfg0.N) (d) : (dats m 0 c).before 0 t d = iblk m c 0 t :=
  before0_0_of m (dats m 0 c) (A_eq m c 0) (after0_0 m c) t d

theorem before0_1 (c : Dev nD) (t : Fin cfg0.N) (d) : (dats m 0 c).before 1 t d = iblk m c 1 t :=
  before0_1_of m (dats m 0 c) (A_eq m c 1) (after0_1 m c) t d

/-! ## The body at a point -/

/-- What the body is given at point `t`: the invariant, the (empty) debt, and the three current buffers. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- What it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The inputs' buffers hold their blocks; `t % 128` says which case the point is in. In each
    case that case's run applies: it is handed the scratch (at anything at the very first point, at what the point
    before left otherwise) and returns it as a covering list of pieces, hence at this point's contents. The output's
    buffer goes through untouched except at a row's last point, where it is returned as a covering list too. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 2048 := lt_of_lt_of_eq t.isLt (show cfg0.N = 2048 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 128 = 0
  · by_cases h1 : t.val % 128 = 127
    · exfalso; omega
    · rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · have hz : t.val ≠ 0 := fun hz => h0 (by rw [hz])
    by_cases h1 : t.val % 128 = 127
    · rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [outsAt0_C m c t h0 h1]
      unfold out0_C_2 sout0_C_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The body obligation of the pipeline, at every point: the three windows written out. -/
theorem body_obligation (c : Dev nD) : BodyObligation (dats (F := F) m 0 c) (defs₀ (F := F)) Variants.none () Set.univ := fun t => by
  rw [bigSep_W0, bigSep_W0]
  exact sound_body m c t

/-- The region's entry condition is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the entry condition back: the scratch's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- In particular after the last. -/
theorem hout (c : Dev nD) : (dats m 0 c).Φ (Fin.last cfg0.N) ⊢ Pipeline.ΦA spec0 c :=
  Phi_out m c _ (by rw [Fin.val_last]; have : cfg0.N = 2048 := N_0; omega)

/-! ## The run and the frame -/

-- the statement's implicit arguments are found by unifying the library theorem's conclusion with it, which unfolds
-- plain definitions inside the type of an unknown
set_option backward.isDefEq.respectTransparency.types false in
/-- From any memory with zero counters every weakly fair execution of `@main` on the TensorCores terminates, with each
    of the three arrays at what the proof data computes for it and every other unscoped buffer as the host lines
    after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: the three argument arrays are, at the end of every run, what they were at its start. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Fr

end
-- ==== Proof.KIRuns.lean ====
import proofs.«420666_j78812649882012_1_alg».proof.Proof.Gen.KernelIdeal.Launch
import proofs.«420666_j78812649882012_1_alg».proof.Proof.Gen.KernelIdeal.Skeleton
import proofs.«420666_j78812649882012_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! # What the runs of the kernel body share

@main is one reshape, the region, and then seventy-six host operations in five stretches. This module states @main
around the region, what the host operations after it may touch and what they leave alone, the contents of @main's
arguments before and after, the blocks of the input windows, the two branch conditions of the body decided over the
grid, where the output window is idle, and the staging and scratch memrefs the body is run on. -/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The five stretches of host operations after the region, in order. -/
abbrev tailOps : List (List (HloOp τ sig (Elt F))) := [hostOps1, hostOps1_1, hostOps1_2, hostOps1_3, hostOps1_4]

/-- Core `c`'s TensorCore buffers when the region is entered, as a valuation: the launch contents after the one
    reshape before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation allocates: each one's set of fresh buffers is empty by its definition. -/
theorem hostOps0_fresh : (hostOps0 : List (HloOp τ sig (Elt F))).Forall fun op => op.fresh = ∅ := rfl
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩
theorem hostOps1_1_fresh : (hostOps1_1 : List (HloOp τ sig (Elt F))).Forall fun op => op.fresh = ∅ :=
  ⟨rfl, rfl, rfl⟩
theorem hostOps1_2_fresh : (hostOps1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps1_3_fresh : (hostOps1_3 : List (HloOp τ sig (Elt F))).Forall fun op => op.fresh = ∅ :=
  ⟨rfl, rfl, rfl⟩
theorem hostOps1_4_fresh : (hostOps1_4 : List (HloOp τ sig (Elt F))).Forall fun op => op.fresh = ∅ :=
  ⟨rfl, rfl, rfl, rfl, rfl, rfl, rfl, rfl, rfl, rfl⟩

/-- @main is the reshape, then the region, then the five stretches: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-! ## What the host operations after the region write -/

/-- The buffers the operations after the region must leave alone: @main's three arguments and the two arrays the
    pipeline stages that are no argument (its reshaped input and its output). -/
abbrev kept : List (Ref sig .tc) := [main_arg0, main_arg1, main_arg2, main_v0, main_v1]

/-- An operation writes exactly one buffer, and that buffer is none of `kept`. -/
def WritesOther (op : HloOp τ sig (Elt F)) : Prop :=
  ∃ y : Ref sig .tc, op.writes = {Proc.devRef .tc y} ∧ y ∉ kept

local macro "wo" : term => `(⟨_, rfl, by decide⟩)

theorem hostOps1_other : (hostOps1 : List (HloOp τ sig (Elt F))).Forall WritesOther :=
  ⟨wo, wo, wo, wo, wo, wo, wo, wo, wo, wo, wo, wo, wo, wo, wo, wo, wo, wo, wo, wo, wo, wo, wo, wo, wo⟩
theorem hostOps1_1_other : (hostOps1_1 : List (HloOp τ sig (Elt F))).Forall WritesOther :=
  ⟨wo, wo, wo⟩
theorem hostOps1_2_other : (hostOps1_2 : List (HloOp τ sig (Elt F))).Forall WritesOther :=
  ⟨wo, wo, wo, wo, wo, wo, wo, wo, wo, wo, wo, wo, wo, wo, wo, wo, wo, wo, wo, wo, wo, wo, wo, wo, wo, wo, wo, wo, wo, wo, wo, wo, wo, wo, wo⟩
theorem hostOps1_3_other : (hostOps1_3 : List (HloOp τ sig (Elt F))).Forall WritesOther :=
  ⟨wo, wo, wo⟩
theorem hostOps1_4_other : (hostOps1_4 : List (HloOp τ sig (Elt F))).Forall WritesOther :=
  ⟨wo, wo, wo, wo, wo, wo, wo, wo, wo, wo⟩

/-- A property of every operation of each of the five stretches is a property of every operation after the region. -/
theorem tail_forall {p : HloOp τ sig (Elt F) → Prop} (h1 : (hostOps1 : List (HloOp τ sig (Elt F))).Forall p)
    (h2 : (hostOps1_1 : List (HloOp τ sig (Elt F))).Forall p) (h3 : (hostOps1_2 : List (HloOp τ sig (Elt F))).Forall p)
    (h4 : (hostOps1_3 : List (HloOp τ sig (Elt F))).Forall p) (h5 : (hostOps1_4 : List (HloOp τ sig (Elt F))).Forall p) :
    ∀ ops ∈ (tailOps : List (List (HloOp τ sig (Elt F)))), ∀ op ∈ ops, p op := by
  intro ops hops op hop
  simp only [tailOps, List.mem_cons, List.mem_nil_iff, or_false] at hops
  rcases hops with rfl | rfl | rfl | rfl | rfl
  · exact List.forall_iff_forall_mem.mp h1 op hop
  · exact List.forall_iff_forall_mem.mp h2 op hop
  · exact List.forall_iff_forall_mem.mp h3 op hop
  · exact List.forall_iff_forall_mem.mp h4 op hop
  · exact List.forall_iff_forall_mem.mp h5 op hop

/-- No operation after the region writes a buffer of `kept`. -/
theorem tail_keeps (b : Ref sig .tc) (hb : b ∈ kept) :
    ∀ op ∈ (tailOps : List (List (HloOp τ sig (Elt F)))).flatten, Proc.devRef (τ := τ) .tc b ∉ op.writes := by
  intro op hop hw
  obtain ⟨ops, hops, hop'⟩ := List.mem_flatten.mp hop
  obtain ⟨y, hy, hk⟩ := tail_forall hostOps1_other hostOps1_1_other hostOps1_2_other hostOps1_3_other hostOps1_4_other ops hops op hop'
  rw [hy, Finset.mem_singleton] at hw
  exact hk (Proc.devRef_injective _ hw ▸ hb)

/-- The operations after the region touch unscoped TensorCore buffers only; with nothing prefetched, every such
    buffer is an array of the pipeline or bypasses it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (tail_forall (p := fun op => op.bufs ⊆ StableHlo.tcRefs τ sig)
    hostOps1_sub hostOps1_1_sub hostOps1_2_sub hostOps1_3_sub hostOps1_4_sub ops hops op hop)
/-- They allocate nothing. -/
theorem sfx_fresh : ∀ ops ∈ (tailOps : List (List (HloOp τ sig (Elt F)))), ∀ op ∈ ops, op.fresh = ∅ :=
  tail_forall hostOps1_fresh hostOps1_1_fresh hostOps1_2_fresh hostOps1_3_fresh hostOps1_4_fresh
/-- And they write no array of the pipeline: each array is one of `kept`. -/
theorem sfx_keeps : ∀ ops ∈ (tailOps : List (List (HloOp τ sig (Elt F)))), ∀ op ∈ ops,
    ∀ w, Proc.devRef .tc (Pipeline.arrRef spec0 w) ∉ op.writes := by
  intro ops hops op hop w
  exact tail_keeps (Pipeline.arrRef spec0 w) ((by decide : ∀ w, Pipeline.arrRef spec0 w ∈ kept) w) op
    (List.mem_flatten.mpr ⟨ops, hops, hop⟩)

/-! ## @main's arguments before and after the region -/

/-- The reshape before the region writes its own result only: an argument is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))

/-- An argument that is no array of the pipeline ends as launched: the region leaves it as found, no operation after
    the region writes it. -/
theorem W_main_arg0 (dats : (p : Fin 1) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (tail_keeps main_arg0 (by decide)),
    Pipeline.withArrays_of_ne _ c (V0 m c) _ main_arg0 (by exact (by decide : ∀ w, Pipeline.arrRef spec0 w ≠ main_arg0))]
  exact V_main_arg0 m c
theorem W_main_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (tail_keeps main_arg2 (by decide)),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for any proof data over the region-entry array
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 is fetched only where its block index moves (the first point of each row of the grid); where it is
    not fetched the index has not moved and the buffer still holds the block. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post: `main_arg1` is input window 1's array, so it ends as the region found it,
    which is as launched; `main_arg0` and `main_arg2` are no window's array, so they end as the operations after the
    region leave them, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).1 1).trans (((dats 0 c).arrAt_in 1 rfl _).trans ((hA c 1).trans (V_main_arg1 m c))),
     ((h c).2 main_arg2 (Pipeline.mem_restRefs_of main_arg2 (by decide) (by decide))).trans (W_main_arg2 m dats c)⟩) h

/-! ## The body's branch conditions -/

/-- The first branch of the body is taken where the second grid coordinate is zero. -/
abbrev cond0_0 (i : grid0.Coords) : Prop := (Scalar.cmpi .ne (Scalar.extui (Scalar.cmpi .eq (BitVec.ofNat 32 (i 1).val) 0#32)) 0#32) = 1#1
/-- That is at the points ≡ 0 (mod 128): decided over the 2048 points. -/
theorem hcond0_0 : ∀ t : Fin cfg0.N, cond0_0 (grid0.coords t) ↔ t.val % 128 = 0 :=
  (by decide +kernel : ∀ t : Fin grid0.N, cond0_0 (grid0.coords t) ↔ t.val % 128 = 0)

/-- The second branch of the body is taken where the second grid coordinate is 127. -/
abbrev cond0_1 (i : grid0.Coords) : Prop := k0_cond2 i = 1#1
/-- That is at the points ≡ 127 (mod 128): decided over the 2048 points. -/
theorem hcond0_1 : ∀ t : Fin cfg0.N, cond0_1 (grid0.coords t) ↔ t.val % 128 = 127 :=
  (by decide +kernel : ∀ t : Fin grid0.N, cond0_1 (grid0.coords t) ↔ t.val % 128 = 127)

/-! ## Where the windows are idle -/

/-- The input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl

/-- The output window is idle exactly where the second branch is not taken. -/
theorem idle0_2_iff (i : grid0.Coords) : cfg0.idle 2 i = true ↔ ¬cond0_1 i := by
  show (!(k0_cond2 i == 1#1)) = true ↔ ¬(k0_cond2 i = 1#1)
  rw [Bool.not_eq_true', beq_eq_false_iff_ne]

/-- Where the second branch is not taken the output is idle and is not written back (it is written back at the
    points ≡ 127 (mod 128) only, which are the points of the second branch). -/
theorem idleAt0_2_A : ∀ t : Fin cfg0.N, cond0_0 (grid0.coords t) → ¬cond0_1 (grid0.coords t) → cfg0.idle 2 (grid0.coords t) = true :=
  fun t _ h1 => (idle0_2_iff _).mpr h1
theorem noFlush0_2_A : ∀ t : Fin cfg0.N, cond0_0 (grid0.coords t) → ¬cond0_1 (grid0.coords t) → (cfg0.win 2).flush t = false :=
  fun t _ h1 => Bool.eq_false_iff.mpr fun hf => h1 ((hcond0_1 t).mpr ((flush0_2 t).mp hf))
theorem idleAt0_2_B : ∀ t : Fin cfg0.N, ¬cond0_0 (grid0.coords t) → ¬cond0_1 (grid0.coords t) → cfg0.idle 2 (grid0.coords t) = true :=
  fun t _ h1 => (idle0_2_iff _).mpr h1
theorem noFlush0_2_B : ∀ t : Fin cfg0.N, ¬cond0_0 (grid0.coords t) → ¬cond0_1 (grid0.coords t) → (cfg0.win 2).flush t = false :=
  fun t _ h1 => Bool.eq_false_iff.mpr fun hf => h1 ((hcond0_1 t).mpr ((flush0_2 t).mp hf))
/-- Where the second branch is taken the output is live: the body stores into it. -/
theorem liveAt0_2_C : ∀ t : Fin cfg0.N, ¬cond0_0 (grid0.coords t) → cond0_1 (grid0.coords t) → cfg0.idle 2 (grid0.coords t) = false :=
  fun t _ h1 => Bool.eq_false_iff.mpr fun hi => (idle0_2_iff _).mp hi h1

/-! ## The memrefs the body is run on -/

/-- One staging buffer of the output window, through which its contents are stated. -/
abbrev VO0_2 : View sig .tc .vmem S1x30x17 .f32 := (Memref.whole cc0_stg2_0 : Memref sig .tc .vmem S1x30x17 .f32).view
/-- Each window's current staging memref at point `t`, as the pipeline passes it to the body, and its wholeness. -/
abbrev ms0_0 (t : Fin cfg0.N) : Memref sig .tc .vmem S1x17x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x30x17 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x30x17 .f32 := win0_2.stage (cfg0.slots t 2)
abbrev hs0_2 (t : Fin cfg0.N) : (ms0_2 t).IsWhole := hstage0_2 ((cfg0.slots t 2).cast nbuf0_2)
/-- The scratch accumulator: a whole scoped buffer of the kernel's own, passed beside the windows. -/
abbrev scM0_0 : Memref sig .tc .vmem S30x17 .f32 := Memref.whole cc0_scratch0
/-- The scratch as a view: what it holds between points is stated through it. -/
abbrev VS0_0 : View sig .tc .vmem S30x17 .f32 := scM0_0.view

/-- The region's invariant with the scratch as a memref owned at some contents: what the body is handed and gives
    back besides the windows. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KIRunA.lean ====
import proofs.«420666_j78812649882012_1_alg».proof.Proof.KIRuns

/-! # The body at the first point of a row of the grid

Where the second grid coordinate is zero and not 127 the body first reads the scratch (whatever it holds), overwrites
it with zeros, reads the two input blocks and the scratch again, and stores the zeros plus this block's partial sums
into the scratch. It never touches the output's staging buffer. -/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body leaves in the output's staging buffer (none) and in the scratch (its two stores, the later
    first), with the run that shows it: from the two input buffers at their contents, the output buffer at any
    contents `xi2` and the scratch at unknown contents, the body reaches any continuation that takes the inputs and the
    output buffer back unchanged and the scratch with those pieces written. The first branch is decided by `hc0`, the
    second refuted by `hc1`. -/
noncomputable def kernelRun0_A (c : Dev nD) (i : grid0.Coords) (arg2 : Memref sig .tc .vmem S1x17x2048 .f32) (harg2 : arg2.IsWhole) (arg3 : Memref sig .tc .vmem S1x30x17 .i32) (harg3 : arg3.IsWhole)
    (arg4 : Memref sig .tc .vmem S1x30x17 .f32) (harg4 : arg4.IsWhole) (arg5 : Memref sig .tc .vmem S30x17 .f32) (harg5 : arg5.IsWhole) (hc0 : cond0_0 i) (hc1 : ¬cond0_1 i)
    (x0 : Vec F S1x17x2048 .f32) (x1 : Vec F S1x30x17 .i32) :
    Σ' (L2 : List (View.Piece (Elt F) S1x30x17 .f32)), { LS0 : List (View.Piece (Elt F) S30x17 .f32) //
      ∀ (xi2 : Vec F S1x30x17 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨[], ?_, fun xi2 E K => ?run⟩
  case run =>
    rw [cc0__gather_kernel_eq_skeleton]; unfold cc0__gather_kernel_skel
    unfold owns
    -- the three windows' buffers hold exactly their stated contents; of the scratch only the points-to is kept
    iintro ⟨⟨%f0, %hf0, H0⟩, ⟨%f1, %hf1, H1⟩, ⟨%f2, %hf2, H2⟩, ⟨%ds0, %fs0, -, HS0⟩, Hk⟩
    obtain rfl := harg2.eq_unread hf0
    obtain rfl := harg3.eq_unread hf1
    obtain rfl := harg4.eq_unread hf2
    sl_exec (disch := first | exact hc0 | exact hc1)
    sl_step
    iapply Hk
    isplitl [H0]
    · iexists _; isplitr
      · ipureintro; exact harg2.read_unread _
      · iexact H0
    isplitl [H1]
    · iexists _; isplitr
      · ipureintro; exact harg3.read_unread _
      · iexact H1
    isplitl [H2]
    · iexists _; isplitr
      · ipureintro; exact harg4.read_unread _
      · iexact H2
    iexists _; iexact HS0

end Cert.KernelIdeal.Fr

end
-- ==== Proof.KIRunB.lean ====
import proofs.«420666_j78812649882012_1_alg».proof.Proof.KIRunA

/-! # The body inside a row of the grid

Where the second grid coordinate is neither zero nor 127 the body takes neither branch: it reads the two input blocks
and the scratch, and stores the scratch plus this block's partial sums back into the scratch. -/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body leaves in the output's staging buffer (none) and in the scratch (its one store), with the run
    that shows it: as at the first point of a row, but the scratch comes in at the contents `xs0` the point before
    left, since this time its old contents are read into what is stored. Both branches are refuted (`hc0`, `hc1`). -/
noncomputable def kernelRun0_B (c : Dev nD) (i : grid0.Coords) (arg2 : Memref sig .tc .vmem S1x17x2048 .f32) (harg2 : arg2.IsWhole) (arg3 : Memref sig .tc .vmem S1x30x17 .i32) (harg3 : arg3.IsWhole)
    (arg4 : Memref sig .tc .vmem S1x30x17 .f32) (harg4 : arg4.IsWhole) (arg5 : Memref sig .tc .vmem S30x17 .f32) (harg5 : arg5.IsWhole) (hc0 : ¬cond0_0 i) (hc1 : ¬cond0_1 i)
    (x0 : Vec F S1x17x2048 .f32) (x1 : Vec F S1x30x17 .i32) (xs0 : Vec F S30x17 .f32) :
    Σ' (L2 : List (View.Piece (Elt F) S1x30x17 .f32)), { LS0 : List (View.Piece (Elt F) S30x17 .f32) //
      ∀ (xi2 : Vec F S1x30x17 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨[], ?_, fun xi2 E K => ?run⟩
  case run =>
    rw [cc0__gather_kernel_eq_skeleton]; unfold cc0__gather_kernel_skel
    unfold owns
    -- all four buffers hold exactly their stated contents
    iintro ⟨⟨%f0, %hf0, H0⟩, ⟨%f1, %hf1, H1⟩, ⟨%f2, %hf2, H2⟩, ⟨%fs0, %hfs0, HS0⟩, Hk⟩
    obtain rfl := harg2.eq_unread hf0
    obtain rfl := harg3.eq_unread hf1
    obtain rfl := harg4.eq_unread hf2
    obtain rfl := harg5.eq_unread hfs0
    sl_exec (disch := first | exact hc0 | exact hc1)
    sl_step
    iapply Hk
    isplitl [H0]
    · iexists _; isplitr
      · ipureintro; exact harg2.read_unread _
      · iexact H0
    isplitl [H1]
    · iexists _; isplitr
      · ipureintro; exact harg3.read_unread _
      · iexact H1
    isplitl [H2]
    · iexists _; isplitr
      · ipureintro; exact harg4.read_unread _
      · iexact H2
    iexists _; iexact HS0

end Cert.KernelIdeal.Fr

end
-- ==== Proof.KIRunC.lean ====
import proofs.«420666_j78812649882012_1_alg».proof.Proof.KIRunB

/-! # The body at the last point of a row of the grid

Where the second grid coordinate is 127 and not zero the body accumulates into the scratch as inside the row, then
reads the scratch back, reads the output's staging buffer (whatever it holds), and stores the scratch, reshaped, over
the whole of the output's staging buffer. -/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body leaves in the output's staging buffer (its one store) and in the scratch (its one store),
    with the run that shows it: the output's buffer comes in at unknown contents, which the read before the store
    tolerates, and goes out with its piece written. The first branch is refuted by `hc0`, the second decided by
    `hc1`. -/
noncomputable def kernelRun0_C (c : Dev nD) (i : grid0.Coords) (arg2 : Memref sig .tc .vmem S1x17x2048 .f32) (harg2 : arg2.IsWhole) (arg3 : Memref sig .tc .vmem S1x30x17 .i32) (harg3 : arg3.IsWhole)
    (arg4 : Memref sig .tc .vmem S1x30x17 .f32) (harg4 : arg4.IsWhole) (arg5 : Memref sig .tc .vmem S30x17 .f32) (harg5 : arg5.IsWhole) (hc0 : ¬cond0_0 i) (hc1 : cond0_1 i)
    (x0 : Vec F S1x17x2048 .f32) (x1 : Vec F S1x30x17 .i32) (xs0 : Vec F S30x17 .f32) :
    Σ' (L2 : List (View.Piece (Elt F) S1x30x17 .f32)), { LS0 : List (View.Piece (Elt F) S30x17 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨?_, ?_, fun E K => ?run⟩
  case run =>
    rw [cc0__gather_kernel_eq_skeleton]; unfold cc0__gather_kernel_skel
    unfold owns
    -- of the output's buffer only the points-to is kept; the other three hold exactly their stated contents
    iintro ⟨⟨%f0, %hf0, H0⟩, ⟨%f1, %hf1, H1⟩, ⟨%d2, %f2, -, H2⟩, ⟨%fs0, %hfs0, HS0⟩, Hk⟩
    obtain rfl := harg2.eq_unread hf0
    obtain rfl := harg3.eq_unread hf1
    obtain rfl := harg5.eq_unread hfs0
    sl_exec (disch := first | exact hc0 | exact hc1)
    sl_step
    iapply Hk
    isplitl [H0]
    · iexists _; isplitr
      · ipureintro; exact harg2.read_unread _
      · iexact H0
    isplitl [H1]
    · iexists _; isplitr
      · ipureintro; exact harg3.read_unread _
      · iexact H1
    isplitl [H2]
    · iexists _; iexact H2
    iexists _; iexact HS0

end Cert.KernelIdeal.Fr

end
-- ==== Proof.KIFrame.lean ====
import proofs.«420666_j78812649882012_1_alg».proof.Proof.KIRunC

/-! # The frame of the gather kernel's region

The kernel walks a grid of 16 × 128 points `t ↦ (t / 128, t % 128)`. Along a row `b = t / 128` it keeps a
30 × 17 accumulator in a scratch buffer: set to zero and then added to at the row's first point (`t % 128 = 0`),
added to at each later point, and at the row's last point (`t % 128 = 127`) copied into the output's block `b`,
which is written back there and nowhere else. This module states what the output's staging buffer and the scratch
hold after each point, packs that into the pipeline's proof data, discharges the body obligation point by point from
the three whole-body runs (one per case of the two conditionals), and concludes the run of `@main` and the frame:
the three argument arrays are as they were. -/

-- membership of an index in a rectangle of these extents recurses once per coordinate of the long axis
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Per case: what the stores cover and what they leave -/

/-- At a row's first point nothing is stored into the output's staging buffer. The empty list of pieces read back
    over arbitrary contents is a value nobody reads: the buffer is neither written back at such a point nor read at
    the next. -/
def out0_A_2 (c : Dev nD) (i : grid0.Coords) (arg2 : Memref sig .tc .vmem S1x17x2048 .f32) (harg2 : arg2.IsWhole) (arg3 : Memref sig .tc .vmem S1x30x17 .i32) (harg3 : arg3.IsWhole) (arg4 : Memref sig .tc .vmem S1x30x17 .f32) (harg4 : arg4.IsWhole) (arg5 : Memref sig .tc .vmem S30x17 .f32) (harg5 : arg5.IsWhole) (hc0 : cond0_0 i) (hc1 : ¬cond0_1 i)
    (x0 : Vec F S1x17x2048 .f32) (x1 : Vec F S1x30x17 .i32) : Vec F S1x30x17 .f32 :=
  VO0_2.read (Elt F) (VO0_2.writes (Elt F) VO0_2.junk (kernelRun0_A c i arg2 harg2 arg3 harg3 arg4 harg4 arg5 harg5 hc0 hc1 x0 x1).1)

/-- At a row's first point the scratch is stored whole (twice: the zeros, then the first partial sum), so every
    index of it lies in some stored piece. -/
theorem scover0_A_0 (c : Dev nD) (i : grid0.Coords) (arg2 : Memref sig .tc .vmem S1x17x2048 .f32) (harg2 : arg2.IsWhole) (arg3 : Memref sig .tc .vmem S1x30x17 .i32) (harg3 : arg3.IsWhole) (arg4 : Memref sig .tc .vmem S1x30x17 .f32) (harg4 : arg4.IsWhole) (arg5 : Memref sig .tc .vmem S30x17 .f32) (harg5 : arg5.IsWhole) (hc0 : cond0_0 i) (hc1 : ¬cond0_1 i)
    (x0 : Vec F S1x17x2048 .f32) (x1 : Vec F S1x30x17 .i32) (y : S30x17.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S30x17.size (by sl_kernel_rfl) y

/-- The scratch after a row's first point: the stored pieces read back (over anything, since they cover). -/
def sout0_A_0 (c : Dev nD) (i : grid0.Coords) (arg2 : Memref sig .tc .vmem S1x17x2048 .f32) (harg2 : arg2.IsWhole) (arg3 : Memref sig .tc .vmem S1x30x17 .i32) (harg3 : arg3.IsWhole) (arg4 : Memref sig .tc .vmem S1x30x17 .f32) (harg4 : arg4.IsWhole) (arg5 : Memref sig .tc .vmem S30x17 .f32) (harg5 : arg5.IsWhole) (hc0 : cond0_0 i) (hc1 : ¬cond0_1 i)
    (x0 : Vec F S1x17x2048 .f32) (x1 : Vec F S1x30x17 .i32) : Vec F S30x17 .f32 :=
  VS0_0.read (Elt F) (VS0_0.writes (Elt F) VS0_0.junk (kernelRun0_A c i arg2 harg2 arg3 harg3 arg4 harg4 arg5 harg5 hc0 hc1 x0 x1).2.1)

/-- At an inner point of a row nothing is stored into the output's staging buffer either: the same unread value. -/
def out0_B_2 (c : Dev nD) (i : grid0.Coords) (arg2 : Memref sig .tc .vmem S1x17x2048 .f32) (harg2 : arg2.IsWhole) (arg3 : Memref sig .tc .vmem S1x30x17 .i32) (harg3 : arg3.IsWhole) (arg4 : Memref sig .tc .vmem S1x30x17 .f32) (harg4 : arg4.IsWhole) (arg5 : Memref sig .tc .vmem S30x17 .f32) (harg5 : arg5.IsWhole) (hc0 : ¬cond0_0 i) (hc1 : ¬cond0_1 i)
    (x0 : Vec F S1x17x2048 .f32) (x1 : Vec F S1x30x17 .i32) (xs0 : Vec F S30x17 .f32) : Vec F S1x30x17 .f32 :=
  VO0_2.read (Elt F) (VO0_2.writes (Elt F) VO0_2.junk (kernelRun0_B c i arg2 harg2 arg3 harg3 arg4 harg4 arg5 harg5 hc0 hc1 x0 x1 xs0).1)

/-- At an inner point the scratch is stored whole once (the running sum). -/
theorem scover0_B_0 (c : Dev nD) (i : grid0.Coords) (arg2 : Memref sig .tc .vmem S1x17x2048 .f32) (harg2 : arg2.IsWhole) (arg3 : Memref sig .tc .vmem S1x30x17 .i32) (harg3 : arg3.IsWhole) (arg4 : Memref sig .tc .vmem S1x30x17 .f32) (harg4 : arg4.IsWhole) (arg5 : Memref sig .tc .vmem S30x17 .f32) (harg5 : arg5.IsWhole) (hc0 : ¬cond0_0 i) (hc1 : ¬cond0_1 i)
    (x0 : Vec F S1x17x2048 .f32) (x1 : Vec F S1x30x17 .i32) (xs0 : Vec F S30x17 .f32) (y : S30x17.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S30x17.size (by sl_kernel_rfl) y

/-- The scratch after an inner point, given what it held before (`xs0`). -/
def sout0_B_0 (c : Dev nD) (i : grid0.Coords) (arg2 : Memref sig .tc .vmem S1x17x2048 .f32) (harg2 : arg2.IsWhole) (arg3 : Memref sig .tc .vmem S1x30x17 .i32) (harg3 : arg3.IsWhole) (arg4 : Memref sig .tc .vmem S1x30x17 .f32) (harg4 : arg4.IsWhole) (arg5 : Memref sig .tc .vmem S30x17 .f32) (harg5 : arg5.IsWhole) (hc0 : ¬cond0_0 i) (hc1 : ¬cond0_1 i)
    (x0 : Vec F S1x17x2048 .f32) (x1 : Vec F S1x30x17 .i32) (xs0 : Vec F S30x17 .f32) : Vec F S30x17 .f32 :=
  VS0_0.read (Elt F) (VS0_0.writes (Elt F) VS0_0.junk (kernelRun0_B c i arg2 harg2 arg3 harg3 arg4 harg4 arg5 harg5 hc0 hc1 x0 x1 xs0).2.1)

/-- At a row's last point the output's staging buffer is stored whole (the finished sum). -/
theorem cover0_C_2 (c : Dev nD) (i : grid0.Coords) (arg2 : Memref sig .tc .vmem S1x17x2048 .f32) (harg2 : arg2.IsWhole) (arg3 : Memref sig .tc .vmem S1x30x17 .i32) (harg3 : arg3.IsWhole) (arg4 : Memref sig .tc .vmem S1x30x17 .f32) (harg4 : arg4.IsWhole) (arg5 : Memref sig .tc .vmem S30x17 .f32) (harg5 : arg5.IsWhole) (hc0 : ¬cond0_0 i) (hc1 : cond0_1 i)
    (x0 : Vec F S1x17x2048 .f32) (x1 : Vec F S1x30x17 .i32) (xs0 : Vec F S30x17 .f32) (y : S1x30x17.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x30x17.size (by sl_kernel_rfl) y

/-- The output's staging buffer after a row's last point. -/
def out0_C_2 (c : Dev nD) (i : grid0.Coords) (arg2 : Memref sig .tc .vmem S1x17x2048 .f32) (harg2 : arg2.IsWhole) (arg3 : Memref sig .tc .vmem S1x30x17 .i32) (harg3 : arg3.IsWhole) (arg4 : Memref sig .tc .vmem S1x30x17 .f32) (harg4 : arg4.IsWhole) (arg5 : Memref sig .tc .vmem S30x17 .f32) (harg5 : arg5.IsWhole) (hc0 : ¬cond0_0 i) (hc1 : cond0_1 i)
    (x0 : Vec F S1x17x2048 .f32) (x1 : Vec F S1x30x17 .i32) (xs0 : Vec F S30x17 .f32) : Vec F S1x30x17 .f32 :=
  VO0_2.read (Elt F) (VO0_2.writes (Elt F) VO0_2.junk (kernelRun0_C c i arg2 harg2 arg3 harg3 arg4 harg4 arg5 harg5 hc0 hc1 x0 x1 xs0).1)

/-- At a row's last point the scratch is stored whole once as well. -/
theorem scover0_C_0 (c : Dev nD) (i : grid0.Coords) (arg2 : Memref sig .tc .vmem S1x17x2048 .f32) (harg2 : arg2.IsWhole) (arg3 : Memref sig .tc .vmem S1x30x17 .i32) (harg3 : arg3.IsWhole) (arg4 : Memref sig .tc .vmem S1x30x17 .f32) (harg4 : arg4.IsWhole) (arg5 : Memref sig .tc .vmem S30x17 .f32) (harg5 : arg5.IsWhole) (hc0 : ¬cond0_0 i) (hc1 : cond0_1 i)
    (x0 : Vec F S1x17x2048 .f32) (x1 : Vec F S1x30x17 .i32) (xs0 : Vec F S30x17 .f32) (y : S30x17.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S30x17.size (by sl_kernel_rfl) y

/-- The scratch after a row's last point. -/
def sout0_C_0 (c : Dev nD) (i : grid0.Coords) (arg2 : Memref sig .tc .vmem S1x17x2048 .f32) (harg2 : arg2.IsWhole) (arg3 : Memref sig .tc .vmem S1x30x17 .i32) (harg3 : arg3.IsWhole) (arg4 : Memref sig .tc .vmem S1x30x17 .f32) (harg4 : arg4.IsWhole) (arg5 : Memref sig .tc .vmem S30x17 .f32) (harg5 : arg5.IsWhole) (hc0 : ¬cond0_0 i) (hc1 : cond0_1 i)
    (x0 : Vec F S1x17x2048 .f32) (x1 : Vec F S1x30x17 .i32) (xs0 : Vec F S30x17 .f32) : Vec F S30x17 .f32 :=
  VS0_0.read (Elt F) (VS0_0.writes (Elt F) VS0_0.junk (kernelRun0_C c i arg2 harg2 arg3 harg3 arg4 harg4 arg5 harg5 hc0 hc1 x0 x1 xs0).2.1)

/-! ## Point by point -/

/-- One step of the walk: from what the scratch held before the body at point `t` (`prev`) to the pair
    (output's staging buffer, scratch) after it. Which of the three cases applies is read off `t % 128`; a residue
    cannot be both 0 and 127. At a row's first point `prev` is not consulted. -/
def stepAt0 (c : Dev nD) (t : Fin cfg0.N) (prev : Vec F S30x17 .f32) : Vec F S1x30x17 .f32 × Vec F S30x17 .f32 :=
  if h0 : t.val % 128 = 0 then
    if h1 : t.val % 128 = 127 then False.elim (by omega)
    else (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t))
  else
    if h1 : t.val % 128 = 127 then (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) prev, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) prev)
    else (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) prev, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) prev)

/-- The walk itself: the pair after the body at position `n`, each step fed the scratch of the step before. The
    very first step is a row's first point, so what it is fed is immaterial. -/
def outsAt0 (c : Dev nD) : (n : ℕ) → n < cfg0.N → Vec F S1x30x17 .f32 × Vec F S30x17 .f32
  | 0, hn => stepAt0 m c ⟨0, hn⟩ (VS0_0.read (Elt F) VS0_0.junk)
  | n + 1, hn => stepAt0 m c ⟨n + 1, hn⟩ (outsAt0 c n (Nat.lt_of_succ_lt hn)).2

/-- At a row's first point. -/
theorem outsAt0_A (c : Dev nD) (t : Fin cfg0.N) (h0 : t.val % 128 = 0) (h1 : ¬t.val % 128 = 127) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => show stepAt0 m c ⟨0, hn⟩ _ = _; unfold stepAt0; rw [dif_pos h0, dif_neg h1]
  | succ n => show stepAt0 m c ⟨n + 1, hn⟩ _ = _; unfold stepAt0; rw [dif_pos h0, dif_neg h1]

/-- At an inner point: over the scratch of the point before. -/
theorem outsAt0_B (c : Dev nD) (t : Fin cfg0.N) (h0 : ¬t.val % 128 = 0) (h1 : ¬t.val % 128 = 127) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact absurd (Nat.zero_mod _) h0
  | succ n => show stepAt0 m c ⟨n + 1, hn⟩ _ = _; unfold stepAt0; rw [dif_neg h0, dif_neg h1]; all_goals rfl

/-- At a row's last point: over the scratch of the point before. -/
theorem outsAt0_C (c : Dev nD) (t : Fin cfg0.N) (h0 : ¬t.val % 128 = 0) (h1 : t.val % 128 = 127) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact absurd (Nat.zero_mod _) h0
  | succ n => show stepAt0 m c ⟨n + 1, hn⟩ _ = _; unfold stepAt0; rw [dif_neg h0, dif_pos h1]; all_goals rfl

/-! ## The invariant between points -/

/-- What the region holds besides the windows, before position `n`: at the start, the scratch at anything and the
    generator register at some state; after a point, the scratch at exactly what that point left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- On core `c`: the three arrays as the region finds them; after the body at `t` the two inputs' buffers at
    their blocks and the output's at the walk's first component; the invariant above; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

/-- An input's current buffer holds its block at every point: window 0 is fetched at each, window 1 at a row's
    first point and its block does not change along the row. -/
theorem before0_0 (c : Dev nD) (t : Fin cfg0.N) (d) : (dats m 0 c).before 0 t d = iblk m c 0 t :=
  before0_0_of m (dats m 0 c) (A_eq m c 0) (after0_0 m c) t d

theorem before0_1 (c : Dev nD) (t : Fin cfg0.N) (d) : (dats m 0 c).before 1 t d = iblk m c 1 t :=
  before0_1_of m (dats m 0 c) (A_eq m c 1) (after0_1 m c) t d

/-! ## The body at a point -/

/-- What the body is given at point `t`: the invariant, the (empty) debt, and the three current buffers. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- What it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The inputs' buffers hold their blocks; `t % 128` says which case the point is in. In each
    case that case's run applies: it is handed the scratch (at anything at the very first point, at what the point
    before left otherwise) and returns it as a covering list of pieces, hence at this point's contents. The output's
    buffer goes through untouched except at a row's last point, where it is returned as a covering list too. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 2048 := lt_of_lt_of_eq t.isLt (show cfg0.N = 2048 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 128 = 0
  · by_cases h1 : t.val % 128 = 127
    · exfalso; omega
    · rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · have hz : t.val ≠ 0 := fun hz => h0 (by rw [hz])
    by_cases h1 : t.val % 128 = 127
    · rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [outsAt0_C m c t h0 h1]
      unfold out0_C_2 sout0_C_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The body obligation of the pipeline, at every point: the three windows written out. -/
theorem body_obligation (c : Dev nD) : BodyObligation (dats (F := F) m 0 c) (defs₀ (F := F)) Variants.none () Set.univ := fun t => by
  rw [bigSep_W0, bigSep_W0]
  exact sound_body m c t

/-- The region's entry condition is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the entry condition back: the scratch's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- In particular after the last. -/
theorem hout (c : Dev nD) : (dats m 0 c).Φ (Fin.last cfg0.N) ⊢ Pipeline.ΦA spec0 c :=
  Phi_out m c _ (by rw [Fin.val_last]; have : cfg0.N = 2048 := N_0; omega)

/-! ## The run and the frame -/

-- the statement's implicit arguments are found by unifying the library theorem's conclusion with it, which unfolds
-- plain definitions inside the type of an unknown
set_option backward.isDefEq.respectTransparency.types false in
/-- From any memory with zero counters every weakly fair execution of `@main` on the TensorCores terminates, with each
    of the three arrays at what the proof data computes for it and every other unscoped buffer as the host lines
    after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: the three argument arrays are, at the end of every run, what they were at its start. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Fr

end
-- ==== Proof.GatherSpec.lean ====
/-
  The gather as the kernel computes it, and what it is worth.

  For a batch `b`, an instance `n` and a keypoint channel `k`, the kernel never indexes the tag map: it walks the
  262144 positions of the map in 128 blocks of 2048 lanes and adds up, lane by lane, the tag at position `q` where
  the position word `p (b, n, k)` IS `q`, and zero elsewhere. `gsum` is that double sum. Where the word is a position of
  the map (`0 ≤ p < 262144` as a signed word) exactly one lane of one block contributes, and the sum is the tag at that
  position (`gsum_eq_at`): a sum of zeros and one term needs no finiteness.
-/
import Idealize.ShloMosaic.PureOps.Ideal
import Idealize.ShloMosaic.Lib.ValueIdx

noncomputable section

namespace Cert.Spec

open Idealize.ShloMosaic Idealize.ShloMosaic.ValueIdx
open scoped BigOperators

abbrev S16x17x262144 : Shape := ⟨3, ![16, 17, 262144]⟩
abbrev S16x30x17 : Shape := ⟨3, ![16, 30, 17]⟩

/-- Lane `l` of block `h` is position `2048 h + l` of the map. -/
theorem pos_lt (h : Fin 128) (l : Fin 2048) : 2048 * h.val + l.val < 262144 := by
  have := h.isLt; have := l.isLt; omega

/-- What the accumulation leaves at `(b, n, k)`: over the blocks `h` and their lanes `l`, the tag of channel `k` of batch
    `b` at position `2048 h + l` where the position word is that position, zero elsewhere. -/
def gsum (x : S16x17x262144.Idx → EReal) (p : S16x30x17.Idx → BitVec 32) : S16x30x17.Idx → EReal :=
  fun j => ∑ h : Fin 128, ∑ l : Fin 2048,
    if p j = BitVec.ofNat 32 (2048 * h.val + l.val) then
      x (ix3 (n0 := 16) (n1 := 17) (n2 := 262144) (j 0) (j 2) ⟨2048 * h.val + l.val, pos_lt h l⟩)
    else 0

/-- A signed word between 0 and 262144 is that natural number. -/
theorem toNat_lt_of_toInt {w : BitVec 32} (h0 : 0 ≤ w.toInt) (h1 : w.toInt < 262144) : w.toNat < 262144 := by
  rw [BitVec.toInt_eq_toNat_cond] at h0 h1
  split at h0 <;> omega

/-- Where the position word is a position of the map, the double sum has one non-zero term: the tag there. -/
theorem gsum_eq_at (x : S16x17x262144.Idx → EReal) (p : S16x30x17.Idx → BitVec 32) (j : S16x30x17.Idx)
    (hq : (p j).toNat < 262144) :
    gsum x p j = x (ix3 (n0 := 16) (n1 := 17) (n2 := 262144) (j 0) (j 2) ⟨(p j).toNat, hq⟩) := by
  unfold gsum
  have hword : ∀ (h : Fin 128) (l : Fin 2048), p j = BitVec.ofNat 32 (2048 * h.val + l.val) →
      (p j).toNat = 2048 * h.val + l.val := by
    intro h l e
    have := pos_lt h l
    rw [e, BitVec.toNat_ofNat]; omega
  rw [Finset.sum_eq_single (⟨(p j).toNat / 2048, by omega⟩ : Fin 128)]
  · rw [Finset.sum_eq_single (⟨(p j).toNat % 2048, Nat.mod_lt _ (by norm_num)⟩ : Fin 2048)]
    · have hpos : 2048 * ((p j).toNat / 2048) + (p j).toNat % 2048 = (p j).toNat := Nat.div_add_mod _ _
      rw [if_pos (by
        show p j = BitVec.ofNat 32 (2048 * ((p j).toNat / 2048) + (p j).toNat % 2048)
        rw [hpos, BitVec.ofNat_toNat, BitVec.setWidth_eq])]
      refine congrArg x (congrArg (ix3 (n0 := 16) (n1 := 17) (n2 := 262144) (j 0) (j 2)) (Fin.ext ?_))
      exact hpos
    · intro l _ hl
      rw [if_neg]
      intro e
      have := hword _ l e
      apply hl; apply Fin.ext
      show l.val = (p j).toNat % 2048
      have := l.isLt
      omega
    · intro h; exact absurd (Finset.mem_univ _) h
  · intro h _ hh
    refine Finset.sum_eq_zero fun l _ => ?_
    rw [if_neg]
    intro e
    have := hword h l e
    apply hh; apply Fin.ext
    show h.val = (p j).toNat / 2048
    have := l.isLt
    omega
  · intro h; exact absurd (Finset.mem_univ _) h

end Cert.Spec

end
-- ==== Proof.KIPayload.lean ====
/-
  The three stored values of the gather kernel's body, read at an index over the extended reals: the reset stores the
  zero block; the update stores, at (n, k), the scratch there plus the sum over the block's 2048 lanes of the tag at
  (k, l) where the position word at (n, k) equals the lane's position 2048 h + l (h the block's number along the
  flattened axis), else zero; the write-back stores the scratch with a leading unit axis.
-/
import proofs.«420666_j78812649882012_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

noncomputable section

open Idealize.ShloMosaic Idealize.SL.Sem
open Idealize.ShloMosaic.ValueIdx
open scoped BigOperators

namespace Cert.KernelIdeal.Val

open Cert.KernelIdeal Cert.KernelIdeal.Gen

/-- The reset's payload is the zero block. -/
theorem pay1_apply (j : S30x17.Idx) : k0_pay1 (F := Ideal) j = 0 := by
  unfold k0_pay1
  refine (congrFun (shapeCast_self _ _) j).trans ?_
  exact Ideal.ofBits_zero_f32

/-- The write-back's payload at (0, n, k) is the scratch at (n, k). -/
theorem pay3_apply (v29 : FVec Ideal S30x17 .f32) (n : Fin 30) (k : Fin 17) :
    k0_pay3 (F := Ideal) v29 (ix3 (0 : Fin 1) n k) = v29 (ix2 n k) := by
  unfold k0_pay3
  exact shapeCast_ab_1ab_apply v29 _ (0 : Fin 1) n k

/-- A matrix cast to a trailing unit axis reads (i, j, 0) at (i, j). -/
theorem cast_ab_ab1 {α : Type} (x : S30x17.Idx → α) (h : S30x17.ShapeCasts S30x17x1) (n : Fin 30) (k : Fin 17) (u : Fin 1) :
    shapeCast S30x17x1 x h (ix3 n k u) = x (ix2 n k) :=
  shapeCast_apply x h _ _ (by
    have hu : u.val = 0 := by omega
    rw [Shape.rowMajor_val_three, Shape.rowMajor_val_two]
    show n.val * 17 + k.val = (n.val * 17 + k.val) * 1 + u.val
    rw [hu]; omega)

/-- The position words, one per (n, k), copied along the lanes. -/
theorem bcast_pos {α : Type} (x : S30x17x1.Idx → α) (n : Fin 30) (k : Fin 17) (l : Fin 2048) :
    broadcastTo S30x17x2048 x broadcasts_S30x17x1_S30x17x2048 (ix3 n k l) = x (ix3 n k (0 : Fin 1)) :=
  broadcastTo_apply x _ _ _ fun a => match a with | ⟨0, _⟩ => rfl | ⟨1, _⟩ => rfl | ⟨2, _⟩ => rfl

/-- The lane numbers, one per lane, copied over every (n, k). -/
theorem bcast_lane {α : Type} (x : S1x1x2048.Idx → α) (n : Fin 30) (k : Fin 17) (l : Fin 2048) :
    broadcastTo S30x17x2048 x broadcasts_S1x1x2048_S30x17x2048 (ix3 n k l) = x (ix3 (0 : Fin 1) (0 : Fin 1) l) :=
  broadcastTo_apply x _ _ _ fun a => match a with | ⟨0, _⟩ => rfl | ⟨1, _⟩ => rfl | ⟨2, _⟩ => rfl

/-- The tags of one block, copied over the 30 rows. -/
theorem bcast_tag {α : Type} (x : S1x17x2048.Idx → α) (n : Fin 30) (k : Fin 17) (l : Fin 2048) :
    broadcastTo S30x17x2048 x broadcasts_S1x17x2048_S30x17x2048 (ix3 n k l) = x (ix3 (0 : Fin 1) k l) :=
  broadcastTo_apply x _ _ _ fun a => match a with | ⟨0, _⟩ => rfl | ⟨1, _⟩ => rfl | ⟨2, _⟩ => rfl

/-- The sum along the lanes, at (n, k). -/
theorem lane_sum (src : FVec Ideal S30x17x2048 .f32) (hφ : FKind.Formats .f32)
    (hacc : (0x00000000#32 : BitVec 32) = FKind.add.neutral .f32 hφ) (n : Fin 30) (k : Fin 17) :
    multiReduction .add [2] S30x17 src 0x00000000#32 reduces_S30x17x2048_S30x17 hφ hacc (ix2 n k)
      = ∑ l : Fin 2048, src (ix3 n k l) := by
  refine (Ideal.multiReduction_add_single src _ reduces_S30x17x2048_S30x17 hφ hacc (ix2 n k)).trans ?_
  refine Finset.sum_congr rfl fun l _ => congrArg src ?_
  funext a
  match a with
  | ⟨0, _⟩ => rfl
  | ⟨1, _⟩ => rfl
  | ⟨2, _⟩ => rfl

/-- A select on an equality test of two words is the `if` on their equality. -/
theorem select_cmpi_eq {α : Type} (x y : BitVec 32) (A B : α) :
    Scalar.select (IntOp.cmpi .eq x y) A B = if x = y then A else B := by
  show (if IntOp.cmpi .eq x y = 1#1 then A else B) = _
  by_cases h : x = y
  · rw [if_pos h, if_pos (StableHlo.Predicate.cmpi_eq_iff.mpr h)]
  · rw [if_neg h, if_neg (mt StableHlo.Predicate.cmpi_eq_iff.mp h)]

/-- The same with each operand and each branch first brought to another spelling. -/
theorem select_cmpi_congr {α : Type} (x x' y y' : BitVec 32) (A A' B B' : α) (hx : x = x') (hy : y = y') (hA : A = A')
    (hB : B = B') : Scalar.select (IntOp.cmpi .eq x y) A B = if x' = y' then A' else B' := by
  subst hx hy hA hB
  exact select_cmpi_eq x y A B

/-- Lane l of block h is position 2048 h + l, as 32-bit words. -/
theorem word_pos (l h : Nat) : BitVec.ofNat 32 l + BitVec.ofNat 32 h * 2048#32 = BitVec.ofNat 32 (2048 * h + l) := by
  apply BitVec.eq_of_toNat_eq
  simp only [BitVec.toNat_add, BitVec.toNat_mul, BitVec.toNat_ofNat]
  omega

/-- The update's payload at (n, k): the scratch there plus, over the block's 2048 lanes, the tag at (k, l) where the
    position word at (n, k) is the lane's position 2048 h + l (h the block's number), else zero. -/
theorem pay2_apply (i : grid0.Coords) (v3 : FVec Ideal S1x17x2048 .f32) (v5 : IVec S1x30x17 32) (v20 : FVec Ideal S30x17 .f32)
    (n : Fin 30) (k : Fin 17) :
    k0_pay2 (F := Ideal) i v3 v5 v20 (ix2 n k)
      = v20 (ix2 n k) + ∑ l : Fin 2048,
          (if v5 (ix3 (0 : Fin 1) n k) = BitVec.ofNat 32 (2048 * (i 1).val + l.val) then v3 (ix3 (0 : Fin 1) k l) else 0) := by
  unfold k0_pay2
  refine (congrFun (shapeCast_self _ _) (ix2 n k)).trans ?_
  refine (addf_apply v20 _ (ix2 n k)).trans (congrArg (fun x => v20 (ix2 n k) + x) ?_)
  refine (lane_sum _ _ _ n k).trans ?_
  refine Finset.sum_congr rfl fun l _ => ?_
  refine (select_apply _ _ _ (ix3 n k l)).trans ?_
  refine select_cmpi_congr _ _ _ _ _ _ _ _ ?_ ?_ ?_ ?_
  · exact (bcast_pos _ n k l).trans ((cast_ab_ab1 _ _ n k (0 : Fin 1)).trans (shapeCast_1ab_ab_apply v5 _ n k))
  · refine (bcast_lane _ n k l).trans ?_
    refine Eq.trans ?_ (word_pos l.val (i 1).val)
    exact congrArg (fun w => w + BitVec.ofNat 32 (i 1).val * 2048#32)
      (iota_single_apply .tc S1x1x2048 32 2 iota_S1x1x2048_d2_w32 (ix3 (0 : Fin 1) (0 : Fin 1) l))
  · exact (bcast_tag _ n k l).trans ((congrFun (shapeCast_self _ _) _).trans
      ((shapeCast_ab_1ab_apply _ _ (0 : Fin 1) k l).trans (shapeCast_1ab_ab_apply v3 _ k l)))
  · exact Ideal.ofBits_zero_f32

end Cert.KernelIdeal.Val

end
-- ==== Proof.KIValue.lean ====
/-
  The value of the gather kernel's region over the extended reals. The grid's point t is (t / 128, t % 128): along row
  b = t / 128 the body keeps, in a scratch, a 30 × 17 accumulator which the row's first point sets to zero and every
  point updates by its block's share — at (n, k), the sum over the block's 2048 lanes of the tag at (b, k, 2048 h + l)
  where the position word at (b, n, k) is 2048 h + l, h = t % 128 — and which the row's last point copies into block b
  of the output. So after point t the scratch holds the shares of blocks 0 … t % 128 (induction on the point), the
  block written back at a row's last point is that row of the full sum over the 128 blocks, these 16 blocks cover the
  output array, and the array after the region is the full sum at every index.
-/
import proofs.«420666_j78812649882012_1_alg».proof.Proof.KIFrame
import proofs.«420666_j78812649882012_1_alg».proof.Proof.GatherSpec
import proofs.«420666_j78812649882012_1_alg».proof.Proof.KIPayload
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)
open Idealize.ShloMosaic.ValueIdx
open scoped BigOperators

namespace Cert.KernelIdeal.Val

open Cert.KernelIdeal Cert.KernelIdeal.Gen Cert.KernelIdeal.Fr

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a row's first point the scratch is left at the update of the zero block by this point's two input blocks. -/
theorem scratch_A (c : Dev nD) (i : grid0.Coords) (arg2 : Memref sig .tc .vmem S1x17x2048 .f32) (harg2 : arg2.IsWhole) (arg3 : Memref sig .tc .vmem S1x30x17 .i32) (harg3 : arg3.IsWhole)
    (arg4 : Memref sig .tc .vmem S1x30x17 .f32) (harg4 : arg4.IsWhole) (arg5 : Memref sig .tc .vmem S30x17 .f32) (harg5 : arg5.IsWhole) (hc0 : cond0_0 i) (hc1 : ¬cond0_1 i)
    (x0 : Vec F S1x17x2048 .f32) (x1 : Vec F S1x30x17 .i32) :
    sout0_A_0 c i arg2 harg2 arg3 harg3 arg4 harg4 arg5 harg5 hc0 hc1 x0 x1 = k0_pay2 i x0 x1 k0_pay1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S30x17) hz2, View.readCov_unit_zero (S := S30x17) _ hz2]
  simp only [View.readAt_eq_ld, harg2.read_unread, harg3.read_unread, View.ld_unit_zero (S := S1x17x2048) hz3,
    View.ld_unit_zero (S := S1x30x17) hz3]

/-- At an inner point of a row the scratch is left at the update of what it held. -/
theorem scratch_B (c : Dev nD) (i : grid0.Coords) (arg2 : Memref sig .tc .vmem S1x17x2048 .f32) (harg2 : arg2.IsWhole) (arg3 : Memref sig .tc .vmem S1x30x17 .i32) (harg3 : arg3.IsWhole)
    (arg4 : Memref sig .tc .vmem S1x30x17 .f32) (harg4 : arg4.IsWhole) (arg5 : Memref sig .tc .vmem S30x17 .f32) (harg5 : arg5.IsWhole) (hc0 : ¬cond0_0 i) (hc1 : ¬cond0_1 i)
    (x0 : Vec F S1x17x2048 .f32) (x1 : Vec F S1x30x17 .i32) (xs0 : Vec F S30x17 .f32) :
    sout0_B_0 c i arg2 harg2 arg3 harg3 arg4 harg4 arg5 harg5 hc0 hc1 x0 x1 xs0 = k0_pay2 i x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread, View.ld_unit_zero (S := S1x17x2048) hz3,
    View.ld_unit_zero (S := S1x30x17) hz3, View.ld_unit_zero (S := S30x17) hz2]

/-- At a row's last point likewise. -/
theorem scratch_C (c : Dev nD) (i : grid0.Coords) (arg2 : Memref sig .tc .vmem S1x17x2048 .f32) (harg2 : arg2.IsWhole) (arg3 : Memref sig .tc .vmem S1x30x17 .i32) (harg3 : arg3.IsWhole)
    (arg4 : Memref sig .tc .vmem S1x30x17 .f32) (harg4 : arg4.IsWhole) (arg5 : Memref sig .tc .vmem S30x17 .f32) (harg5 : arg5.IsWhole) (hc0 : ¬cond0_0 i) (hc1 : cond0_1 i)
    (x0 : Vec F S1x17x2048 .f32) (x1 : Vec F S1x30x17 .i32) (xs0 : Vec F S30x17 .f32) :
    sout0_C_0 c i arg2 harg2 arg3 harg3 arg4 harg4 arg5 harg5 hc0 hc1 x0 x1 xs0 = k0_pay2 i x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S1x17x2048) hz3,
    View.ld_unit_zero (S := S1x30x17) hz3, View.ld_unit_zero (S := S30x17) hz2]

/-- At a row's last point the output's staging buffer is left at the updated scratch, with a leading unit axis. -/
theorem out_C (c : Dev nD) (i : grid0.Coords) (arg2 : Memref sig .tc .vmem S1x17x2048 .f32) (harg2 : arg2.IsWhole) (arg3 : Memref sig .tc .vmem S1x30x17 .i32) (harg3 : arg3.IsWhole)
    (arg4 : Memref sig .tc .vmem S1x30x17 .f32) (harg4 : arg4.IsWhole) (arg5 : Memref sig .tc .vmem S30x17 .f32) (harg5 : arg5.IsWhole) (hc0 : ¬cond0_0 i) (hc1 : cond0_1 i)
    (x0 : Vec F S1x17x2048 .f32) (x1 : Vec F S1x30x17 .i32) (xs0 : Vec F S30x17 .f32) :
    out0_C_2 c i arg2 harg2 arg3 harg3 arg4 harg4 arg5 harg5 hc0 hc1 x0 x1 xs0 = k0_pay3 (k0_pay2 i x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3]
  simp only [View.readCov_unit_zero (S := S30x17) _ hz2, View.readAt_eq_ld, harg2.read_unread, harg3.read_unread, harg5.read_unread,
    View.ld_unit_zero (S := S1x17x2048) hz3, View.ld_unit_zero (S := S1x30x17) hz3, View.ld_unit_zero (S := S30x17) hz2]

variable (m : (ℓ : Loc nD τ sig) → Buf (Elt Ideal) ℓ)

theorem N2048 : cfg0.N = 2048 := N_0

theorem lt2048 (t : Fin cfg0.N) : t.val < 2048 := Nat.lt_of_lt_of_eq t.isLt N2048

/-- Point t of the 16 × 128 grid is (t / 128, t % 128). -/
theorem coords0 (t : Fin cfg0.N) : ((grid0.coords t) 0).val = t.val / 128 := by
  have h := lt2048 t
  show t.val / grid0.stride 0 % grid0.bound 0 = _
  rw [show grid0.stride 0 = 128 from by decide, show grid0.bound 0 = 16 from rfl]
  omega

theorem coords1 (t : Fin cfg0.N) : ((grid0.coords t) 1).val = t.val % 128 := by
  show t.val / grid0.stride 1 % grid0.bound 1 = _
  rw [show grid0.stride 1 = 1 from by decide, show grid0.bound 1 = 128 from rfl]
  omega

/-- The tags' window is at block (t / 128, 0, t % 128); the positions' and the output's at block (t / 128, 0, 0). -/
theorem idx0_0 (t : Fin cfg0.N) : win0_0.index t 0 = t.val / 128 := by
  have h := lt2048 t
  show (BitVec.ofNat 32 ((grid0.coords t) 0).val).toNat = _
  rw [BitVec.toNat_ofNat, coords0]; omega
theorem idx0_1 (t : Fin cfg0.N) : win0_0.index t 1 = 0 := rfl
theorem idx0_2 (t : Fin cfg0.N) : win0_0.index t 2 = t.val % 128 := by
  show (BitVec.ofNat 32 ((grid0.coords t) 1).val).toNat = _
  rw [BitVec.toNat_ofNat, coords1]; omega
theorem idx1_0 (t : Fin cfg0.N) : win0_1.index t 0 = t.val / 128 := by
  have h := lt2048 t
  show (BitVec.ofNat 32 ((grid0.coords t) 0).val).toNat = _
  rw [BitVec.toNat_ofNat, coords0]; omega
theorem idx1_1 (t : Fin cfg0.N) : win0_1.index t 1 = 0 := rfl
theorem idx1_2 (t : Fin cfg0.N) : win0_1.index t 2 = 0 := rfl
theorem idx2_0 (t : Fin cfg0.N) : win0_2.index t 0 = t.val / 128 := by
  have h := lt2048 t
  show (BitVec.ofNat 32 ((grid0.coords t) 0).val).toNat = _
  rw [BitVec.toNat_ofNat, coords0]; omega
theorem idx2_1 (t : Fin cfg0.N) : win0_2.index t 1 = 0 := rfl
theorem idx2_2 (t : Fin cfg0.N) : win0_2.index t 2 = 0 := rfl

/-- The tags array, the positions array, and their blocks at a point, at their literal types. -/
abbrev xarr (c : Dev nD) : FVec Ideal S16x17x262144 .f32 := V m c main_v0
abbrev parr (c : Dev nD) : IVec S16x30x17 32 := V m c main_arg1
abbrev xblk (c : Dev nD) (t : Fin cfg0.N) : FVec Ideal S1x17x2048 .f32 := iblk m c 0 t
abbrev pblk (c : Dev nD) (t : Fin cfg0.N) : IVec S1x30x17 32 := iblk m c 1 t

/-- The tags' block at point t is row t / 128, lanes 2048 (t % 128) … of the flattened axis. -/
theorem xblk_apply (c : Dev nD) (t : Fin cfg0.N) (k : Fin 17) (l : Fin 2048) (b : Fin 16) (hb : b.val = t.val / 128)
    (q : Fin 262144) (hq : q.val = 2048 * (t.val % 128) + l.val) :
    xblk m c t (ix3 (0 : Fin 1) k l) = xarr m c (ix3 b k q) := by
  unfold xblk xarr iblk
  rw [View.read_apply]
  show V m c main_v0 _ = V m c main_v0 _
  congr 1
  funext a
  apply Fin.ext
  match a with
  | ⟨0, _⟩ => show win0_0.index t 0 * 1 + 1 * 0 = b.val; rw [idx0_0, hb]; omega
  | ⟨1, _⟩ => show win0_0.index t 1 * 17 + 1 * k.val = k.val; rw [idx0_1]; omega
  | ⟨2, _⟩ => show win0_0.index t 2 * 2048 + 1 * l.val = q.val; rw [idx0_2, hq]; omega

/-- The positions' block at point t is row t / 128. -/
theorem pblk_apply (c : Dev nD) (t : Fin cfg0.N) (n : Fin 30) (k : Fin 17) (b : Fin 16) (hb : b.val = t.val / 128) :
    pblk m c t (ix3 (0 : Fin 1) n k) = parr m c (ix3 b n k) := by
  unfold pblk parr iblk
  rw [View.read_apply]
  show V m c main_arg1 _ = V m c main_arg1 _
  congr 1
  funext a
  apply Fin.ext
  match a with
  | ⟨0, _⟩ => show win0_1.index t 0 * 1 + 1 * 0 = b.val; rw [idx1_0, hb]; omega
  | ⟨1, _⟩ => show win0_1.index t 1 * 30 + 1 * n.val = n.val; rw [idx1_1]; omega
  | ⟨2, _⟩ => show win0_1.index t 2 * 17 + 1 * k.val = k.val; rw [idx1_2]; omega

/-! ## The sum, block by block -/

/-- Block h's share of the sum at (b, n, k): over its 2048 lanes, the tag at (b, k, 2048 h + l) where the position word at
    (b, n, k) is 2048 h + l, else zero. -/
def blockSum (x : FVec Ideal S16x17x262144 .f32) (p : IVec S16x30x17 32) (b : Fin 16) (n : Fin 30) (k : Fin 17) (h : Fin 128) : EReal :=
  ∑ l : Fin 2048, if p (ix3 b n k) = BitVec.ofNat 32 (2048 * h.val + l.val) then x (ix3 b k ⟨2048 * h.val + l.val, by omega⟩) else 0

/-- The same over a natural block number, zero past the last block. -/
def blockSumN (x : FVec Ideal S16x17x262144 .f32) (p : IVec S16x30x17 32) (b : Fin 16) (n : Fin 30) (k : Fin 17) (h : ℕ) : EReal :=
  if hh : h < 128 then blockSum x p b n k ⟨h, hh⟩ else 0

/-- The partial sum over blocks 0 … j. -/
def part (x : FVec Ideal S16x17x262144 .f32) (p : IVec S16x30x17 32) (b : Fin 16) (n : Fin 30) (k : Fin 17) (j : ℕ) : EReal :=
  ∑ h ∈ Finset.range (j + 1), blockSumN x p b n k h

theorem part_zero (x : FVec Ideal S16x17x262144 .f32) (p : IVec S16x30x17 32) (b : Fin 16) (n : Fin 30) (k : Fin 17) :
    part x p b n k 0 = blockSumN x p b n k 0 := Finset.sum_range_one _

theorem part_succ (x : FVec Ideal S16x17x262144 .f32) (p : IVec S16x30x17 32) (b : Fin 16) (n : Fin 30) (k : Fin 17) (j : ℕ) :
    part x p b n k (j + 1) = part x p b n k j + blockSumN x p b n k (j + 1) := Finset.sum_range_succ _ _

/-- All 128 blocks: the whole sum. -/
theorem part_last (x : FVec Ideal S16x17x262144 .f32) (p : IVec S16x30x17 32) (b : Fin 16) (n : Fin 30) (k : Fin 17) :
    part x p b n k 127 = Cert.Spec.gsum x p (ix3 b n k) := by
  unfold part
  rw [← Fin.sum_univ_eq_sum_range (blockSumN x p b n k) 128]
  refine Finset.sum_congr rfl fun h _ => ?_
  unfold blockSumN
  rw [dif_pos h.isLt]
  rfl

/-- What point t adds at (n, k) is block t % 128's share of row t / 128. -/
theorem step_sum (c : Dev nD) (t : Fin cfg0.N) (b : Fin 16) (hb : b.val = t.val / 128) (n : Fin 30) (k : Fin 17) :
    (∑ l : Fin 2048, if pblk m c t (ix3 (0 : Fin 1) n k) = BitVec.ofNat 32 (2048 * ((grid0.coords t) 1).val + l.val)
        then xblk m c t (ix3 (0 : Fin 1) k l) else 0)
      = blockSumN (xarr m c) (parr m c) b n k (t.val % 128) := by
  have hh : t.val % 128 < 128 := Nat.mod_lt _ (by decide)
  unfold blockSumN
  rw [dif_pos hh]
  unfold blockSum
  refine Finset.sum_congr rfl fun l _ => ?_
  rw [pblk_apply m c t n k b hb, coords1, xblk_apply m c t k l b hb ⟨2048 * (t.val % 128) + l.val, by omega⟩ rfl]

/-! ## The scratch after each point -/

/-- At a row's first point the scratch holds block 0's share. -/
theorem scratch_first (c : Dev nD) (t : Fin cfg0.N) (h0 : t.val % 128 = 0) (b : Fin 16) (hb : b.val = t.val / 128) (n : Fin 30) (k : Fin 17) :
    (outsAt0 m c t.val t.isLt).2 (ix2 n k) = part (xarr m c) (parr m c) b n k (t.val % 128) := by
  have h1 : ¬t.val % 128 = 127 := by omega
  rw [outsAt0_A m c t h0 h1]
  dsimp only
  refine (congrFun (scratch_A (F := Ideal) c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)) (ix2 n k)).trans ?_
  refine (pay2_apply (grid0.coords t) (xblk m c t) (pblk m c t) k0_pay1 n k).trans ?_
  rw [pay1_apply, zero_add, step_sum m c t b hb n k, h0]
  exact (part_zero _ _ b n k).symm

/-- At a later point of a row it holds one more block's share than after the point before. -/
theorem scratch_next (c : Dev nD) (t : Fin cfg0.N) (h0 : ¬t.val % 128 = 0) (b : Fin 16) (hb : b.val = t.val / 128)
    (hlt : t.val - 1 < cfg0.N)
    (prev : ∀ (n : Fin 30) (k : Fin 17), (outsAt0 m c (t.val - 1) hlt).2 (ix2 n k) = part (xarr m c) (parr m c) b n k (t.val % 128 - 1))
    (n : Fin 30) (k : Fin 17) :
    (outsAt0 m c t.val t.isLt).2 (ix2 n k) = part (xarr m c) (parr m c) b n k (t.val % 128) := by
  obtain ⟨j, hj⟩ : ∃ j, t.val % 128 = j + 1 := ⟨t.val % 128 - 1, by omega⟩
  by_cases h1 : t.val % 128 = 127
  · rw [outsAt0_C m c t h0 h1]
    dsimp only
    refine (congrFun (scratch_C (F := Ideal) c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2) (ix2 n k)).trans ?_
    refine (pay2_apply (grid0.coords t) (xblk m c t) (pblk m c t) _ n k).trans ?_
    rw [prev n k, step_sum m c t b hb n k, hj, Nat.add_sub_cancel]
    exact (part_succ _ _ b n k j).symm
  · rw [outsAt0_B m c t h0 h1]
    dsimp only
    refine (congrFun (scratch_B (F := Ideal) c (grid0.coords t) (ms0_0 t) (hs0_0 t) (ms0_1 t) (hs0_1 t) (ms0_2 t) (hs0_2 t) scM0_0
      (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2) (ix2 n k)).trans ?_
    refine (pay2_apply (grid0.coords t) (xblk m c t) (pblk m c t) _ n k).trans ?_
    rw [prev n k, step_sum m c t b hb n k, hj, Nat.add_sub_cancel]
    exact (part_succ _ _ b n k j).symm

/-- After point t the scratch holds, at (n, k), the shares of blocks 0 … t % 128 of row t / 128: by induction on the point. -/
theorem scratch_eq (c : Dev nD) : ∀ (t : ℕ) (ht : t < cfg0.N) (b : Fin 16) (hb : b.val = t / 128) (n : Fin 30) (k : Fin 17),
    (outsAt0 m c t ht).2 (ix2 n k) = part (xarr m c) (parr m c) b n k (t % 128) := by
  intro t
  induction t with
  | zero => intro ht b hb n k; exact scratch_first m c ⟨0, ht⟩ rfl b hb n k
  | succ t ih =>
    intro ht b hb n k
    by_cases h0 : (t + 1) % 128 = 0
    · exact scratch_first m c ⟨t + 1, ht⟩ h0 b hb n k
    · refine scratch_next m c ⟨t + 1, ht⟩ h0 b hb (Nat.lt_of_succ_lt ht) (fun n' k' => ?_) n k
      have e := ih (Nat.lt_of_succ_lt ht) b (by omega) n' k'
      have hm : t % 128 = (t + 1) % 128 - 1 := by omega
      rw [hm] at e
      exact e

/-! ## What is written back, and the array after the region -/

/-- At a row's last point the output's staging buffer holds, at (0, n, k), the whole sum of that row at (n, k). -/
theorem out_last (c : Dev nD) (t : Fin cfg0.N) (h1 : t.val % 128 = 127) (b : Fin 16) (hb : b.val = t.val / 128) (n : Fin 30) (k : Fin 17) :
    (outsAt0 m c t.val t.isLt).1 (ix3 (0 : Fin 1) n k) = Cert.Spec.gsum (xarr m c) (parr m c) (ix3 b n k) := by
  have h0 : ¬t.val % 128 = 0 := by omega
  have hlt : t.val - 1 < cfg0.N := Nat.lt_of_le_of_lt (Nat.sub_le _ _) t.isLt
  rw [outsAt0_C m c t h0 h1]
  dsimp only
  refine (congrFun (out_C (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) hlt).2) (ix3 (0 : Fin 1) n k)).trans ?_
  refine (pay3_apply _ n k).trans ?_
  refine (pay2_apply (grid0.coords t) (xblk m c t) (pblk m c t) _ n k).trans ?_
  rw [scratch_eq m c (t.val - 1) hlt b (by omega) n k, step_sum m c t b hb n k,
    show (t.val - 1) % 128 = 126 from by omega, h1]
  exact (part_succ _ _ b n k 126).symm.trans (part_last _ _ b n k)

/-- Every index of a [1, 30, 17] block is (0, n, k). -/
theorem eq_ix3_unit (y : S1x30x17.Idx) : y = ix3 (0 : Fin 1) (y 1) (y 2) := by
  funext a
  match a with
  | ⟨0, _⟩ => exact Fin.ext (by have h : (y 0).val < 1 := (y 0).isLt; show (y 0).val = 0; omega)
  | ⟨1, _⟩ => rfl
  | ⟨2, _⟩ => rfl

/-- The output's block at point t, read out of an array, is row t / 128 of the array. -/
theorem oblk_apply (c : Dev nD) (t : Fin cfg0.N) (G : FVec Ideal S16x30x17 .f32) (y : S1x30x17.Idx) (b : Fin 16) (hb : b.val = t.val / 128) :
    (((cfg0.win 2).blk t).view.read (Elt Ideal) G : FVec Ideal S1x30x17 .f32) y = G (ix3 b (y 1) (y 2)) := by
  rw [View.read_apply]
  show G _ = G _
  congr 1
  funext a
  apply Fin.ext
  match a with
  | ⟨0, _⟩ =>
    have h : (y 0).val < 1 := (y 0).isLt
    show win0_2.index t 0 * 1 + 1 * (y 0).val = b.val
    rw [idx2_0, hb]; omega
  | ⟨1, _⟩ => show win0_2.index t 1 * 30 + 1 * (y 1).val = (y 1).val; rw [idx2_1]; omega
  | ⟨2, _⟩ => show win0_2.index t 2 * 17 + 1 * (y 2).val = (y 2).val; rw [idx2_2]; omega

/-- What a write-back writes is the block of the sum's array. -/
theorem flushed_eq (c : Dev nD) (t : Fin cfg0.N) (hf : (cfg0.win 2).flush t = true) :
    (dats m 0 c).flushed 2 t = ((cfg0.win 2).blk t).view.read (Elt Ideal) (Cert.Spec.gsum (xarr m c) (parr m c)) := by
  have h1 : t.val % 128 = 127 := (flush0_2 t).mp hf
  have hb : ((⟨t.val / 128, by have := lt2048 t; omega⟩ : Fin 16)).val = t.val / 128 := rfl
  show (cfg0.win 2).cut (grid0.coords t) ((dats m 0 c).after 2 t) = _
  rw [after0_2]
  funext y
  show (outsAt0 m c t.val t.isLt).1 y = _
  refine Eq.trans ?_ (oblk_apply c t (Cert.Spec.gsum (xarr m c) (parr m c)) y _ hb).symm
  exact (congrArg (outsAt0 m c t.val t.isLt).1 (eq_ix3_unit y)).trans (out_last m c t h1 _ hb (y 1) (y 2))

/-- The blocks written back, one per row at the row's last point, cover the output array. -/
theorem cover2 (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 16 := (i 0).isLt
  have h1 : (i 1 : Nat) < 30 := (i 1).isLt
  have h2 : (i 2 : Nat) < 17 := (i 2).isLt
  have hN : 128 * (i 0 : Nat) + 127 < cfg0.N := by rw [N2048]; omega
  refine ⟨⟨128 * (i 0 : Nat) + 127, hN⟩, (flush0_2 _).mpr (by show (128 * (i 0 : Nat) + 127) % 128 = 127; omega), ?_⟩
  show i ∈ ((View.whole main_v1).slice (win0_2.rect ⟨128 * (i 0 : Nat) + 127, hN⟩)).set
  rw [View.set_slice_whole, Rect.mem_set_unit]
  intro a
  match a with
  | ⟨0, _⟩ =>
    show win0_2.index ⟨128 * (i 0 : Nat) + 127, hN⟩ 0 * 1 ≤ (i 0 : Nat) ∧ (i 0 : Nat) < win0_2.index ⟨128 * (i 0 : Nat) + 127, hN⟩ 0 * 1 + 1
    rw [idx2_0]; show (128 * (i 0 : Nat) + 127) / 128 * 1 ≤ (i 0 : Nat) ∧ (i 0 : Nat) < (128 * (i 0 : Nat) + 127) / 128 * 1 + 1; omega
  | ⟨1, _⟩ =>
    show win0_2.index ⟨128 * (i 0 : Nat) + 127, hN⟩ 1 * 30 ≤ (i 1 : Nat) ∧ (i 1 : Nat) < win0_2.index ⟨128 * (i 0 : Nat) + 127, hN⟩ 1 * 30 + 30
    rw [idx2_1]; omega
  | ⟨2, _⟩ =>
    show win0_2.index ⟨128 * (i 0 : Nat) + 127, hN⟩ 2 * 17 ≤ (i 2 : Nat) ∧ (i 2 : Nat) < win0_2.index ⟨128 * (i 0 : Nat) + 127, hN⟩ 2 * 17 + 17
    rw [idx2_2]; omega

/-- After the region the output array is the sum's array of the region-entry contents of the tags and the positions. -/
theorem final2 (m : (ℓ : Loc nD τ sig) → Buf (Elt Ideal) ℓ) (c : Dev nD) :
    (Fr.dats (F := Ideal) m 0 c).arrAt 2 cfg0.N = Cert.Spec.gsum (Fr.V m c main_v0) (Fr.V m c main_arg1) :=
  (dats m 0 c).arrAt_eq_of_cover 2 (Cert.Spec.gsum (xarr m c) (parr m c)) (flushed_eq m c) (cover2 c)

end Cert.KernelIdeal.Val

end
-- ==== Proof.KITailDefs.lean ====
/-
  The host computation that follows the gather, one array at a time.

  After the region the program computes the pull and push losses from two arrays only: the gathered tags
  `G (b, n, k)` (the kernel's output) and the visibility words `a2 (b, n, k)`. Each definition below is one host
  operation's array as a function of those two, in the program's order: per instance the number of visible keypoints
  `cnt`, whether any is visible (`valid`), `max(cnt, 1)`; the mean tag of the visible keypoints; the visible keypoints'
  mean squared distance to it (`pull_per`); per image the number of valid instances `Nv`, the pull term
  `(∑ valid pull_per) / (Nv + ε)` and the push term `(∑ over pairs of valid instances of exp(-(mean_j - mean_i)²)) /
  ((Nv - 1) Nv + ε)` where `Nv > 1`; and the two sums over the images, the second halved.
-/
import proofs.«420666_j78812649882012_1_alg».proof.KernelIdeal
import proofs.«420666_j78812649882012_1_alg».proof.Proof.Gen.KernelIdeal

noncomputable section

namespace Cert.KernelIdeal.Tail

open Cert.KernelIdeal Cert.KernelIdeal.Gen Idealize.ShloMosaic

variable {F : FTy → Type} [FloatOps F]

/-- the visibility words as floats. -/
def t2 (a2 : (⟨S16x30x17, .i32⟩ : BufTy).Contents (Elt F)) : (⟨S16x30x17, .f32⟩ : BufTy).Contents (Elt F) :=
  sitofp (F := F) .f32 a2

/-- cnt: visible keypoints per instance. -/
def t3 (a2 : (⟨S16x30x17, .i32⟩ : BufTy).Contents (Elt F)) : (⟨S16x30, .f32⟩ : BufTy).Contents (Elt F) :=
  Host.reduceAdd (t2 (F := F) a2) (constant S_ .f32 0x00000000#32) reducesTo_S16x30x17_S16x30_d2 h_S_

/-- zeros. -/
def t4 : (⟨S16x30, .f32⟩ : BufTy).Contents (Elt F) :=
  broadcastInDim S16x30 ![] bcast_S_S16x30 (constant S_ .f32 0x00000000#32)

/-- valid: cnt > 0. -/
def t5 (a2 : (⟨S16x30x17, .i32⟩ : BufTy).Contents (Elt F)) : (⟨S16x30, .i1⟩ : BufTy).Contents (Elt F) :=
  cmpf (F := F) .ogt (t3 (F := F) a2) (t4 (F := F))

/-- ones. -/
def t6 : (⟨S16x30, .f32⟩ : BufTy).Contents (Elt F) :=
  broadcastInDim S16x30 ![] bcast_S_S16x30 (constant S_ .f32 0x3F800000#32)

/-- safe_cnt: max(cnt, 1). -/
def t7 (a2 : (⟨S16x30x17, .i32⟩ : BufTy).Contents (Elt F)) : (⟨S16x30, .f32⟩ : BufTy).Contents (Elt F) :=
  maximumf (t3 (F := F) a2) (t6 (F := F))

/-- gathered tag times visibility. -/
def t8 (G : (⟨S16x30x17, .f32⟩ : BufTy).Contents (Elt F)) (a2 : (⟨S16x30x17, .i32⟩ : BufTy).Contents (Elt F)) : (⟨S16x30x17, .f32⟩ : BufTy).Contents (Elt F) :=
  mulf G (t2 (F := F) a2)

/-- sum of visible tags. -/
def t9 (G : (⟨S16x30x17, .f32⟩ : BufTy).Contents (Elt F)) (a2 : (⟨S16x30x17, .i32⟩ : BufTy).Contents (Elt F)) : (⟨S16x30, .f32⟩ : BufTy).Contents (Elt F) :=
  Host.reduceAdd (t8 (F := F) G a2) (constant S_ .f32 0x00000000#32) reducesTo_S16x30x17_S16x30_d2 h_S_

/-- mean_tag. -/
def t10 (G : (⟨S16x30x17, .f32⟩ : BufTy).Contents (Elt F)) (a2 : (⟨S16x30x17, .i32⟩ : BufTy).Contents (Elt F)) : (⟨S16x30, .f32⟩ : BufTy).Contents (Elt F) :=
  Host.divf (t9 (F := F) G a2) (t7 (F := F) a2)

/-- mean_tag with a keypoint axis. -/
def t11 (G : (⟨S16x30x17, .f32⟩ : BufTy).Contents (Elt F)) (a2 : (⟨S16x30x17, .i32⟩ : BufTy).Contents (Elt F)) : (⟨S16x30x1, .f32⟩ : BufTy).Contents (Elt F) :=
  broadcastInDim S16x30x1 ![0, 1] bcast_S16x30_S16x30x1_0_1 (t10 (F := F) G a2)

/-- mean_tag over the keypoints. -/
def t12 (G : (⟨S16x30x17, .f32⟩ : BufTy).Contents (Elt F)) (a2 : (⟨S16x30x17, .i32⟩ : BufTy).Contents (Elt F)) : (⟨S16x30x17, .f32⟩ : BufTy).Contents (Elt F) :=
  broadcastInDim S16x30x17 ![0, 1, 2] bcast_S16x30x1_S16x30x17_0_1_2 (t11 (F := F) G a2)

/-- tag minus its instance's mean. -/
def t13 (G : (⟨S16x30x17, .f32⟩ : BufTy).Contents (Elt F)) (a2 : (⟨S16x30x17, .i32⟩ : BufTy).Contents (Elt F)) : (⟨S16x30x17, .f32⟩ : BufTy).Contents (Elt F) :=
  subf G (t12 (F := F) G a2)

/-- squared. -/
def t14 (G : (⟨S16x30x17, .f32⟩ : BufTy).Contents (Elt F)) (a2 : (⟨S16x30x17, .i32⟩ : BufTy).Contents (Elt F)) : (⟨S16x30x17, .f32⟩ : BufTy).Contents (Elt F) :=
  mulf (t13 (F := F) G a2) (t13 (F := F) G a2)

/-- times visibility. -/
def t15 (G : (⟨S16x30x17, .f32⟩ : BufTy).Contents (Elt F)) (a2 : (⟨S16x30x17, .i32⟩ : BufTy).Contents (Elt F)) : (⟨S16x30x17, .f32⟩ : BufTy).Contents (Elt F) :=
  mulf (t14 (F := F) G a2) (t2 (F := F) a2)

/-- summed over the keypoints. -/
def t16 (G : (⟨S16x30x17, .f32⟩ : BufTy).Contents (Elt F)) (a2 : (⟨S16x30x17, .i32⟩ : BufTy).Contents (Elt F)) : (⟨S16x30, .f32⟩ : BufTy).Contents (Elt F) :=
  Host.reduceAdd (t15 (F := F) G a2) (constant S_ .f32 0x00000000#32) reducesTo_S16x30x17_S16x30_d2 h_S_

/-- pull_per. -/
def t17 (G : (⟨S16x30x17, .f32⟩ : BufTy).Contents (Elt F)) (a2 : (⟨S16x30x17, .i32⟩ : BufTy).Contents (Elt F)) : (⟨S16x30, .f32⟩ : BufTy).Contents (Elt F) :=
  Host.divf (t16 (F := F) G a2) (t7 (F := F) a2)

/-- valid as a float. -/
def t18 (a2 : (⟨S16x30x17, .i32⟩ : BufTy).Contents (Elt F)) : (⟨S16x30, .f32⟩ : BufTy).Contents (Elt F) :=
  uitofp (F := F) .f32 (t5 (F := F) a2)

/-- Nv: valid instances per image. -/
def t19 (a2 : (⟨S16x30x17, .i32⟩ : BufTy).Contents (Elt F)) : (⟨S16, .f32⟩ : BufTy).Contents (Elt F) :=
  Host.reduceAdd (t18 (F := F) a2) (constant S_ .f32 0x00000000#32) reducesTo_S16x30_S16_d1 h_S_

/-- pull_per where valid, else zero. -/
def t20 (G : (⟨S16x30x17, .f32⟩ : BufTy).Contents (Elt F)) (a2 : (⟨S16x30x17, .i32⟩ : BufTy).Contents (Elt F)) : (⟨S16x30, .f32⟩ : BufTy).Contents (Elt F) :=
  select (t5 (F := F) a2) (t17 (F := F) G a2) (broadcastInDim S16x30 ![] bcast_S_S16x30 (id (constant S_ .f32 0x00000000#32)))

/-- summed over the instances. -/
def t21 (G : (⟨S16x30x17, .f32⟩ : BufTy).Contents (Elt F)) (a2 : (⟨S16x30x17, .i32⟩ : BufTy).Contents (Elt F)) : (⟨S16, .f32⟩ : BufTy).Contents (Elt F) :=
  Host.reduceAdd (t20 (F := F) G a2) (constant S_ .f32 0x00000000#32) reducesTo_S16x30_S16_d1 h_S_

/-- eps. -/
def t22 : (⟨S16, .f32⟩ : BufTy).Contents (Elt F) :=
  broadcastInDim S16 ![] bcast_S_S16 (constant S_ .f32 0x358637BD#32)

/-- Nv + eps. -/
def t23 (a2 : (⟨S16x30x17, .i32⟩ : BufTy).Contents (Elt F)) : (⟨S16, .f32⟩ : BufTy).Contents (Elt F) :=
  addf (t19 (F := F) a2) (t22 (F := F))

/-- pull per image. -/
def t24 (G : (⟨S16x30x17, .f32⟩ : BufTy).Contents (Elt F)) (a2 : (⟨S16x30x17, .i32⟩ : BufTy).Contents (Elt F)) : (⟨S16, .f32⟩ : BufTy).Contents (Elt F) :=
  Host.divf (t21 (F := F) G a2) (t23 (F := F) a2)

/-- mean_tag as a row. -/
def t25 (G : (⟨S16x30x17, .f32⟩ : BufTy).Contents (Elt F)) (a2 : (⟨S16x30x17, .i32⟩ : BufTy).Contents (Elt F)) : (⟨S16x1x30, .f32⟩ : BufTy).Contents (Elt F) :=
  broadcastInDim S16x1x30 ![0, 2] bcast_S16x30_S16x1x30_0_2 (t10 (F := F) G a2)

/-- mean_tag as a column. -/
def t26 (G : (⟨S16x30x17, .f32⟩ : BufTy).Contents (Elt F)) (a2 : (⟨S16x30x17, .i32⟩ : BufTy).Contents (Elt F)) : (⟨S16x30x1, .f32⟩ : BufTy).Contents (Elt F) :=
  broadcastInDim S16x30x1 ![0, 1] bcast_S16x30_S16x30x1_0_1 (t10 (F := F) G a2)

/-- mean[j] at (i, j). -/
def t27 (G : (⟨S16x30x17, .f32⟩ : BufTy).Contents (Elt F)) (a2 : (⟨S16x30x17, .i32⟩ : BufTy).Contents (Elt F)) : (⟨S16x30x30, .f32⟩ : BufTy).Contents (Elt F) :=
  broadcastInDim S16x30x30 ![0, 1, 2] bcast_S16x1x30_S16x30x30_0_1_2 (t25 (F := F) G a2)

/-- mean[i] at (i, j). -/
def t28 (G : (⟨S16x30x17, .f32⟩ : BufTy).Contents (Elt F)) (a2 : (⟨S16x30x17, .i32⟩ : BufTy).Contents (Elt F)) : (⟨S16x30x30, .f32⟩ : BufTy).Contents (Elt F) :=
  broadcastInDim S16x30x30 ![0, 1, 2] bcast_S16x30x1_S16x30x30_0_1_2 (t26 (F := F) G a2)

/-- diff: mean[j] - mean[i]. -/
def t29 (G : (⟨S16x30x17, .f32⟩ : BufTy).Contents (Elt F)) (a2 : (⟨S16x30x17, .i32⟩ : BufTy).Contents (Elt F)) : (⟨S16x30x30, .f32⟩ : BufTy).Contents (Elt F) :=
  subf (t27 (F := F) G a2) (t28 (F := F) G a2)

/-- valid as a column. -/
def t30 (a2 : (⟨S16x30x17, .i32⟩ : BufTy).Contents (Elt F)) : (⟨S16x30x1, .i1⟩ : BufTy).Contents (Elt F) :=
  broadcastInDim S16x30x1 ![0, 1] bcast_S16x30_S16x30x1_0_1 (t5 (F := F) a2)

/-- valid as a row. -/
def t31 (a2 : (⟨S16x30x17, .i32⟩ : BufTy).Contents (Elt F)) : (⟨S16x1x30, .i1⟩ : BufTy).Contents (Elt F) :=
  broadcastInDim S16x1x30 ![0, 2] bcast_S16x30_S16x1x30_0_2 (t5 (F := F) a2)

/-- valid[i] at (i, j). -/
def t32 (a2 : (⟨S16x30x17, .i32⟩ : BufTy).Contents (Elt F)) : (⟨S16x30x30, .i1⟩ : BufTy).Contents (Elt F) :=
  broadcastInDim S16x30x30 ![0, 1, 2] bcast_S16x30x1_S16x30x30_0_1_2 (t30 (F := F) a2)

/-- valid[j] at (i, j). -/
def t33 (a2 : (⟨S16x30x17, .i32⟩ : BufTy).Contents (Elt F)) : (⟨S16x30x30, .i1⟩ : BufTy).Contents (Elt F) :=
  broadcastInDim S16x30x30 ![0, 1, 2] bcast_S16x1x30_S16x30x30_0_1_2 (t31 (F := F) a2)

/-- pair: both valid. -/
def t34 (a2 : (⟨S16x30x17, .i32⟩ : BufTy).Contents (Elt F)) : (⟨S16x30x30, .i1⟩ : BufTy).Contents (Elt F) :=
  andi (t32 (F := F) a2) (t33 (F := F) a2)

/-- pair as a float. -/
def t35 (a2 : (⟨S16x30x17, .i32⟩ : BufTy).Contents (Elt F)) : (⟨S16x30x30, .f32⟩ : BufTy).Contents (Elt F) :=
  uitofp (F := F) .f32 (t34 (F := F) a2)

/-- diff squared. -/
def t36 (G : (⟨S16x30x17, .f32⟩ : BufTy).Contents (Elt F)) (a2 : (⟨S16x30x17, .i32⟩ : BufTy).Contents (Elt F)) : (⟨S16x30x30, .f32⟩ : BufTy).Contents (Elt F) :=
  mulf (t29 (F := F) G a2) (t29 (F := F) G a2)

/-- negated. -/
def t37 (G : (⟨S16x30x17, .f32⟩ : BufTy).Contents (Elt F)) (a2 : (⟨S16x30x17, .i32⟩ : BufTy).Contents (Elt F)) : (⟨S16x30x30, .f32⟩ : BufTy).Contents (Elt F) :=
  Host.negf (t36 (F := F) G a2)

/-- exp(-diff²). -/
def t38 (G : (⟨S16x30x17, .f32⟩ : BufTy).Contents (Elt F)) (a2 : (⟨S16x30x17, .i32⟩ : BufTy).Contents (Elt F)) : (⟨S16x30x30, .f32⟩ : BufTy).Contents (Elt F) :=
  Host.exp (t37 (F := F) G a2)

/-- times pair. -/
def t39 (G : (⟨S16x30x17, .f32⟩ : BufTy).Contents (Elt F)) (a2 : (⟨S16x30x17, .i32⟩ : BufTy).Contents (Elt F)) : (⟨S16x30x30, .f32⟩ : BufTy).Contents (Elt F) :=
  mulf (t38 (F := F) G a2) (t35 (F := F) a2)

/-- push_sum: over all pairs. -/
def t40 (G : (⟨S16x30x17, .f32⟩ : BufTy).Contents (Elt F)) (a2 : (⟨S16x30x17, .i32⟩ : BufTy).Contents (Elt F)) : (⟨S16, .f32⟩ : BufTy).Contents (Elt F) :=
  Host.reduceAdd (t39 (F := F) G a2) (constant S_ .f32 0x00000000#32) reducesTo_S16x30x30_S16_d1_2 h_S_

/-- ones. -/
def t41 : (⟨S16, .f32⟩ : BufTy).Contents (Elt F) :=
  broadcastInDim S16 ![] bcast_S_S16 (constant S_ .f32 0x3F800000#32)

/-- Nv > 1. -/
def t42 (a2 : (⟨S16x30x17, .i32⟩ : BufTy).Contents (Elt F)) : (⟨S16, .i1⟩ : BufTy).Contents (Elt F) :=
  cmpf (F := F) .ogt (t19 (F := F) a2) (t41 (F := F))

/-- Nv - 1. -/
def t44 (a2 : (⟨S16x30x17, .i32⟩ : BufTy).Contents (Elt F)) : (⟨S16, .f32⟩ : BufTy).Contents (Elt F) :=
  subf (t19 (F := F) a2) (t41 (F := F))

/-- (Nv - 1) Nv. -/
def t45 (a2 : (⟨S16x30x17, .i32⟩ : BufTy).Contents (Elt F)) : (⟨S16, .f32⟩ : BufTy).Contents (Elt F) :=
  mulf (t44 (F := F) a2) (t19 (F := F) a2)

/-- (Nv - 1) Nv + eps. -/
def t47 (a2 : (⟨S16x30x17, .i32⟩ : BufTy).Contents (Elt F)) : (⟨S16, .f32⟩ : BufTy).Contents (Elt F) :=
  addf (t45 (F := F) a2) (t22 (F := F))

/-- push_sum over it. -/
def t48 (G : (⟨S16x30x17, .f32⟩ : BufTy).Contents (Elt F)) (a2 : (⟨S16x30x17, .i32⟩ : BufTy).Contents (Elt F)) : (⟨S16, .f32⟩ : BufTy).Contents (Elt F) :=
  Host.divf (t40 (F := F) G a2) (t47 (F := F) a2)

/-- push per image: that where Nv > 1, else zero. -/
def t49 (G : (⟨S16x30x17, .f32⟩ : BufTy).Contents (Elt F)) (a2 : (⟨S16x30x17, .i32⟩ : BufTy).Contents (Elt F)) : (⟨S16, .f32⟩ : BufTy).Contents (Elt F) :=
  select (t42 (F := F) a2) (t48 (F := F) G a2) (broadcastInDim S16 ![] bcast_S_S16 (id (constant S_ .f32 0x00000000#32)))

/-- pull summed over the images. -/
def t50 (G : (⟨S16x30x17, .f32⟩ : BufTy).Contents (Elt F)) (a2 : (⟨S16x30x17, .i32⟩ : BufTy).Contents (Elt F)) : (⟨S_, .f32⟩ : BufTy).Contents (Elt F) :=
  Host.reduceAdd (t24 (F := F) G a2) (constant S_ .f32 0x00000000#32) reducesTo_S16_S_d0 h_S_

/-- pull_loss (weight 1). -/
def t51 (G : (⟨S16x30x17, .f32⟩ : BufTy).Contents (Elt F)) (a2 : (⟨S16x30x17, .i32⟩ : BufTy).Contents (Elt F)) : (⟨S_, .f32⟩ : BufTy).Contents (Elt F) :=
  mulf (t50 (F := F) G a2) (constant S_ .f32 0x3F800000#32)

/-- push summed over the images. -/
def t52 (G : (⟨S16x30x17, .f32⟩ : BufTy).Contents (Elt F)) (a2 : (⟨S16x30x17, .i32⟩ : BufTy).Contents (Elt F)) : (⟨S_, .f32⟩ : BufTy).Contents (Elt F) :=
  Host.reduceAdd (t49 (F := F) G a2) (constant S_ .f32 0x00000000#32) reducesTo_S16_S_d0 h_S_

/-- times the weight 1. -/
def t53 (G : (⟨S16x30x17, .f32⟩ : BufTy).Contents (Elt F)) (a2 : (⟨S16x30x17, .i32⟩ : BufTy).Contents (Elt F)) : (⟨S_, .f32⟩ : BufTy).Contents (Elt F) :=
  mulf (t52 (F := F) G a2) (constant S_ .f32 0x3F800000#32)

/-- push_loss (factor 1/2). -/
def t54 (G : (⟨S16x30x17, .f32⟩ : BufTy).Contents (Elt F)) (a2 : (⟨S16x30x17, .i32⟩ : BufTy).Contents (Elt F)) : (⟨S_, .f32⟩ : BufTy).Contents (Elt F) :=
  mulf (t53 (F := F) G a2) (constant S_ .f32 0x3F000000#32)

end Cert.KernelIdeal.Tail

end
-- ==== Proof.KITailRun.lean ====
/-
  The host lines after the region, run: whatever the buffers hold when the region is left, the two result buffers end at
  the pull and push terms of what `main_v1` (the gathered tags) and `main_arg2` (the visibility words) held then. None of
  the lines writes either of those two buffers, so each line's result is its operation applied to earlier results.
-/
import proofs.«420666_j78812649882012_1_alg».proof.Proof.Gen.KernelIdeal.Launch
import proofs.«420666_j78812649882012_1_alg».proof.Proof.KITailDefs
import Idealize.ShloMosaic.Lib.StableHlo.Run

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The pull loss's buffer after the lines. -/
theorem after_v51 (W : Valuation τ sig (Elt F)) :
    StableHlo.after (List.flatten [hostOps1, hostOps1_1, hostOps1_2, hostOps1_3, hostOps1_4]) W (Proc.devRef .tc main_v51)
      = t51 (F := F) (W (Proc.devRef .tc main_v1)) (W (Proc.devRef .tc main_arg2)) := by
  simp only [hostOps1, hostOps1_1, hostOps1_2, hostOps1_3, hostOps1_4, List.flatten_cons, List.flatten_nil, List.append_nil,
    List.cons_append, List.nil_append]
  after_results_simp <;> (try simp only [TRef.ofBuf, TRef.toBuf, cast_eq]) <;> rfl

set_option maxRecDepth 8192 in
set_option maxHeartbeats 4000000 in
/-- The push loss's buffer after the lines. -/
theorem after_v54 (W : Valuation τ sig (Elt F)) :
    StableHlo.after (List.flatten [hostOps1, hostOps1_1, hostOps1_2, hostOps1_3, hostOps1_4]) W (Proc.devRef .tc main_v54)
      = t54 (F := F) (W (Proc.devRef .tc main_v1)) (W (Proc.devRef .tc main_arg2)) := by
  simp only [hostOps1, hostOps1_1, hostOps1_2, hostOps1_3, hostOps1_4, List.flatten_cons, List.flatten_nil, List.append_nil,
    List.cons_append, List.nil_append]
  after_results_simp <;> (try simp only [TRef.ofBuf, TRef.toBuf, cast_eq]) <;> rfl

end Cert.KernelIdeal.Tail

end
-- ==== Proof.KIEntry.lean ====
/-
  What the region finds in the flattened tag array: the one host line before the region reshapes the launched tags
  f32[16, 17, 512, 512] to f32[16, 17, 262144], so the array the first window stages is that reshape.
-/
import proofs.«420666_j78812649882012_1_alg».proof.Proof.KIRuns
import Idealize.ShloMosaic.Lib.StableHlo.Run

noncomputable section

namespace Cert.KernelIdeal.Fr

open Cert.KernelIdeal Cert.KernelIdeal.Gen Idealize.ShloMosaic Idealize.ShloMosaic.TcCoe Idealize.SL.Sem Idealize.ShloMosaic.StableHlo

variable {F : FTy → Type} [FloatOps F]

/-- The region finds `main_v0` at the reshape of the launched `main_arg0`. -/
theorem V_main_v0 (m : (ℓ : Loc nD τ sig) → Buf (Elt F) ℓ) (c : Dev nD) :
    (V m c main_v0 : S16x17x262144.Idx → Elt F .f32)
      = shapeCast S16x17x262144 (m ((c : Thread nD τ).loc main_arg0)) shapeCasts_S16x17x512x512_S16x17x262144 := by
  dsimp only [V, V0]
  simp only [hostOps0, List.flatten_cons, List.flatten_nil, List.append_nil]
  after_results
  rfl

end Cert.KernelIdeal.Fr

end
-- ==== Proof.KIResults.lean ====
/-
  The idealized kernel's run with its two results named.

  The frame run leaves every window's array at what the proof data compute and every other buffer as the host lines after
  the region leave it, from the contents at the region's exit. At the exit the output array `main_v1` holds the gathered
  tags — the block-by-block sum `Cert.Spec.gsum` of the reshaped launched tags and the launched position words — and
  `main_arg2` the launched visibility words; the lines after the region write neither, so the pull and push buffers end at
  the tail's terms `t51` and `t54` of those two arrays. The three argument arrays end as launched.
-/
import proofs.«420666_j78812649882012_1_alg».proof.Proof.KIFrame
import proofs.«420666_j78812649882012_1_alg».proof.Proof.KIValue
import proofs.«420666_j78812649882012_1_alg».proof.Proof.KITailRun
import proofs.«420666_j78812649882012_1_alg».proof.Proof.KIEntry

noncomputable section

namespace Cert.KernelIdeal.Res

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The gathered tags, as a function of the launched tag and position arrays. -/
def gathered (c : Dev nD) : S16x30x17.Idx → EReal :=
  Cert.Spec.gsum (shapeCast S16x17x262144 (m ((c : Thread nD τ).loc main_arg0)) shapeCasts_S16x17x512x512_S16x17x262144)
    (m ((c : Thread nD τ).loc main_arg1))

/-- At the region's exit the output array holds the gathered tags. -/
theorem exit_v1 (c : Dev nD) :
    Pipeline.withArrays spec0 c (Fr.V0 m c) (fun w => (Fr.dats m 0 c).arrAt w cfg0.N) (Proc.devRef .tc main_v1) = gathered m c := by
  refine (Pipeline.withArrays_arr spec0 launch0.win.arr_inj c (Fr.V0 m c) (fun w => (Fr.dats m 0 c).arrAt w cfg0.N) 2).trans ?_
  refine (Val.final2 m c).trans ?_
  unfold gathered
  rw [Fr.V_main_v0, Fr.V_main_arg1]

/-- At the region's exit the visibility words are as launched. -/
theorem exit_arg2 (c : Dev nD) :
    Pipeline.withArrays spec0 c (Fr.V0 m c) (fun w => (Fr.dats m 0 c).arrAt w cfg0.N) (Proc.devRef .tc main_arg2)
      = m ((c : Thread nD τ).loc main_arg2) :=
  (Pipeline.withArrays_of_ne spec0 c (Fr.V0 m c) _ main_arg2 (by exact (by decide : ∀ w, Pipeline.arrRef spec0 w ≠ main_arg2))).trans
    (Fr.V_main_arg2 m c)

/-- Every weakly fair execution of the idealized kernel's @main terminates with the pull loss at `t51` and the push loss at
    `t54` of the gathered tags and the launched visibility words, the arguments unchanged. -/
theorem run_results :
    θ_run (defs (F := Ideal)) (onTc (τ := τ) (main (F := Ideal))) ⟨m, fun _ => 0, ρ⟩ (fun r => ∀ c : Dev nD,
      r.2.mem ((c.tc : Thread nD τ).loc main_v51) = Tail.t51 (F := Ideal) (gathered m c) (m ((c.tc : Thread nD τ).loc main_arg2))
      ∧ r.2.mem ((c.tc : Thread nD τ).loc main_v54) = Tail.t54 (F := Ideal) (gathered m c) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_, ?_, ?_⟩) (Fr.run_main (F := Ideal) m ρ)
  · refine ((h c).2 main_v51 (Pipeline.mem_restRefs_of main_v51 (by decide) (by decide))).trans ?_
    unfold Pipeline.afterTail₀
    refine (Tail.after_v51 _).trans ?_
    rw [exit_v1, exit_arg2]
  · refine ((h c).2 main_v54 (Pipeline.mem_restRefs_of main_v54 (by decide) (by decide))).trans ?_
    unfold Pipeline.afterTail₀
    refine (Tail.after_v54 _).trans ?_
    rw [exit_v1, exit_arg2]
  · exact ((h c).2 main_arg0 (Pipeline.mem_restRefs_of main_arg0 (by decide) (by decide))).trans (Fr.W_main_arg0 m (Fr.dats m) c)
  · exact ((h c).1 1).trans (((Fr.dats m 0 c).arrAt_in 1 rfl _).trans ((Fr.A_eq m c 1).trans (Fr.V_main_arg1 m c)))
  · exact ((h c).2 main_arg2 (Pipeline.mem_restRefs_of main_arg2 (by decide) (by decide))).trans (Fr.W_main_arg2 m (Fr.dats m) c)

end Cert.KernelIdeal.Res

end
-- ==== Proof.RefSide.lean ====
/-
  The reference's side of the equivalence: its run read back as a term of the argument arrays, and that term read
  one operation at a time.
-/
import proofs.«420666_j78812649882012_1_alg».proof.Proof.RefRun
import proofs.«420666_j78812649882012_1_alg».proof.Proof.RefRead

noncomputable section

namespace Cert.ReferenceIdeal.RefSide

end Cert.ReferenceIdeal.RefSide

end
-- ==== Proof.PreDecode.lean ====
/-
  What the precondition says of the position words.

  The printed precondition is the conjunction of two `all`s: every tag is finite, and every position word `p` satisfies
  `0 ≤ p` and `p < 262144` as a signed word. Where it is all ones, the second `all` is one, so the conjunction of the two
  compares is one at every index, and a compare that is one says what it compares.
-/
import proofs.«420666_j78812649882012_1_alg».proof.Pre_finite_inputs
import Idealize.ShloMosaic.Lib.ReduceAll
import Idealize.ShloMosaic.Lib.Affine
import Idealize.ShloMosaic.Lib.IdealHost
import Idealize.ShloMosaic.Lib.ValueIdx

noncomputable section

namespace Cert.PreDecode

open Idealize.ShloMosaic Cert.Pre_finite_inputs

instance : Subsingleton S_.Idx := ⟨fun a b => funext fun d => d.elim0⟩

/-- Under the precondition every position word is a position of the 512 × 512 map. -/
theorem pos_in_range {F : FTy → Type} [FloatOps F] [Facts] (a0 : FVec F S16x17x512x512 .f32) (a1 a2 : IVec S16x30x17 32)
    (h : fn (F := F) a0 a1 a2 = fun _ => 1#1) (j : S16x30x17.Idx) :
    0 ≤ (a1 j).toInt ∧ (a1 j).toInt < 262144 := by
  have h0 := congrFun h ValueIdx.ix0
  dsimp only [fn] at h0
  have h9 := (IntOp.andi_eq_one.mp h0).2
  have h8 := Host.reduce_andi_all _ _ _ _ _ h9 j
  obtain ⟨hge, hlt⟩ := IntOp.andi_eq_one.mp h8
  have hge' := IntOp.cmpi_sge.mp hge
  have hlt' := IntOp.cmpi_slt.mp hlt
  rw [ValueIdx.broadcastInDim_scalar_apply] at hge' hlt'
  simp only [constantI] at hge' hlt'
  refine ⟨?_, ?_⟩
  · have : (0#32 : BitVec 32).toInt = 0 := by decide
    omega
  · have : (262144#32 : BitVec 32).toInt = 262144 := by decide
    omega

end Cert.PreDecode

end
-- ==== Proof.BridgeGather.lean ====
import proofs.«420666_j78812649882012_1_alg».proof.Proof.RefRead
import proofs.«420666_j78812649882012_1_alg».proof.Proof.GatherSpec
import Idealize.ShloMosaic.Lib.Pipeline.Value
import Idealize.ShloMosaic.Lib.StableHlo.Predicate
import Idealize.ShloMosaic.Lib.ValueIdx

noncomputable section

namespace Cert.Bridge.Gather

open Cert.ReferenceIdeal Cert.ReferenceIdeal.ReadP Idealize.ShloMosaic Idealize.ShloMosaic.ValueIdx

/-
  The reference's gather, read at one place.

  Stage %19 is the transpose of stage %18, a gather from the tag map reshaped to [16, 1, 17, 262144] with start indices
  [16, 30, 17, 2]: the pair at (b, n, k) is (the channel number k, the position word of (b, n, k)). The batch axis of
  the map is taken at b, the unit axis at 0, the channel axis at the first word and the position axis at the second,
  each read signed and clamped to the axis. The channel number is below 17 and, by hypothesis, the position word is a
  position of the map: nothing clamps, and the element read is the tag of channel k of batch b at that position. The
  kernel's double sum is worth the same tag, and the two reshapes of the map read it at the same row-major place.
-/

/-- The dimension numbers of stage %18. -/
abbrev gd := gather_S16x1x17x262144_S16x30x17x2_S16x1x30x17_1_23_0_0_23_3_1111

/-- The start-indices index at which result position `(b, 0, n, k)` reads component `c` of its start index is
    `(b, n, k, c)`: the result's batch axes 0, 2, 3 are the start indices' axes 0, 1, 2. -/
theorem siIdx_eq (b : Fin 16) (n : Fin 30) (k : Fin 17) (c : Fin 2) (hc : c.val < gd.startIndexMap.length) :
    gd.siIdx (ix4 b (0 : Fin 1) n k) ⟨c.val, hc⟩ = ix4 b n k c := by
  funext e
  refine Fin.ext ?_
  match e with
  | ⟨0, _⟩ => rfl
  | ⟨1, _⟩ => rfl
  | ⟨2, _⟩ => rfl
  | ⟨3, _⟩ => rfl

/-- The gather at `(b, 0, n, k)`: the operand at batch `b`, unit coordinate 0, the first start word clamped into the
    17 channels and the second clamped into the 262144 positions. -/
theorem gather_apply {α : Type} (x : S16x1x17x262144.Idx → α) (idx : IVec S16x30x17x2 32)
    (b : Fin 16) (n : Fin 30) (k : Fin 17) :
    Host.gather gd x idx (ix4 b (0 : Fin 1) n k)
      = x (ix4 b (0 : Fin 1) ⟨min (idx (ix4 b n k (0 : Fin 2))).toInt.toNat 16, by omega⟩
            ⟨min (idx (ix4 b n k (1 : Fin 2))).toInt.toNat 262143, by omega⟩) := by
  unfold Host.gather
  congr 1
  funext a
  refine Fin.ext ?_
  match a with
  | ⟨0, _⟩ =>
    -- the batching axis: no start, no offset, the result's own batch coordinate
    show gd.start (ix4 b (0 : Fin 1) n k) idx 0 + gd.batchCoord (ix4 b (0 : Fin 1) n k) 0
      + gd.offCoord (ix4 b (0 : Fin 1) n k) 0 = b.val
    rw [GatherDims.start_batching _ _ _ _ (by decide), GatherDims.offCoord_eq_zero _ _ _ (by decide),
      Nat.zero_add, Nat.add_zero]
    rfl
  | ⟨1, _⟩ => rfl
  | ⟨2, _⟩ =>
    -- a collapsed, start-indexed axis: the clamped first word
    show gd.start (ix4 b (0 : Fin 1) n k) idx 2 + gd.batchCoord (ix4 b (0 : Fin 1) n k) 2
      + gd.offCoord (ix4 b (0 : Fin 1) n k) 2 = min (idx (ix4 b n k (0 : Fin 2))).toInt.toNat 16
    rw [GatherDims.batchCoord_eq_zero _ _ _ (by decide), GatherDims.offCoord_eq_zero _ _ _ (by decide)]
    unfold GatherDims.start
    rw [dif_pos (by decide)]
    have h := siIdx_eq b n k (0 : Fin 2) (by decide)
    show min (idx (gd.siIdx (ix4 b (0 : Fin 1) n k) ⟨(0 : Fin 2).val, _⟩)).toInt.toNat 16 + 0 + 0 = _
    rw [h]
    rfl
  | ⟨3, _⟩ =>
    -- a collapsed, start-indexed axis: the clamped second word
    show gd.start (ix4 b (0 : Fin 1) n k) idx 3 + gd.batchCoord (ix4 b (0 : Fin 1) n k) 3
      + gd.offCoord (ix4 b (0 : Fin 1) n k) 3 = min (idx (ix4 b n k (1 : Fin 2))).toInt.toNat 262143
    rw [GatherDims.batchCoord_eq_zero _ _ _ (by decide), GatherDims.offCoord_eq_zero _ _ _ (by decide)]
    unfold GatherDims.start
    rw [dif_pos (by decide)]
    have h := siIdx_eq b n k (1 : Fin 2) (by decide)
    show min (idx (gd.siIdx (ix4 b (0 : Fin 1) n k) ⟨(1 : Fin 2).val, _⟩)).toInt.toNat 262143 + 0 + 0 = _
    rw [h]
    rfl

/-- A word that is not negative does not compare below zero. -/
theorem not_slt_zero {w : BitVec 32} (h : 0 ≤ w.toInt) : ¬ IntOp.cmpi .slt w 0#32 = 1 := by
  intro e
  have e' : BitVec.ofBool (w.slt 0#32) = 1#1 := e
  have hlt : w.slt 0#32 = true := (StableHlo.Predicate.ofBool_eq_one_iff _).mp e'
  have hz : (0#32 : BitVec 32).toInt = 0 := by decide
  simp only [BitVec.slt, decide_eq_true_eq] at hlt
  omega

/-- The negative-normalised channel iota is the channel number: it is never negative. -/
theorem v7_word (i : S1x17.Idx) : val_main_v7 (F := Ideal) i = BitVec.ofNat 32 (i 1).val := by
  have h1 : (i 1).val < 17 := (i 1).isLt
  have h2 : val_main_v2 (F := Ideal) i = BitVec.ofNat 32 (i 1).val :=
    (val_main_v2_apply i).trans (val_main_v1_apply _)
  have h3 : val_main_v3 (F := Ideal) i = 0#32 := (val_main_v3_apply i).trans (val_main_c_apply _)
  rw [val_main_v7_apply, val_main_v4_apply, h2, h3]
  unfold Scalar.select
  rw [if_neg (not_slt_zero (by rw [StableHlo.Predicate.toInt_ofNat_small _ (by omega)]; omega))]

/-- The first start word at `(b, n, k)` is the channel number `k`. -/
theorem v16_word (i : S16x30x17x1.Idx) : val_main_v16 (F := Ideal) i = BitVec.ofNat 32 (i 2).val :=
  (val_main_v16_apply i).trans ((val_main_v14_apply _).trans ((val_main_v13_apply _).trans (v7_word _)))

/-- The negative-normalised position word is the position word where that is not negative. -/
theorem v12_word (a1 : (⟨S16x30x17, .i32⟩ : BufTy).Contents (Elt Ideal)) (j : S16x30x17.Idx) (h : 0 ≤ (a1 j).toInt) :
    val_main_v12 (F := Ideal) a1 j = a1 j := by
  have h8 : val_main_v8 (F := Ideal) j = 0#32 := (val_main_v8_apply j).trans (val_main_c_1_apply _)
  rw [val_main_v12_apply, val_main_v9_apply, h8]
  unfold Scalar.select
  rw [if_neg (not_slt_zero h)]

/-- The joined start indices: component 0 is the channel stage. -/
theorem v17_chan (a1 : (⟨S16x30x17, .i32⟩ : BufTy).Contents (Elt Ideal)) (b : Fin 16) (n : Fin 30) (k : Fin 17) :
    val_main_v17 (F := Ideal) a1 (ix4 b n k (0 : Fin 2)) = val_main_v16 (F := Ideal) (ix4 b n k (0 : Fin 1)) := by
  unfold val_main_v17
  exact concatenate_pair_apply_left (t := S16x30x17x2) (s₁ := S16x30x17x1) (s₂ := S16x30x17x1) 3 _ _ _ (ix4 b n k (0 : Fin 2)) rfl
    (ix4 b n k (0 : Fin 1)) (fun c => match c with
      | ⟨0, _⟩ => rfl
      | ⟨1, _⟩ => rfl
      | ⟨2, _⟩ => rfl
      | ⟨3, _⟩ => rfl)

/-- The joined start indices: component 1 is the position stage. -/
theorem v17_pos (a1 : (⟨S16x30x17, .i32⟩ : BufTy).Contents (Elt Ideal)) (b : Fin 16) (n : Fin 30) (k : Fin 17) :
    val_main_v17 (F := Ideal) a1 (ix4 b n k (1 : Fin 2)) = val_main_v15 (F := Ideal) a1 (ix4 b n k (0 : Fin 1)) := by
  unfold val_main_v17
  exact concatenate_pair_apply_right (t := S16x30x17x2) (s₁ := S16x30x17x1) (s₂ := S16x30x17x1) 3 _ _ _ (ix4 b n k (1 : Fin 2)) rfl rfl
    (ix4 b n k (0 : Fin 1)) (fun c hc => match c, hc with
      | ⟨0, _⟩, _ => rfl
      | ⟨1, _⟩, _ => rfl
      | ⟨2, _⟩, _ => rfl
      | ⟨3, _⟩, h => absurd rfl h)
    rfl

/-- A channel number is not clamped by the 17 channels. -/
theorem chan_clamp (k : Fin 17) : min (BitVec.ofNat 32 k.val).toInt.toNat 16 = k.val := by
  have hk := k.isLt
  rw [StableHlo.Predicate.toInt_ofNat_small _ (by omega)]
  omega

/-- A position of the map is not clamped by its 262144 positions. -/
theorem pos_clamp {w : BitVec 32} (h : 0 ≤ w.toInt ∧ w.toInt < 262144) : min w.toInt.toNat 262143 = w.toNat := by
  have hq := Cert.Spec.toNat_lt_of_toInt h.1 h.2
  rw [StableHlo.Predicate.toInt_eq_toNat_of_lt (by omega)]
  omega

/-- Stage %19 at `(b, n, k, 0)` is the kernel's double sum at `(b, n, k)`: both are the tag of channel `k` of batch `b` at
    the position the word of `(b, n, k)` names, the first through the reshape to [16, 1, 17, 262144], the second through
    the reshape to [16, 17, 262144]; the two read the map at row-major place `(17 b + k) · 262144 + position`. -/
theorem v19_eq (a0 : (⟨S16x17x512x512, .f32⟩ : BufTy).Contents (Elt Ideal)) (a1 : (⟨S16x30x17, .i32⟩ : BufTy).Contents (Elt Ideal))
    (hsc : S16x17x512x512.ShapeCasts Cert.Spec.S16x17x262144)
    (hp : ∀ j, 0 ≤ (a1 j).toInt ∧ (a1 j).toInt < 262144) (b : Fin 16) (n : Fin 30) (k : Fin 17) :
    val_main_v19 (F := Ideal) a0 a1 (ix4 b n k 0) = Cert.Spec.gsum (shapeCast Cert.Spec.S16x17x262144 a0 hsc) a1 (ix3 b n k) := by
  have hq : (a1 (ix3 b n k)).toNat < 262144 := Cert.Spec.toNat_lt_of_toInt (hp _).1 (hp _).2
  have hA : min (val_main_v17 (F := Ideal) a1 (ix4 b n k (0 : Fin 2))).toInt.toNat 16 = k.val := by
    rw [v17_chan, v16_word]
    exact chan_clamp k
  have e15 : idx_main_v15 (ix4 b n k (0 : Fin 1)) = ix3 b n k := funext fun c => match c with
    | ⟨0, _⟩ => rfl
    | ⟨1, _⟩ => rfl
    | ⟨2, _⟩ => rfl
  have hB : min (val_main_v17 (F := Ideal) a1 (ix4 b n k (1 : Fin 2))).toInt.toNat 262143 = (a1 (ix3 b n k)).toNat := by
    rw [v17_pos, val_main_v15_apply, e15, v12_word a1 _ (hp _).1]
    exact pos_clamp (hp _)
  have e19 : idx_main_v19 (ix4 b n k (0 : Fin 1)) = ix4 b (0 : Fin 1) n k := funext fun c => match c with
    | ⟨0, _⟩ => rfl
    | ⟨1, _⟩ => rfl
    | ⟨2, _⟩ => rfl
    | ⟨3, _⟩ => rfl
  rw [Cert.Spec.gsum_eq_at _ _ _ hq, val_main_v19_apply, e19]
  unfold val_main_v18 val_main_v0
  rw [gather_apply]
  unfold shapeCast
  refine congrArg a0 (Shape.reshapeEquiv_eq_of_rowMajor _ ?_)
  rw [Shape.rowMajor_reshapeEquiv, Shape.rowMajor_val_three, Shape.rowMajor_val_four]
  show (b.val * 17 + k.val) * 262144 + (a1 (ix3 b n k)).toNat
    = ((b.val * 1 + 0) * 17 + min (val_main_v17 (F := Ideal) a1 (ix4 b n k (0 : Fin 2))).toInt.toNat 16) * 262144
      + min (val_main_v17 (F := Ideal) a1 (ix4 b n k (1 : Fin 2))).toInt.toNat 262143
  rw [hA, hB]
  omega

end Cert.Bridge.Gather

end
-- ==== Proof.BridgePull.lean ====
/-
  The pull loss of the reference is the pull loss of the kernel's host tail, one array at a time.

  Where the gathered tags enter, the reference computes on arrays with a trailing axis of length one
  ([16,30,17,1] and [16,30,1]); the kernel's tail computes on [16,30,17] and [16,30]. Given that the reference's
  gathered tags at (b, n, k, 0) are `G (b, n, k)`, each reference array is the kernel-tail array of the same meaning
  with that axis dropped: the visibility as a float, the count of visible keypoints and its maximum with one, the
  sum of the visible tags and the mean tag, the squared distance of each tag to its instance's mean, its visible sum
  over the keypoints divided by the count, the sum of that over the valid instances divided by their number plus ε,
  and the sum over the images. Two steps are not coordinate by coordinate: the reference sums the squared distance
  over the axis of length one (zero plus the one term), and multiplies the count by the constant one. Its zeros for
  the invalid instances are a scalar broadcast twice where the kernel's tail broadcasts it once.
-/
import proofs.«420666_j78812649882012_1_alg».proof.Proof.RefRead
import proofs.«420666_j78812649882012_1_alg».proof.Proof.KITailDefs
import Idealize.ShloMosaic.Lib.IdealHost
import Idealize.ShloMosaic.Lib.ValueIdx

noncomputable section

namespace Cert.Bridge.Pull

open Cert.ReferenceIdeal Cert.ReferenceIdeal.ReadP Idealize.ShloMosaic Idealize.ShloMosaic.ValueIdx Cert.KernelIdeal.Tail

variable (a0 : (⟨S16x17x512x512, .f32⟩ : BufTy).Contents (Elt Ideal)) (a1 a2 : (⟨S16x30x17, .i32⟩ : BufTy).Contents (Elt Ideal)) (G : (⟨S16x30x17, .f32⟩ : BufTy).Contents (Elt Ideal))

/-! ## The arrays that depend on the visibility alone: the same operations on the same array -/

/-- the visibility as a float. -/
theorem v20_eq : val_main_v20 (F := Ideal) a2 = t2 (F := Ideal) a2 := rfl

/-- the count of visible keypoints. -/
theorem v21_eq : val_main_v21 (F := Ideal) a2 = t3 (F := Ideal) a2 := rfl

/-- zeros. -/
theorem v22_eq : val_main_v22 (F := Ideal) = t4 (F := Ideal) := rfl

/-- valid: the count is positive. -/
theorem v23_eq : val_main_v23 (F := Ideal) a2 = t5 (F := Ideal) a2 := rfl

/-- ones. -/
theorem v24_eq : val_main_v24 (F := Ideal) = t6 (F := Ideal) := rfl

/-- the count's maximum with one. -/
theorem v25_eq : val_main_v25 (F := Ideal) a2 = t7 (F := Ideal) a2 := rfl

/-! ## The arrays with the trailing unit axis, at (b, n, k, 0) and (b, n, 0) -/

/-- the visibility with a unit axis appended reads the visibility. -/
theorem v26_at (b : Fin 16) (n : Fin 30) (k : Fin 17) :
    val_main_v26 (F := Ideal) a2 (ix4 b n k 0) = t2 (F := Ideal) a2 (ix3 b n k) := by
  rw [val_main_v26_apply, v20_eq]
  refine congrArg _ (funext fun a => ?_)
  match a with | ⟨0, _⟩ => rfl | ⟨1, _⟩ => rfl | ⟨2, _⟩ => rfl

/-- tag times visibility. -/
theorem v27_at (hG : ∀ (b : Fin 16) (n : Fin 30) (k : Fin 17), val_main_v19 (F := Ideal) a0 a1 (ix4 b n k 0) = G (ix3 b n k))
    (b : Fin 16) (n : Fin 30) (k : Fin 17) :
    val_main_v27 (F := Ideal) a0 a1 a2 (ix4 b n k 0) = t8 (F := Ideal) G a2 (ix3 b n k) := by
  rw [val_main_v27_apply, hG, v26_at]
  rfl

/-- the sum of the visible tags: both sides are zero plus the sum over the 17 keypoints of the same terms. -/
theorem v28_at (hG : ∀ (b : Fin 16) (n : Fin 30) (k : Fin 17), val_main_v19 (F := Ideal) a0 a1 (ix4 b n k 0) = G (ix3 b n k))
    (b : Fin 16) (n : Fin 30) :
    val_main_v28 (F := Ideal) a0 a1 a2 (ix3 b n 0) = t9 (F := Ideal) G a2 (ix2 b n) := by
  rw [val_main_v28_apply]
  unfold Cert.KernelIdeal.Tail.t9
  rw [hostReduceAdd_apply, Ideal.hostReduceAdd_single _ (by decide)]
  refine congrArg₂ (· + ·) rfl (Finset.sum_congr rfl fun k _ => ?_)
  have e1 : idx_main_v28 (ix3 b n 0) k = ix4 b n k 0 := by
    funext a
    match a with | ⟨0, _⟩ => rfl | ⟨1, _⟩ => rfl | ⟨2, _⟩ => rfl | ⟨3, _⟩ => rfl
  rw [e1, v27_at a0 a1 a2 G hG]
  refine congrArg _ (funext fun a => ?_)
  match a with | ⟨0, _⟩ => rfl | ⟨1, _⟩ => rfl | ⟨2, _⟩ => rfl

/-- the count's maximum with one, with a unit axis appended. -/
theorem v29_at (b : Fin 16) (n : Fin 30) :
    val_main_v29 (F := Ideal) a2 (ix3 b n 0) = t7 (F := Ideal) a2 (ix2 b n) := by
  rw [val_main_v29_apply, v25_eq]
  refine congrArg _ (funext fun a => ?_)
  match a with | ⟨0, _⟩ => rfl | ⟨1, _⟩ => rfl

/-- the mean tag. -/
theorem mean_eq (hG : ∀ (b : Fin 16) (n : Fin 30) (k : Fin 17), val_main_v19 (F := Ideal) a0 a1 (ix4 b n k 0) = G (ix3 b n k))
    (b : Fin 16) (n : Fin 30) :
    val_main_v30 (F := Ideal) a0 a1 a2 (ix3 b n 0) = t10 (F := Ideal) G a2 (ix2 b n) := by
  rw [val_main_v30_apply, v28_at a0 a1 a2 G hG, v29_at]
  rfl

/-- the kernel tail's mean tag with a unit axis reads the mean tag. -/
theorem t11_at (b : Fin 16) (n : Fin 30) :
    t11 (F := Ideal) G a2 (ix3 b n 0) = t10 (F := Ideal) G a2 (ix2 b n) := by
  unfold Cert.KernelIdeal.Tail.t11
  exact broadcastInDim_apply _ _ _ _ _ (fun a => match a with
    | ⟨0, _⟩ => by show b.val = if (16 : Nat) = 1 then 0 else b.val; rw [if_neg (by decide)]
    | ⟨1, _⟩ => by show n.val = if (30 : Nat) = 1 then 0 else n.val; rw [if_neg (by decide)])

/-- the kernel tail's mean tag spread over the keypoints reads the mean tag of the instance. -/
theorem t12_at (b : Fin 16) (n : Fin 30) (k : Fin 17) :
    t12 (F := Ideal) G a2 (ix3 b n k) = t11 (F := Ideal) G a2 (ix3 b n 0) := by
  unfold Cert.KernelIdeal.Tail.t12
  exact broadcastInDim_apply _ _ _ _ _ (fun a => match a with
    | ⟨0, _⟩ => by show b.val = if (16 : Nat) = 1 then 0 else b.val; rw [if_neg (by decide)]
    | ⟨1, _⟩ => by show n.val = if (30 : Nat) = 1 then 0 else n.val; rw [if_neg (by decide)]
    | ⟨2, _⟩ => by show (0 : Fin 1).val = if (1 : Nat) = 1 then 0 else k.val; rw [if_pos rfl]; rfl)

/-- the reference's mean tag spread over the keypoints (two broadcasts) reads the mean tag of the instance. -/
theorem v32_at (hG : ∀ (b : Fin 16) (n : Fin 30) (k : Fin 17), val_main_v19 (F := Ideal) a0 a1 (ix4 b n k 0) = G (ix3 b n k))
    (b : Fin 16) (n : Fin 30) (k : Fin 17) :
    val_main_v32 (F := Ideal) a0 a1 a2 (ix4 b n k 0) = t12 (F := Ideal) G a2 (ix3 b n k) := by
  rw [val_main_v32_apply, val_main_v31_apply, t12_at, t11_at, ← mean_eq a0 a1 a2 G hG b n]
  refine congrArg _ (funext fun a => ?_)
  match a with | ⟨0, _⟩ => rfl | ⟨1, _⟩ => rfl | ⟨2, _⟩ => rfl

/-- tag minus its instance's mean. -/
theorem v33_at (hG : ∀ (b : Fin 16) (n : Fin 30) (k : Fin 17), val_main_v19 (F := Ideal) a0 a1 (ix4 b n k 0) = G (ix3 b n k))
    (b : Fin 16) (n : Fin 30) (k : Fin 17) :
    val_main_v33 (F := Ideal) a0 a1 a2 (ix4 b n k 0) = t13 (F := Ideal) G a2 (ix3 b n k) := by
  rw [val_main_v33_apply, hG, v32_at a0 a1 a2 G hG]
  rfl

/-- squared. -/
theorem v34_at (hG : ∀ (b : Fin 16) (n : Fin 30) (k : Fin 17), val_main_v19 (F := Ideal) a0 a1 (ix4 b n k 0) = G (ix3 b n k))
    (b : Fin 16) (n : Fin 30) (k : Fin 17) :
    val_main_v34 (F := Ideal) a0 a1 a2 (ix4 b n k 0) = t14 (F := Ideal) G a2 (ix3 b n k) := by
  rw [val_main_v34_apply, v33_at a0 a1 a2 G hG]
  rfl

/-! ## From here on the unit axis is gone: whole arrays -/

/-- the sum over the axis of length one is zero plus its one term. -/
theorem v35_eq (hG : ∀ (b : Fin 16) (n : Fin 30) (k : Fin 17), val_main_v19 (F := Ideal) a0 a1 (ix4 b n k 0) = G (ix3 b n k)) :
    val_main_v35 (F := Ideal) a0 a1 a2 = t14 (F := Ideal) G a2 := by
  funext i
  obtain ⟨b, n, k, rfl⟩ : ∃ (b : Fin 16) (n : Fin 30) (k : Fin 17), i = ix3 b n k := ⟨i 0, i 1, i 2, eq_ix3 i⟩
  rw [val_main_v35_apply, Fin.sum_univ_one]
  have e1 : idx_main_v35 (ix3 b n k) 0 = ix4 b n k 0 := by
    funext a
    match a with | ⟨0, _⟩ => rfl | ⟨1, _⟩ => rfl | ⟨2, _⟩ => rfl | ⟨3, _⟩ => rfl
  rw [e1, v34_at a0 a1 a2 G hG]
  show Ideal.ofBits .f32 0x00000000#32 + _ = _
  rw [Ideal.ofBits_zero_f32, zero_add]

/-- times visibility. -/
theorem v36_eq (hG : ∀ (b : Fin 16) (n : Fin 30) (k : Fin 17), val_main_v19 (F := Ideal) a0 a1 (ix4 b n k 0) = G (ix3 b n k)) :
    val_main_v36 (F := Ideal) a0 a1 a2 = t15 (F := Ideal) G a2 := by
  unfold val_main_v36
  rw [v35_eq a0 a1 a2 G hG, v20_eq]
  rfl

/-- summed over the keypoints. -/
theorem v37_eq (hG : ∀ (b : Fin 16) (n : Fin 30) (k : Fin 17), val_main_v19 (F := Ideal) a0 a1 (ix4 b n k 0) = G (ix3 b n k)) :
    val_main_v37 (F := Ideal) a0 a1 a2 = t16 (F := Ideal) G a2 := by
  unfold val_main_v37
  rw [v36_eq a0 a1 a2 G hG]
  rfl

/-- the count's maximum with one, times the constant one. -/
theorem v39_eq : val_main_v39 (F := Ideal) a2 = t7 (F := Ideal) a2 := by
  funext i
  rw [val_main_v39_apply, val_main_v38_apply, v25_eq]
  show t7 (F := Ideal) a2 i * Ideal.ofBits .f32 0x3F800000#32 = _
  rw [Ideal.ofBits_one_f32, mul_one]

/-- the visible squared distance divided by the count. -/
theorem v40_eq (hG : ∀ (b : Fin 16) (n : Fin 30) (k : Fin 17), val_main_v19 (F := Ideal) a0 a1 (ix4 b n k 0) = G (ix3 b n k)) :
    val_main_v40 (F := Ideal) a0 a1 a2 = t17 (F := Ideal) G a2 := by
  unfold val_main_v40
  rw [v37_eq a0 a1 a2 G hG, v39_eq]
  rfl

/-- valid as a float. -/
theorem v41_eq : val_main_v41 (F := Ideal) a2 = t18 (F := Ideal) a2 := rfl

/-- the number of valid instances. -/
theorem v42_eq : val_main_v42 (F := Ideal) a2 = t19 (F := Ideal) a2 := rfl

/-- that where valid, else zero; the zero is a scalar read through two broadcasts on one side and one on the other. -/
theorem v43_eq (hG : ∀ (b : Fin 16) (n : Fin 30) (k : Fin 17), val_main_v19 (F := Ideal) a0 a1 (ix4 b n k 0) = G (ix3 b n k)) :
    val_main_v43 (F := Ideal) a0 a1 a2 = t20 (F := Ideal) G a2 := by
  funext i
  rw [val_main_v43_apply, v40_eq a0 a1 a2 G hG, val_main_call0_v2_apply, val_main_call0_v1_apply]
  unfold Cert.KernelIdeal.Tail.t20
  rw [select_apply, broadcastInDim_scalar_apply]
  rfl

/-- summed over the instances. -/
theorem v44_eq (hG : ∀ (b : Fin 16) (n : Fin 30) (k : Fin 17), val_main_v19 (F := Ideal) a0 a1 (ix4 b n k 0) = G (ix3 b n k)) :
    val_main_v44 (F := Ideal) a0 a1 a2 = t21 (F := Ideal) G a2 := by
  unfold val_main_v44
  rw [v43_eq a0 a1 a2 G hG]
  rfl

/-- ε. -/
theorem v45_eq : val_main_v45 (F := Ideal) = t22 (F := Ideal) := rfl

/-- the number of valid instances plus ε. -/
theorem v46_eq : val_main_v46 (F := Ideal) a2 = t23 (F := Ideal) a2 := rfl

/-- the pull term of each image. -/
theorem v47_eq (hG : ∀ (b : Fin 16) (n : Fin 30) (k : Fin 17), val_main_v19 (F := Ideal) a0 a1 (ix4 b n k 0) = G (ix3 b n k)) :
    val_main_v47 (F := Ideal) a0 a1 a2 = t24 (F := Ideal) G a2 := by
  unfold val_main_v47
  rw [v44_eq a0 a1 a2 G hG, v46_eq]
  rfl

/-- summed over the images. -/
theorem v74_eq (hG : ∀ (b : Fin 16) (n : Fin 30) (k : Fin 17), val_main_v19 (F := Ideal) a0 a1 (ix4 b n k 0) = G (ix3 b n k)) :
    val_main_v74 (F := Ideal) a0 a1 a2 = t50 (F := Ideal) G a2 := by
  unfold val_main_v74
  rw [v47_eq a0 a1 a2 G hG]
  rfl

/-- the pull loss. -/
theorem pull_eq (hG : ∀ (b : Fin 16) (n : Fin 30) (k : Fin 17), val_main_v19 (F := Ideal) a0 a1 (ix4 b n k 0) = G (ix3 b n k)) :
    val_main_v75 (F := Ideal) a0 a1 a2 = t51 (F := Ideal) G a2 := by
  unfold val_main_v75
  rw [v74_eq a0 a1 a2 G hG]
  rfl

end Cert.Bridge.Pull

end
-- ==== Proof.BridgePush.lean ====
/-
  The push chain of the reference, stage by stage, against the kernel's host tail.

  Given that the reference's mean tag at (b, n, 0) is the tail's mean tag at (b, n), every later array of the push term
  is the tail's array of the same stage with the reference's trailing unit axis dropped: the mean as a row and as a
  column, their difference over pairs (i, j) of instances, its square, negation and exponential, the product with the
  pair mask, the sum over all pairs per image, the quotient by (Nv - 1) Nv + eps, its selection where Nv > 1, and the sum
  over the images with its two constant factors. The arrays that depend on the visibility words alone are the same
  terms on both sides.
-/
import proofs.«420666_j78812649882012_1_alg».proof.Proof.RefRead
import proofs.«420666_j78812649882012_1_alg».proof.Proof.KITailDefs
import Idealize.ShloMosaic.Lib.IdealHost

noncomputable section

namespace Cert.Bridge.Push

open Cert.ReferenceIdeal Cert.ReferenceIdeal.Gen Cert.ReferenceIdeal.ReadP Idealize.ShloMosaic Idealize.ShloMosaic.ValueIdx
open Cert.KernelIdeal.Tail
open scoped BigOperators

variable (a0 : (⟨S16x17x512x512, .f32⟩ : BufTy).Contents (Elt Ideal)) (a1 a2 : (⟨S16x30x17, .i32⟩ : BufTy).Contents (Elt Ideal)) (G : (⟨S16x30x17, .f32⟩ : BufTy).Contents (Elt Ideal))

/-! ## The arrays of the visibility words alone: the same terms on both sides -/

/-- valid: more than zero visible keypoints. -/
theorem v23_eq : val_main_v23 (F := Ideal) a2 = t5 (F := Ideal) a2 := rfl
/-- Nv: the number of valid instances of an image. -/
theorem v42_eq : val_main_v42 (F := Ideal) a2 = t19 (F := Ideal) a2 := rfl
/-- the pair mask as a float. -/
theorem v58_eq : val_main_v58 (F := Ideal) a2 = t35 (F := Ideal) a2 := rfl
/-- Nv > 1. -/
theorem v66_eq : val_main_v66 (F := Ideal) a2 = t42 (F := Ideal) a2 := rfl
/-- (Nv - 1) Nv + eps. -/
theorem v71_eq : val_main_v71 (F := Ideal) a2 = t47 (F := Ideal) a2 := rfl

/-! ## The chain from the mean tag -/

section Chain
variable (hmean : ∀ (b : Fin 16) (n : Fin 30), ReadP.val_main_v30 (F := Ideal) a0 a1 a2 (ix3 b n 0) = Cert.KernelIdeal.Tail.t10 (F := Ideal) G a2 (ix2 b n))
include hmean

/-- The mean tag as a row: at (b, ·, j, ·) it is the mean tag of instance j. -/
theorem v48_eq (b : Fin 16) (z : Fin 1) (j : Fin 30) (w : Fin 1) :
    val_main_v48 (F := Ideal) a0 a1 a2 (ix4 b z j w) = t25 (F := Ideal) G a2 (ix3 b z j) := by
  rw [val_main_v48_apply]
  have hi : idx_main_v48 (ix4 b z j w) = ix3 b j 0 := by
    funext a; match a with | ⟨0, _⟩ => rfl | ⟨1, _⟩ => rfl | ⟨2, _⟩ => rfl
  rw [hi, hmean b j]
  unfold t25
  generalize t10 (F := Ideal) G a2 = y
  exact (broadcastInDim_apply _ Cert.KernelIdeal.Gen.bcast_S16x30_S16x1x30_0_2 y (ix3 b z j) (ix2 b j) (fun a => match a with
    | ⟨0, _⟩ => by show b.val = if (16 : Nat) = 1 then 0 else b.val; rw [if_neg (by decide)]
    | ⟨1, _⟩ => by show j.val = if (30 : Nat) = 1 then 0 else j.val; rw [if_neg (by decide)])).symm

/-- The mean tag as a column: at (b, i, ·, ·) it is the mean tag of instance i. -/
theorem v49_eq (b : Fin 16) (i : Fin 30) (z : Fin 1) (w : Fin 1) :
    val_main_v49 (F := Ideal) a0 a1 a2 (ix4 b i z w) = t26 (F := Ideal) G a2 (ix3 b i z) := by
  rw [val_main_v49_apply]
  have hi : idx_main_v49 (ix4 b i z w) = ix3 b i 0 := by
    funext a; match a with | ⟨0, _⟩ => rfl | ⟨1, _⟩ => rfl | ⟨2, _⟩ => rfl
  rw [hi, hmean b i]
  unfold t26
  generalize t10 (F := Ideal) G a2 = y
  exact (broadcastInDim_apply _ Cert.KernelIdeal.Gen.bcast_S16x30_S16x30x1_0_1 y (ix3 b i z) (ix2 b i) (fun a => match a with
    | ⟨0, _⟩ => by show b.val = if (16 : Nat) = 1 then 0 else b.val; rw [if_neg (by decide)]
    | ⟨1, _⟩ => by show i.val = if (30 : Nat) = 1 then 0 else i.val; rw [if_neg (by decide)])).symm

/-- mean[j] at the pair (i, j). -/
theorem v50_eq (b : Fin 16) (i j : Fin 30) (w : Fin 1) :
    val_main_v50 (F := Ideal) a0 a1 a2 (ix4 b i j w) = t27 (F := Ideal) G a2 (ix3 b i j) := by
  rw [val_main_v50_apply]
  have hi : idx_main_v50 (ix4 b i j w) = ix4 b 0 j 0 := by
    funext a; match a with | ⟨0, _⟩ => rfl | ⟨1, _⟩ => rfl | ⟨2, _⟩ => rfl | ⟨3, _⟩ => rfl
  rw [hi, v48_eq a0 a1 a2 G hmean b 0 j 0]
  unfold t27
  generalize t25 (F := Ideal) G a2 = y
  exact (broadcastInDim_apply _ Cert.KernelIdeal.Gen.bcast_S16x1x30_S16x30x30_0_1_2 y (ix3 b i j) (ix3 b 0 j) (fun a => match a with
    | ⟨0, _⟩ => by show b.val = if (16 : Nat) = 1 then 0 else b.val; rw [if_neg (by decide)]
    | ⟨1, _⟩ => by show 0 = if (1 : Nat) = 1 then 0 else i.val; rw [if_pos rfl]
    | ⟨2, _⟩ => by show j.val = if (30 : Nat) = 1 then 0 else j.val; rw [if_neg (by decide)])).symm

/-- mean[i] at the pair (i, j). -/
theorem v51_eq (b : Fin 16) (i j : Fin 30) (w : Fin 1) :
    val_main_v51 (F := Ideal) a0 a1 a2 (ix4 b i j w) = t28 (F := Ideal) G a2 (ix3 b i j) := by
  rw [val_main_v51_apply]
  have hi : idx_main_v51 (ix4 b i j w) = ix4 b i 0 0 := by
    funext a; match a with | ⟨0, _⟩ => rfl | ⟨1, _⟩ => rfl | ⟨2, _⟩ => rfl | ⟨3, _⟩ => rfl
  rw [hi, v49_eq a0 a1 a2 G hmean b i 0 0]
  unfold t28
  generalize t26 (F := Ideal) G a2 = y
  exact (broadcastInDim_apply _ Cert.KernelIdeal.Gen.bcast_S16x30x1_S16x30x30_0_1_2 y (ix3 b i j) (ix3 b i 0) (fun a => match a with
    | ⟨0, _⟩ => by show b.val = if (16 : Nat) = 1 then 0 else b.val; rw [if_neg (by decide)]
    | ⟨1, _⟩ => by show i.val = if (30 : Nat) = 1 then 0 else i.val; rw [if_neg (by decide)]
    | ⟨2, _⟩ => by show 0 = if (1 : Nat) = 1 then 0 else j.val; rw [if_pos rfl])).symm

/-- The difference of the two means of a pair. -/
theorem v52_eq (b : Fin 16) (i j : Fin 30) (w : Fin 1) :
    val_main_v52 (F := Ideal) a0 a1 a2 (ix4 b i j w) = t29 (F := Ideal) G a2 (ix3 b i j) := by
  rw [val_main_v52_apply, v50_eq a0 a1 a2 G hmean, v51_eq a0 a1 a2 G hmean]; rfl

/-- Its square. -/
theorem v59_eq (b : Fin 16) (i j : Fin 30) (w : Fin 1) :
    val_main_v59 (F := Ideal) a0 a1 a2 (ix4 b i j w) = t36 (F := Ideal) G a2 (ix3 b i j) := by
  rw [val_main_v59_apply, v52_eq a0 a1 a2 G hmean]; rfl

/-- Negated. -/
theorem v60_eq (b : Fin 16) (i j : Fin 30) (w : Fin 1) :
    val_main_v60 (F := Ideal) a0 a1 a2 (ix4 b i j w) = t37 (F := Ideal) G a2 (ix3 b i j) := by
  rw [val_main_v60_apply, v59_eq a0 a1 a2 G hmean]; rfl

/-- Its exponential. -/
theorem v61_eq (b : Fin 16) (i j : Fin 30) (w : Fin 1) :
    val_main_v61 (F := Ideal) a0 a1 a2 (ix4 b i j w) = t38 (F := Ideal) G a2 (ix3 b i j) := by
  rw [val_main_v61_apply, v60_eq a0 a1 a2 G hmean]; rfl

omit hmean in
/-- The pair mask with the unit axis appended. -/
theorem v62_eq (b : Fin 16) (i j : Fin 30) (w : Fin 1) :
    val_main_v62 (F := Ideal) a2 (ix4 b i j w) = t35 (F := Ideal) a2 (ix3 b i j) := by
  rw [val_main_v62_apply, v58_eq]
  have hi : idx_main_v62 (ix4 b i j w) = ix3 b i j := by
    funext a; match a with | ⟨0, _⟩ => rfl | ⟨1, _⟩ => rfl | ⟨2, _⟩ => rfl
  rw [hi]

/-- The masked exponential of a pair. -/
theorem v63_eq (b : Fin 16) (i j : Fin 30) (w : Fin 1) :
    val_main_v63 (F := Ideal) a0 a1 a2 (ix4 b i j w) = t39 (F := Ideal) G a2 (ix3 b i j) := by
  rw [val_main_v63_apply, v61_eq a0 a1 a2 G hmean, v62_eq]; rfl

end Chain

/-! ## The sum over all pairs: the two index sets in bijection -/

/-- Dropping the trailing unit coordinate of an index of f32[16,30,30,1] is a bijection onto the indices of
    f32[16,30,30]; its inverse appends the coordinate 0. -/
def dropUnit : S16x30x30x1.Idx ≃ S16x30x30.Idx where
  toFun i := ix3 (i 0) (i 1) (i 2)
  invFun i := ix4 (i 0) (i 1) (i 2) 0
  left_inv i := by
    funext a
    match a with
    | ⟨0, _⟩ => rfl
    | ⟨1, _⟩ => rfl
    | ⟨2, _⟩ => rfl
    | ⟨3, _⟩ => exact Fin.ext (by have h3 : (i 3).val < 1 := (i 3).isLt; show 0 = (i 3).val; omega)
  right_inv i := by
    funext a; match a with | ⟨0, _⟩ => rfl | ⟨1, _⟩ => rfl | ⟨2, _⟩ => rfl

/-- Both sums drop an index to its image coordinate. -/
theorem drop_dropUnit (i : S16x30x30x1.Idx) :
    reducesTo_S16x30x30x1_S16_d1_2_3.drop i = Cert.KernelIdeal.Gen.reducesTo_S16x30x30_S16_d1_2.drop (dropUnit i) := by
  funext c
  match c with
  | ⟨0, _⟩ =>
    exact Fin.ext ((Shape.ReducesTo.drop_apply_val_of_eq reducesTo_S16x30x30x1_S16_d1_2_3 i 0 0).trans
      (Shape.ReducesTo.drop_apply_val_of_eq Cert.KernelIdeal.Gen.reducesTo_S16x30x30_S16_d1_2 (dropUnit i) 0 0).symm)

/-- The sum over all pairs of an image. -/
theorem v64_eq (hmean : ∀ (b : Fin 16) (n : Fin 30), ReadP.val_main_v30 (F := Ideal) a0 a1 a2 (ix3 b n 0) = Cert.KernelIdeal.Tail.t10 (F := Ideal) G a2 (ix2 b n)) :
    val_main_v64 (F := Ideal) a0 a1 a2 = t40 (F := Ideal) G a2 := by
  funext k
  unfold val_main_v64 t40
  rw [hostReduceAdd_apply, hostReduceAdd_apply]
  unfold Ideal.hostReduceAdd
  refine congrArg (_ + ·) ?_
  refine Finset.sum_equiv dropUnit (fun i => ?_) (fun i _ => ?_)
  · rw [Finset.mem_filter, Finset.mem_filter, drop_dropUnit]
    exact ⟨fun h => ⟨Finset.mem_univ _, h.2⟩, fun h => ⟨Finset.mem_univ _, h.2⟩⟩
  · rw [eq_ix4 i]
    exact v63_eq a0 a1 a2 G hmean (i 0) (i 1) (i 2) (i 3)

/-! ## The quotient, the selection, and the sum over the images -/

section Tail
variable (hmean : ∀ (b : Fin 16) (n : Fin 30), ReadP.val_main_v30 (F := Ideal) a0 a1 a2 (ix3 b n 0) = Cert.KernelIdeal.Tail.t10 (F := Ideal) G a2 (ix2 b n))
include hmean

/-- push_sum over (Nv - 1) Nv + eps. -/
theorem v72_eq : val_main_v72 (F := Ideal) a0 a1 a2 = t48 (F := Ideal) G a2 := by
  unfold val_main_v72 t48
  rw [v64_eq a0 a1 a2 G hmean, v71_eq]

/-- That where Nv > 1, else zero. -/
theorem v73_eq : val_main_v73 (F := Ideal) a0 a1 a2 = t49 (F := Ideal) G a2 := by
  unfold val_main_v73 t49
  rw [v72_eq a0 a1 a2 G hmean, v66_eq]
  rfl

/-- Summed over the images. -/
theorem v76_eq : val_main_v76 (F := Ideal) a0 a1 a2 = t52 (F := Ideal) G a2 := by
  unfold val_main_v76 t52
  rw [v73_eq a0 a1 a2 G hmean]
  rfl

/-- Times the weight one. -/
theorem v77_eq : val_main_v77 (F := Ideal) a0 a1 a2 = t53 (F := Ideal) G a2 := by
  unfold val_main_v77 t53
  rw [v76_eq a0 a1 a2 G hmean]
  rfl

/-- The push loss: every stage of the reference's push chain is the tail's. -/
theorem push_eq : ReadP.val_main_v78 (F := Ideal) a0 a1 a2 = Cert.KernelIdeal.Tail.t54 (F := Ideal) G a2 := by
  unfold val_main_v78 t54
  rw [v77_eq a0 a1 a2 G hmean]
  rfl

end Tail

end Cert.Bridge.Push

end
-- ==== Proof.lean ====
/-
  The certificate: the associative-embedding pull and push losses computed by a streaming gather kernel equal their
  plain reference, over the extended reals, wherever every keypoint position is a position of the 512 × 512 map.

  The kernel never indexes the tag map. For each batch it walks the 262144 positions in 128 blocks of 2048 lanes and adds
  to a 30 × 17 accumulator, lane by lane, the tag at a position where the keypoint's position word equals it and zero
  elsewhere; the accumulator is zeroed at a batch's first block and copied out at its last. Where the position word is a
  position of the map exactly one lane of one block contributes, so the accumulated sum is the tag the reference's gather
  reads there (a sum of zeros and one term: no finiteness is used). From the gathered tags and the visibility words both
  programs then compute the same pull and push terms; the reference carries a trailing axis of extent one through that
  computation and multiplies one divisor by the constant one, which changes no value.

  The three frames: each kernel program by the launch of its one region over proof data that name what the accumulator
  and the output block hold after every grid point, continued through the host lines after the region; the reference by
  its run. The idealization rewrote nothing, so its record is empty.
-/
import proofs.«420666_j78812649882012_1_alg».proof.Defs
import proofs.«420666_j78812649882012_1_alg».proof.Proof.Gen.Kernel
import proofs.«420666_j78812649882012_1_alg».proof.Proof.Gen.KernelIdeal
import proofs.«420666_j78812649882012_1_alg».proof.Proof.Gen.ReferenceIdeal
import proofs.«420666_j78812649882012_1_alg».proof.Proof.Gen.Pre_finite_inputs
import proofs.«420666_j78812649882012_1_alg».proof.Proof.KFrame
import proofs.«420666_j78812649882012_1_alg».proof.Proof.KIResults
import proofs.«420666_j78812649882012_1_alg».proof.Proof.RefSide
import proofs.«420666_j78812649882012_1_alg».proof.Proof.PreDecode
import proofs.«420666_j78812649882012_1_alg».proof.Proof.BridgeGather
import proofs.«420666_j78812649882012_1_alg».proof.Proof.BridgePull
import proofs.«420666_j78812649882012_1_alg».proof.Proof.BridgePush
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments as launched. -/
theorem frame_p : Cert.frame_Kernel := fun m ρ _ => Cert.Kernel.Fr.frame m ρ

/-- So does the idealized kernel. -/
theorem frame_pi : Cert.frame_KernelIdeal := fun m ρ _ => Cert.KernelIdeal.Fr.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The idealization rewrote nothing. -/
theorem preserves : Cert.preserves_Kernel_KernelIdeal := trivial

/-- From memories agreeing on the arguments both programs end with the same two losses: the kernel's at the tail's terms of
    the gathered tags, the reference's run term equal to them stage by stage, the gather by the precondition's range of the
    position words. -/
theorem algebraic : Cert.algebraic_KernelIdeal_ReferenceIdeal := by
  intro m ρ m' ρ' hpre hagree
  refine ⟨fun c => Cert.KernelIdeal.Tail.t51 (F := Ideal) (Cert.KernelIdeal.Res.gathered m c)
              (m ((c.tc : Thread Cert.KernelIdeal.nD Cert.KernelIdeal.τ).loc Cert.KernelIdeal.main_arg2)),
          fun c => Cert.KernelIdeal.Tail.t54 (F := Ideal) (Cert.KernelIdeal.Res.gathered m c)
              (m ((c.tc : Thread Cert.KernelIdeal.nD Cert.KernelIdeal.τ).loc Cert.KernelIdeal.main_arg2)),
          Cert.KernelIdeal.Res.run_results m ρ, ?_⟩
  refine (θ_run Cert.ReferenceIdeal.defs _ _).mono (fun r h c => ?_) (Cert.ReferenceIdeal.ValueP.run (F := Ideal) m' ρ')
  obtain ⟨h75, h78, h0, h1, h2⟩ := h c
  have hp := Cert.PreDecode.pos_in_range _ _ _ (hpre c)
  have hG := fun b n k => Cert.Bridge.Gather.v19_eq
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    Cert.KernelIdeal.Gen.shapeCasts_S16x17x512x512_S16x17x262144 hp b n k
  refine ⟨h75.trans ?_, h78.trans ?_, h0, h1, h2⟩
  · rw [Cert.ReferenceIdeal.ReadP.val_main_v75_eq, (hagree c).1, (hagree c).2.1, (hagree c).2.2]
    exact Cert.Bridge.Pull.pull_eq _ _ _ _ hG
  · rw [Cert.ReferenceIdeal.ReadP.val_main_v78_eq, (hagree c).1, (hagree c).2.1, (hagree c).2.2]
    exact Cert.Bridge.Push.push_eq _ _ _ _ (Cert.Bridge.Pull.mean_eq _ _ _ _ hG)

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
